-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8x512x512 : Shape := ⟨4, ![16, 8, 512, 512]⟩
abbrev S16x512x512 : Shape := ⟨3, ![16, 512, 512]⟩
abbrev S_ : Shape := ⟨0, ![]⟩

class Facts : Prop where
  bcast_S_S16x8x512x512 : S_.BroadcastsInDim S16x8x512x512 (![] : Fin 0 → Fin S16x8x512x512.rank)
  reducesTo_S16x8x512x512_S_d0_1_2_3 : S16x8x512x512.ReducesTo [0, 1, 2, 3] S_
  h_S_ : 0 < S_.numel

variable [Facts]

def fn {F : FTy → Type} [FloatOps F] (main_arg0 : FVec F S16x8x512x512 .f32) (main_arg1 : IVec S16x512x512 32) : IVec S_ 1 :=
  let main_v0 : FVec F S16x8x512x512 .f32 := Host.absf main_arg0
  let main_cst : FVec F S_ .f32 := constant S_ .f32 0x7F800000#32
  let main_v1 : FVec F S16x8x512x512 .f32 := broadcastInDim S16x8x512x512 ![] bcast_S_S16x8x512x512 main_cst
  let main_v2 : IVec S16x8x512x512 1 := cmpf .olt main_v0 main_v1
  let main_c : IVec S_ 1 := constantI S_ 1 1#1
  let main_v3 : IVec S_ 1 := (fun x v => Host.reduce IntOp.andi x v reducesTo_S16x8x512x512_S_d0_1_2_3 h_S_) main_v2 main_c
  main_v3
-- ==== Kernel.lean ====
abbrev S16x8x512x512 : Shape := ⟨4, ![16, 8, 512, 512]⟩
abbrev S16x512x512 : Shape := ⟨3, ![16, 512, 512]⟩
abbrev S16x1x8 : Shape := ⟨3, ![16, 1, 8]⟩
abbrev S1x8x256x512 : Shape := ⟨4, ![1, 8, 256, 512]⟩
abbrev S1x256x512 : Shape := ⟨3, ![1, 256, 512]⟩
abbrev S1x1x8 : Shape := ⟨3, ![1, 1, 8]⟩
abbrev S256x512 : Shape := ⟨2, ![256, 512]⟩
abbrev S1x1x256x512 : Shape := ⟨4, ![1, 1, 256, 512]⟩
abbrev S256 : Shape := ⟨1, ![256]⟩
abbrev S256x1 : Shape := ⟨2, ![256, 1]⟩
abbrev S256x8 : Shape := ⟨2, ![256, 8]⟩
abbrev S8 : Shape := ⟨1, ![8]⟩
abbrev S1x8 : Shape := ⟨2, ![1, 8]⟩
abbrev S16x8 : Shape := ⟨2, ![16, 8]⟩
abbrev S_ : Shape := ⟨0, ![]⟩
abbrev S16 : Shape := ⟨1, ![16]⟩

abbrev nBuf : Space → Nat
  | .hbm => 31
  | .vmem => 10
  | .smem => 0
  | _ => 0

abbrev bufTy : (tb : Table) → Fin (tcTables nBuf tb) → BufTy
  | .hbm, ⟨0, _⟩ => ⟨S16x8x512x512, .f32⟩
  | .hbm, ⟨1, _⟩ => ⟨S16x512x512, .i32⟩
  | .hbm, ⟨2, _⟩ => ⟨S16x1x8, .f32⟩
  | .hbm, ⟨3, _⟩ => ⟨S16x1x8, .f32⟩
  | .hbm, ⟨4, _⟩ => ⟨S16x8, .f32⟩
  | .hbm, ⟨5, _⟩ => ⟨S_, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S16x8, .f32⟩
  | .hbm, ⟨14, _⟩ => ⟨S1x8, .f32⟩
  | .hbm, ⟨15, _⟩ => ⟨S16x8, .f32⟩
  | .hbm, ⟨16, _⟩ => ⟨S16x8, .f32⟩
  | .hbm, ⟨17, _⟩ => ⟨S_, .f32⟩
  | .hbm, ⟨18, _⟩ => ⟨S16, .f32⟩
  | .hbm, ⟨19, _⟩ => ⟨S16x8, .f32⟩
  | .hbm, ⟨20, _⟩ => ⟨S1x8, .f32⟩
  | .hbm, ⟨21, _⟩ => ⟨S16x8, .f32⟩
  | .hbm, ⟨22, _⟩ => ⟨S16x8, .f32⟩
  | .hbm, ⟨23, _⟩ => ⟨S_, .f32⟩
  | .hbm, ⟨24, _⟩ => ⟨S16, .f32⟩
  | .hbm, ⟨25, _⟩ => ⟨S16, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .local _ .vmem, ⟨0, _⟩ => ⟨S1x8x256x512, .f32⟩
  | .local _ .vmem, ⟨1, _⟩ => ⟨S1x8x256x512, .f32⟩
  | .local _ .vmem, ⟨2, _⟩ => ⟨S1x256x512, .i32⟩
  | .local _ .vmem, ⟨3, _⟩ => ⟨S1x256x512, .i32⟩
  | .local _ .vmem, ⟨4, _⟩ => ⟨S1x1x8, .f32⟩
  | .local _ .vmem, ⟨5, _⟩ => ⟨S1x1x8, .f32⟩
  | .local _ .vmem, ⟨6, _⟩ => ⟨S1x1x8, .f32⟩
  | .local _ .vmem, ⟨7, _⟩ => ⟨S1x1x8, .f32⟩
  | .local _ .vmem, ⟨8, _⟩ => ⟨S1x1x8, .f32⟩
  | .local _ .vmem, ⟨9, _⟩ => ⟨S1x1x8, .f32⟩
  | _, _ => ⟨S16x8x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_cst_5 : Ref sig .tc := ⟨.hbm, 28, rfl⟩
abbrev main_v19 : Ref sig .tc := ⟨.hbm, 29, rfl⟩
abbrev main_v20 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg1 : BitVec 32 := BitVec.ofNat 32 (i 1).val
  let c1_i32_125 : BitVec 32 := 1#32
  let v196 : BitVec 1 := Scalar.cmpi .eq arg1 c1_i32_125
  let v197 : BitVec 32 := Scalar.extui v196
  let c0_i32_126 : BitVec 32 := 0#32
  let v198 : BitVec 1 := Scalar.cmpi .ne v197 c0_i32_126
  v198

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x1x8_S1x1x8_0_0_0 : ∀ a, (![0, 0, 0] : Fin 3 → Nat) a + S1x1x8.size a ≤ S1x1x8.size a
  h_S1x1x8 : 0 < S1x1x8.numel
  shapeCasts_S1x1x8_S1x1x8 : S1x1x8.ShapeCasts S1x1x8
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  inb_S1x8x256x512_S1x1x256x512_0_0_0_0 : ∀ a, (![0, 0, 0, 0] : Fin 4 → Nat) a + S1x1x256x512.size a ≤ S1x8x256x512.size a
  h_S1x1x256x512 : 0 < S1x1x256x512.numel
  shapeCasts_S1x1x256x512_S256x512 : S1x1x256x512.ShapeCasts S256x512
  inb_S1x8x256x512_S1x1x256x512_0_1_0_0 : ∀ a, (![0, 1, 0, 0] : Fin 4 → Nat) a + S1x1x256x512.size a ≤ S1x8x256x512.size a
  inb_S1x8x256x512_S1x1x256x512_0_2_0_0 : ∀ a, (![0, 2, 0, 0] : Fin 4 → Nat) a + S1x1x256x512.size a ≤ S1x8x256x512.size a
  inb_S1x8x256x512_S1x1x256x512_0_3_0_0 : ∀ a, (![0, 3, 0, 0] : Fin 4 → Nat) a + S1x1x256x512.size a ≤ S1x8x256x512.size a
  inb_S1x8x256x512_S1x1x256x512_0_4_0_0 : ∀ a, (![0, 4, 0, 0] : Fin 4 → Nat) a + S1x1x256x512.size a ≤ S1x8x256x512.size a
  inb_S1x8x256x512_S1x1x256x512_0_5_0_0 : ∀ a, (![0, 5, 0, 0] : Fin 4 → Nat) a + S1x1x256x512.size a ≤ S1x8x256x512.size a
  inb_S1x8x256x512_S1x1x256x512_0_6_0_0 : ∀ a, (![0, 6, 0, 0] : Fin 4 → Nat) a + S1x1x256x512.size a ≤ S1x8x256x512.size a
  inb_S1x8x256x512_S1x1x256x512_0_7_0_0 : ∀ a, (![0, 7, 0, 0] : Fin 4 → Nat) a + S1x1x256x512.size a ≤ S1x8x256x512.size a
  natLt_1_32 : 1 < 32
  reduces_S256x512_S256 : S256x512.Reduces [1] S256
  shapeCasts_S256_S256x1 : S256.ShapeCasts S256x1
  concatenates_S256x1_S256x1_S256x1_S256x1_S256x1_S256x1_S256x1_S256x1_S256x8_d1 : Shape.Concatenates [S256x1, S256x1, S256x1, S256x1, S256x1, S256x1, S256x1, S256x1] S256x8 1
  reduces_S256x8_S8 : S256x8.Reduces [0] S8
  shapeCasts_S8_S1x8 : S8.ShapeCasts S1x8
  shapeCasts_S1x8_S1x1x8 : S1x8.ShapeCasts S1x1x8
  shapeCasts_S16x1x8_S16x8 : S16x1x8.ShapeCasts S16x8
  reducesTo_S16x8_S8_d0 : S16x8.ReducesTo [0] S8
  h_S_ : 0 < S_.numel
  bcast_S_S8 : S_.BroadcastsInDim S8 (![] : Fin 0 → Fin S8.rank)
  bcast_S8_S1x8_1 : S8.BroadcastsInDim S1x8 (![1] : Fin 1 → Fin S1x8.rank)
  bcast_S1x8_S16x8_0_1 : S1x8.BroadcastsInDim S16x8 (![0, 1] : Fin 2 → Fin S16x8.rank)
  reducesTo_S16x8_S16_d1 : S16x8.ReducesTo [1] S16
  reducesTo_S16_S_d0 : S16.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x256x512.size a ≤ S16x8x512x512.size a
  hwx0_0 : ∀ i : grid0.Coords, EltTy.bits .f32 = 32 ∨ (Rect.block (s := S16x8x512x512) S1x8x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x512.size a ≤ S16x512x512.size a
  hwx0_1 : ∀ i : grid0.Coords, EltTy.bits .i32 = 32 ∨ (Rect.block (s := S16x512x512) S1x256x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x8.size a ≤ S16x1x8.size a
  hwx0_2 : ∀ i : grid0.Coords, EltTy.bits .f32 = 32 ∨ (Rect.block (s := S16x1x8) S1x1x8.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x8.size a ≤ S16x1x8.size a
  hwx0_3 : ∀ i : grid0.Coords, EltTy.bits .f32 = 32 ∨ (Rect.block (s := S16x1x8) S1x1x8.size (cc0_transform_3 i) (hinb0_3 i)).WholeWords (EltTy.packing .f32)

variable [Facts₀]

abbrev win0_0 : Pipeline.Window sig grid0 :=
  Pipeline.Window.ofSpec (Memref.whole main_arg0) S1x8x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x8.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x8.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16x8x512x512 : Shape := ⟨4, ![16, 8, 512, 512]⟩
abbrev S16x512x512 : Shape := ⟨3, ![16, 512, 512]⟩
abbrev S_ : Shape := ⟨0, ![]⟩
abbrev S8 : Shape := ⟨1, ![8]⟩
abbrev S4194304 : Shape := ⟨1, ![4194304]⟩
abbrev S4194304x1 : Shape := ⟨2, ![4194304, 1]⟩
abbrev S16x512x512x1 : Shape := ⟨4, ![16, 512, 512, 1]⟩
abbrev S16x1x512x512 : Shape := ⟨4, ![16, 1, 512, 512]⟩
abbrev S16x1x512x512x1 : Shape := ⟨5, ![16, 1, 512, 512, 1]⟩
abbrev S1 : Shape := ⟨1, ![1]⟩
abbrev S1x1x1x1x1 : Shape := ⟨5, ![1, 1, 1, 1, 1]⟩
abbrev S16x262144 : Shape := ⟨2, ![16, 262144]⟩
abbrev S16 : Shape := ⟨1, ![16]⟩

abbrev nBuf : Space → Nat
  | .hbm => 91
  | .vmem => 0
  | .smem => 0
  | _ => 0

abbrev bufTy : (tb : Table) → Fin (tcTables nBuf tb) → BufTy
  | .hbm, ⟨0, _⟩ => ⟨S16x8x512x512, .f32⟩
  | .hbm, ⟨1, _⟩ => ⟨S16x512x512, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S16x512x512, .i32⟩
  | .hbm, ⟨6, _⟩ => ⟨S16x512x512, .i32⟩
  | .hbm, ⟨7, _⟩ => ⟨S_, .i32⟩
  | .hbm, ⟨8, _⟩ => ⟨S16x512x512, .i32⟩
  | .hbm, ⟨9, _⟩ => ⟨S16x512x512, .i32⟩
  | .hbm, ⟨10, _⟩ => ⟨S_, .f32⟩
  | .hbm, ⟨11, _⟩ => ⟨S8, .f32⟩
  | .hbm, ⟨12, _⟩ => ⟨S4194304, .i32⟩
  | .hbm, ⟨13, _⟩ => ⟨S_, .i32⟩
  | .hbm, ⟨14, _⟩ => ⟨S4194304, .i32⟩
  | .hbm, ⟨15, _⟩ => ⟨S4194304, .i1⟩
  | .hbm, ⟨16, _⟩ => ⟨S_, .i32⟩
  | .hbm, ⟨17, _⟩ => ⟨S4194304, .i32⟩
  | .hbm, ⟨18, _⟩ => ⟨S4194304, .i32⟩
  | .hbm, ⟨19, _⟩ => ⟨S4194304, .i32⟩
  | .hbm, ⟨20, _⟩ => ⟨S4194304x1, .i32⟩
  | .hbm, ⟨21, _⟩ => ⟨S_, .f32⟩
  | .hbm, ⟨22, _⟩ => ⟨S4194304, .f32⟩
  | .hbm, ⟨23, _⟩ => ⟨S8, .f32⟩
  | .hbm, ⟨24, _⟩ => ⟨S_, .f32⟩
  | .hbm, ⟨25, _⟩ => ⟨S8, .f32⟩
  | .hbm, ⟨26, _⟩ => ⟨S8, .f32⟩
  | .hbm, ⟨27, _⟩ => ⟨S_, .f32⟩
  | .hbm, ⟨28, _⟩ => ⟨S8, .f32⟩
  | .hbm, ⟨29, _⟩ => ⟨S8, .f32⟩
  | .hbm, ⟨30, _⟩ => ⟨S_, .i32⟩
  | .hbm, ⟨31, _⟩ => ⟨S16x512x512, .i32⟩
  | .hbm, ⟨32, _⟩ => ⟨S16x512x512, .i1⟩
  | .hbm, ⟨33, _⟩ => ⟨S_, .i32⟩
  | .hbm, ⟨34, _⟩ => ⟨S16x512x512, .i32⟩
  | .hbm, ⟨35, _⟩ => ⟨S16x512x512, .i32⟩
  | .hbm, ⟨36, _⟩ => ⟨S16x512x512, .i32⟩
  | .hbm, ⟨37, _⟩ => ⟨S16x512x512x1, .i32⟩
  | .hbm, ⟨38, _⟩ => ⟨S16x512x512, .f32⟩
  | .hbm, ⟨39, _⟩ => ⟨S_, .f32⟩
  | .hbm, ⟨40, _⟩ => ⟨S16x512x512, .f32⟩
  | .hbm, ⟨41, _⟩ => ⟨S_, .f32⟩
  | .hbm, ⟨42, _⟩ => ⟨S16x512x512, .f32⟩
  | .hbm, ⟨43, _⟩ => ⟨S16x512x512, .f32⟩
  | .hbm, ⟨44, _⟩ => ⟨S16x1x512x512, .f32⟩
  | .hbm, ⟨45, _⟩ => ⟨S16x8x512x512, .f32⟩
  | .hbm, ⟨46, _⟩ => ⟨S16x8x512x512, .f32⟩
  | .hbm, ⟨47, _⟩ => ⟨S16x8x512x512, .f32⟩
  | .hbm, ⟨48, _⟩ => ⟨S_, .f32⟩
  | .hbm, ⟨49, _⟩ => ⟨S16x512x512, .f32⟩
  | .hbm, ⟨50, _⟩ => ⟨S16x1x512x512, .f32⟩
  | .hbm, ⟨51, _⟩ => ⟨S16x1x512x512, .f32⟩
  | .hbm, ⟨52, _⟩ => ⟨S16x8x512x512, .f32⟩
  | .hbm, ⟨53, _⟩ => ⟨S16x8x512x512, .f32⟩
  | .hbm, ⟨54, _⟩ => ⟨S16x1x512x512, .i32⟩
  | .hbm, ⟨55, _⟩ => ⟨S_, .i32⟩
  | .hbm, ⟨56, _⟩ => ⟨S16x1x512x512, .i32⟩
  | .hbm, ⟨57, _⟩ => ⟨S16x1x512x512, .i1⟩
  | .hbm, ⟨58, _⟩ => ⟨S_, .i32⟩
  | .hbm, ⟨59, _⟩ => ⟨S16x1x512x512, .i32⟩
  | .hbm, ⟨60, _⟩ => ⟨S16x1x512x512, .i32⟩
  | .hbm, ⟨61, _⟩ => ⟨S16x1x512x512, .i32⟩
  | .hbm, ⟨62, _⟩ => ⟨S16x1x512x512x1, .i32⟩
  | .hbm, ⟨63, _⟩ => ⟨S1, .i32⟩
  | .hbm, ⟨64, _⟩ => ⟨S_, .i32⟩
  | .hbm, ⟨65, _⟩ => ⟨S16x1x512x512x1, .i32⟩
  | .hbm, ⟨66, _⟩ => ⟨S16x1x512x512x1, .i1⟩
  | .hbm, ⟨67, _⟩ => ⟨S1x1x1x1x1, .i32⟩
  | .hbm, ⟨68, _⟩ => ⟨S16x1x512x512x1, .i32⟩
  | .hbm, ⟨69, _⟩ => ⟨S16x1x512x512x1, .i1⟩
  | .hbm, ⟨70, _⟩ => ⟨S16x1x512x512x1, .i1⟩
  | .hbm, ⟨71, _⟩ => ⟨S_, .i1⟩
  | .hbm, ⟨72, _⟩ => ⟨S16x1x512x512, .i1⟩
  | .hbm, ⟨73, _⟩ => ⟨S16x1x512x512, .f32⟩
  | .hbm, ⟨74, _⟩ => ⟨S_, .f32⟩
  | .hbm, ⟨75, _⟩ => ⟨S16x1x512x512, .f32⟩
  | .hbm, ⟨76, _⟩ => ⟨S16x1x512x512, .f32⟩
  | .hbm, ⟨77, _⟩ => ⟨S16x512x512, .f32⟩
  | .hbm, ⟨78, _⟩ => ⟨S16x512x512, .f32⟩
  | .hbm, ⟨79, _⟩ => ⟨S16x262144, .f32⟩
  | .hbm, ⟨80, _⟩ => ⟨S_, .f32⟩
  | .hbm, ⟨81, _⟩ => ⟨S16, .f32⟩
  | .hbm, ⟨82, _⟩ => ⟨S16x262144, .f32⟩
  | .hbm, ⟨83, _⟩ => ⟨S_, .f32⟩
  | .hbm, ⟨84, _⟩ => ⟨S16, .f32⟩
  | .hbm, ⟨85, _⟩ => ⟨S16, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | _, _ => ⟨S16x8x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_c_1 : Ref sig .tc := ⟨.hbm, 13, rfl⟩
abbrev main_v3 : Ref sig .tc := ⟨.hbm, 14, rfl⟩
abbrev main_v4 : Ref sig .tc := ⟨.hbm, 15, rfl⟩
abbrev main_c_2 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_3 : Ref sig .tc := ⟨.hbm, 21, rfl⟩
abbrev main_v9 : Ref sig .tc := ⟨.hbm, 22, rfl⟩
abbrev main_v10 : Ref sig .tc := ⟨.hbm, 23, rfl⟩
abbrev main_cst_4 : Ref sig .tc := ⟨.hbm, 24, rfl⟩
abbrev main_v11 : Ref sig .tc := ⟨.hbm, 25, rfl⟩
abbrev main_v12 : Ref sig .tc := ⟨.hbm, 26, rfl⟩
abbrev main_cst_5 : Ref sig .tc := ⟨.hbm, 27, rfl⟩
abbrev main_v13 : Ref sig .tc := ⟨.hbm, 28, rfl⟩
abbrev main_v14 : Ref sig .tc := ⟨.hbm, 29, rfl⟩
abbrev main_c_6 : Ref sig .tc := ⟨.hbm, 30, rfl⟩
abbrev main_v15 : Ref sig .tc := ⟨.hbm, 31, rfl⟩
abbrev main_v16 : Ref sig .tc := ⟨.hbm, 32, rfl⟩
abbrev main_c_7 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_call1_cst : Ref sig .tc := ⟨.hbm, 39, rfl⟩
abbrev main_call1_v0 : Ref sig .tc := ⟨.hbm, 40, rfl⟩
abbrev main_call1_cst_0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_v6 : Ref sig .tc := ⟨.hbm, 47, rfl⟩
abbrev main_call1_cst_1 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_v22 : Ref sig .tc := ⟨.hbm, 53, rfl⟩
abbrev main_v23 : Ref sig .tc := ⟨.hbm, 54, rfl⟩
abbrev main_call2_c : Ref sig .tc := ⟨.hbm, 55, rfl⟩
abbrev main_call2_v0 : Ref sig .tc := ⟨.hbm, 56, rfl⟩
abbrev main_call2_v1 : Ref sig .tc := ⟨.hbm, 57, rfl⟩
abbrev main_call2_c_0 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_call2_v5 : Ref sig .tc := ⟨.hbm, 62, rfl⟩
abbrev main_call2_c_1 : Ref sig .tc := ⟨.hbm, 63, rfl⟩
abbrev main_call2_c_2 : Ref sig .tc := ⟨.hbm, 64, rfl⟩
abbrev main_call2_v6 : Ref sig .tc := ⟨.hbm, 65, rfl⟩
abbrev main_call2_v7 : Ref sig .tc := ⟨.hbm, 66, rfl⟩
abbrev main_call2_v8 : Ref sig .tc := ⟨.hbm, 67, rfl⟩
abbrev main_call2_v9 : Ref sig .tc := ⟨.hbm, 68, rfl⟩
abbrev main_call2_v10 : Ref sig .tc := ⟨.hbm, 69, rfl⟩
abbrev main_call2_v11 : Ref sig .tc := ⟨.hbm, 70, rfl⟩
abbrev main_call2_c_3 : Ref sig .tc := ⟨.hbm, 71, rfl⟩
abbrev main_call2_v12 : Ref sig .tc := ⟨.hbm, 72, rfl⟩
abbrev main_call2_v13 : Ref sig .tc := ⟨.hbm, 73, rfl⟩
abbrev main_call2_cst : Ref sig .tc := ⟨.hbm, 74, rfl⟩
abbrev main_call2_v14 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_cst_8 : Ref sig .tc := ⟨.hbm, 80, rfl⟩
abbrev main_v28 : Ref sig .tc := ⟨.hbm, 81, rfl⟩
abbrev main_v29 : Ref sig .tc := ⟨.hbm, 82, rfl⟩
abbrev main_cst_9 : Ref sig .tc := ⟨.hbm, 83, rfl⟩
abbrev main_v30 : Ref sig .tc := ⟨.hbm, 84, rfl⟩
abbrev main_v31 : Ref sig .tc := ⟨.hbm, 85, rfl⟩
abbrev main_cst_10 : Ref sig .tc := ⟨.hbm, 86, rfl⟩
abbrev main_v32 : Ref sig .tc := ⟨.hbm, 87, rfl⟩
abbrev main_cst_11 : Ref sig .tc := ⟨.hbm, 88, rfl⟩
abbrev main_v33 : Ref sig .tc := ⟨.hbm, 89, rfl⟩
abbrev main_v34 : Ref sig .tc := ⟨.hbm, 90, rfl⟩

abbrev nD : Nat := 1
abbrev τ : Topo := Topo.v7x

variable {F : FTy → Type} [FloatOps F]

class Facts₀ : Prop where
  bcast_S_S16x512x512 : S_.BroadcastsInDim S16x512x512 (![] : Fin 0 → Fin S16x512x512.rank)
  bcast_S_S8 : S_.BroadcastsInDim S8 (![] : Fin 0 → Fin S8.rank)
  shapeCasts_S16x512x512_S4194304 : S16x512x512.ShapeCasts S4194304
  bcast_S_S4194304 : S_.BroadcastsInDim S4194304 (![] : Fin 0 → Fin S4194304.rank)
  bcast_S4194304_S4194304x1_0 : S4194304.BroadcastsInDim S4194304x1 (![0] : Fin 1 → Fin S4194304x1.rank)
  bcast_S16x512x512_S16x512x512x1_0_1_2 : S16x512x512.BroadcastsInDim S16x512x512x1 (![0, 1, 2] : Fin 3 → Fin S16x512x512x1.rank)
  reducesTo_S16x8x512x512_S16x512x512_d1 : S16x8x512x512.ReducesTo [1] S16x512x512
  h_S_ : 0 < S_.numel
  bcast_S16x512x512_S16x1x512x512_0_2_3 : S16x512x512.BroadcastsInDim S16x1x512x512 (![0, 2, 3] : Fin 3 → Fin S16x1x512x512.rank)
  bcast_S16x1x512x512_S16x8x512x512_0_1_2_3 : S16x1x512x512.BroadcastsInDim S16x8x512x512 (![0, 1, 2, 3] : Fin 4 → Fin S16x8x512x512.rank)
  bcast_S_S16x1x512x512 : S_.BroadcastsInDim S16x1x512x512 (![] : Fin 0 → Fin S16x1x512x512.rank)
  shapeCasts_S16x1x512x512_S16x1x512x512x1 : S16x1x512x512.ShapeCasts S16x1x512x512x1
  bcast_S_S16x1x512x512x1 : S_.BroadcastsInDim S16x1x512x512x1 (![] : Fin 0 → Fin S16x1x512x512x1.rank)
  bcast_S1_S1x1x1x1x1_4 : S1.BroadcastsInDim S1x1x1x1x1 (![4] : Fin 1 → Fin S1x1x1x1x1.rank)
  bcast_S1x1x1x1x1_S16x1x512x512x1_0_1_2_3_4 : S1x1x1x1x1.BroadcastsInDim S16x1x512x512x1 (![0, 1, 2, 3, 4] : Fin 5 → Fin S16x1x512x512x1.rank)
  reducesTo_S16x1x512x512x1_S16x1x512x512_d4 : S16x1x512x512x1.ReducesTo [4] S16x1x512x512
  shapeCasts_S16x1x512x512_S16x512x512 : S16x1x512x512.ShapeCasts S16x512x512
  shapeCasts_S16x512x512_S16x262144 : S16x512x512.ShapeCasts S16x262144
  reducesTo_S16x262144_S16_d1 : S16x262144.ReducesTo [1] S16
  reducesTo_S16_S_d0 : S16.ReducesTo [0] S_
  scatter_S8_S4194304x1_S4194304_n_0_0_1_wf : ScatterDims.WF S8 S4194304x1 S4194304 [] [0] [0] 1
  gather_S8_S16x512x512x1_S16x512x512_n_0_n_n_0_3_1_wf : GatherDims.WF S8 S16x512x512x1 S16x512x512 [] [0] [] [0] [] 3 ![1]
  gather_S16x8x512x512_S16x1x512x512x1_S16x1x512x512_n_1_023_023_1_4_1111_wf : GatherDims.WF S16x8x512x512 S16x1x512x512x1 S16x1x512x512 [] [1] [0, 2, 3] [1] [0, 2, 3] 4 ![1, 1, 1, 1]

variable [Facts₀]

def scatter_S8_S4194304x1_S4194304_n_0_0_1 : ScatterDims S8 S4194304x1 S4194304 where
  updateWindowDims := []
  insertedWindowDims := [0]
  scatterDimsToOperandDims := [0]
  indexVectorDim := 1
  wf := scatter_S8_S4194304x1_S4194304_n_0_0_1_wf
def gather_S8_S16x512x512x1_S16x512x512_n_0_n_n_0_3_1 : GatherDims S8 S16x512x512x1 S16x512x512 where
  offsetDims := []
  collapsedSliceDims := [0]
  operandBatchingDims := []
  startIndicesBatchingDims := []
  startIndexMap := [0]
  indexVectorDim := 3
  sliceSizes := ![1]
  wf := gather_S8_S16x512x512x1_S16x512x512_n_0_n_n_0_3_1_wf
def gather_S16x8x512x512_S16x1x512x512x1_S16x1x512x512_n_1_023_023_1_4_1111 : GatherDims S16x8x512x512 S16x1x512x512x1 S16x1x512x512 where
  offsetDims := []
  collapsedSliceDims := [1]
  operandBatchingDims := [0, 2, 3]
  startIndicesBatchingDims := [0, 2, 3]
  startIndexMap := [1]
  indexVectorDim := 4
  sliceSizes := ![1, 1, 1, 1]
  wf := gather_S16x8x512x512_S16x1x512x512x1_S16x1x512x512_n_1_023_023_1_4_1111_wf

class Facts : Prop extends Facts₀ where

variable [Facts]
-- ==== Proof.Spec.lean ====
/-
  The mathematics of the weighted cross-entropy, stated once over the two argument arrays.

  `P` holds the logits, indexed (n, class, h, w) with 16 rows `n`, 8 classes and a 512 x 512 image;
  `T` holds the target words, indexed (n, h, w). A target word is clipped to [0, 7] and read as a class.
  Per pixel, `lsmOf` is the log-softmax of the 8 logits: `p k - M - log (sum over c of exp (p c - M))` with
  `M` the largest logit. With `tot k` the number of pixels of class `k` over the whole batch and
  `invc k = 1 / (tot k + eps)`, the loss of row `n` is the quotient of
  `sum over pixels of lsm(class of the pixel) * invc(class of the pixel)` by `sum over pixels of invc(class)`,
  and the result is minus the mean of the 16 quotients.

  Two arrangements of these sums are defined. `resR` weights pixel by pixel. `resK` first forms, for each
  row and class, the number of pixels of the class (`cntK`) and the sum of their log-softmax values
  (`lgK`), each as the sum of the two half-images of 256 image rows, and only then weights by `invc`.
-/
import Idealize.ShloMosaic.PureOps.Ideal
import Idealize.ShloMosaic.Lib.ValueIdx

noncomputable section

namespace Cert.WCE

open Idealize.ShloMosaic Idealize.ShloMosaic.ValueIdx

/-- The logits' shape and the targets' shape. -/
abbrev SP : Shape := ⟨4, ![16, 8, 512, 512]⟩
abbrev ST : Shape := ⟨3, ![16, 512, 512]⟩

/-- A target word clipped to [0, 7] as a signed word: `min 7 (max 0 t)`. -/
def clipW (t : BitVec 32) : BitVec 32 := IntOp.minsi 7#32 (IntOp.maxsi 0#32 t)

/-- The clipped word is one of 0 … 7. -/
theorem clipW_lt (t : BitVec 32) : (clipW t).toNat < 8 := by
  unfold clipW IntOp.minsi IntOp.maxsi
  have h7 : (7#32 : BitVec 32).toInt = 7 := by decide
  have h0 : (0#32 : BitVec 32).toInt = 0 := by decide
  by_cases ht : t.slt 0#32 = true
  · -- a negative word is raised to 0, and 0 is not above 7
    rw [if_pos ht]
    have : ¬ ((7#32 : BitVec 32).slt 0#32 = true) := by decide
    rw [if_neg this]; decide
  · rw [if_neg ht]
    by_cases h2 : (7#32 : BitVec 32).slt t = true
    · -- a word above 7 is lowered to 7
      rw [if_pos h2]; decide
    · -- otherwise 0 ≤ t ≤ 7 as a signed word, so its unsigned value is the same number
      rw [if_neg h2]
      simp only [BitVec.slt, decide_eq_true_eq, h7, h0, not_lt] at ht h2
      have := BitVec.toInt_eq_toNat_cond t
      have hlt := t.isLt
      split at this <;> omega

/-- The class of a target word. -/
def cls (t : BitVec 32) : Fin 8 := ⟨(clipW t).toNat, clipW_lt t⟩

/-- 1 on the pixels of class `k`, 0 elsewhere. -/
def ind (t : BitVec 32) (k : Fin 8) : EReal := if cls t = k then 1 else 0

/-- The three float literals of the programs, kept as their words. -/
def eps : EReal := Ideal.ofBits .f32 0x358637BD#32
def one : EReal := Ideal.ofBits .f32 0x3F800000#32
def sixteen : EReal := Ideal.ofBits .f32 0x41800000#32

/-- The largest of 8 logits, as the fold of `max` from the bottom element. -/
def mxOf (p : Fin 8 → EReal) : EReal := (Finset.univ : Finset (Fin 8)).fold max ⊥ p

/-- The sum of the shifted exponentials. -/
def seOf (p : Fin 8 → EReal) : EReal := ∑ c : Fin 8, Ideal.exp (p c - mxOf p)

/-- The log-softmax of 8 logits at class `k`. -/
def lsmOf (p : Fin 8 → EReal) (k : Fin 8) : EReal := (p k - mxOf p) - Ideal.log (seOf p)

variable (P : SP.Idx → EReal) (T : ST.Idx → BitVec 32)

/-- The log-softmax of pixel (n, h, w) at class `k`. -/
def lsm (n : Fin 16) (k : Fin 8) (h w : Fin 512) : EReal := lsmOf (fun c => P (ix4 n c h w)) k

/-- The inverse-frequency weight of a class that has `tot` pixels. -/
def invc (tot : EReal) : EReal := Ideal.div one (tot + eps)

/-! ## Weighting pixel by pixel -/

def totR (k : Fin 8) : EReal := ∑ n : Fin 16, ∑ h : Fin 512, ∑ w : Fin 512, ind (T (ix3 n h w)) k
def wtR (k : Fin 8) : EReal := invc ((0 + totR T k))
def numR (n : Fin 16) : EReal :=
  0 + ∑ h : Fin 512, ∑ w : Fin 512, lsm P n (cls (T (ix3 n h w))) h w * wtR T (cls (T (ix3 n h w)))
def denR (n : Fin 16) : EReal := 0 + ∑ h : Fin 512, ∑ w : Fin 512, wtR T (cls (T (ix3 n h w)))
def resR : EReal := -(Ideal.div (0 + ∑ n : Fin 16, Ideal.div (numR P T n) (denR T n)) sixteen)

/-! ## Summing per row and class first -/

/-- Image row `r` of half-image `j`. -/
def row (j : Fin 2) (r : Fin 256) : Fin 512 := ⟨256 * j.val + r.val, by have := j.isLt; have := r.isLt; omega⟩

/-- The pixels of class `k` in half-image `j` of row `n`, and the sum of their log-softmax values. -/
def blkC (n : Fin 16) (j : Fin 2) (k : Fin 8) : EReal :=
  ∑ r : Fin 256, ∑ w : Fin 512, ind (T (ix3 n (row j r) w)) k
def blkL (n : Fin 16) (j : Fin 2) (k : Fin 8) : EReal :=
  ∑ r : Fin 256, ∑ w : Fin 512, ind (T (ix3 n (row j r) w)) k * lsm P n k (row j r) w

/-- Per row and class: the two half-images added onto zero, in order. -/
def cntK (n : Fin 16) (k : Fin 8) : EReal := (0 + blkC T n 0 k) + blkC T n 1 k
def lgK (n : Fin 16) (k : Fin 8) : EReal := (0 + blkL P T n 0 k) + blkL P T n 1 k

def totK (k : Fin 8) : EReal := 0 + ∑ n : Fin 16, cntK T n k
def wtK (k : Fin 8) : EReal := invc (totK T k)
def numK (n : Fin 16) : EReal := 0 + ∑ k : Fin 8, lgK P T n k * wtK T k
def denK (n : Fin 16) : EReal := 0 + ∑ k : Fin 8, cntK T n k * wtK T k
def resK : EReal := -(Ideal.div (0 + ∑ n : Fin 16, Ideal.div (numK P T n) (denK T n)) sixteen)

end Cert.WCE

end
-- ==== Proof.Regroup.lean ====
/-
  The two arrangements of the weighted cross-entropy agree.

  Everything is a finite sum on the extended reals. A sum over the 512 image rows is the sum over the two
  half-images of 256 rows. The weight of a class is a nonnegative real (the reciprocal of a pixel count plus
  a positive constant), and multiplication by a nonnegative real distributes over every sum of extended
  reals, whatever the summands. With the indicator of a class written as "1 if the class of the pixel is k,
  else 0", the sum over classes of "indicator times value" collapses to the value at the pixel's own class.
-/
import proofs.«429264_j111669149713_3_alg».proof.Proof.Spec
import Mathlib.Data.EReal.Operations
import Mathlib.Algebra.BigOperators.Fin

noncomputable section

namespace Cert.WCE

open Idealize.ShloMosaic Idealize.ShloMosaic.ValueIdx

/-! ## The float literals -/

/-- The word 0x3F800000 is the real 1. -/
theorem one_eq : one = 1 := by
  unfold one
  simp [Ideal.ofBits, Ideal.ieee, -EReal.coe_mul]
  norm_num

/-- The word 0x358637BD is a positive normal float: sign 0, exponent 107, fraction 407485. -/
theorem eps_pos : ∃ e : ℝ, 0 < e ∧ eps = (e : EReal) := by
  unfold eps
  simp [Ideal.ofBits, Ideal.ieee, -EReal.coe_mul]

/-! ## Sums on the extended reals

  The auxiliary statements live in their own namespace; the three results are stated in the namespace of the
  specification. -/

namespace Regroup

/-- A sum over the 512 image rows is the sum over the two half-images. -/
theorem sum_rows (g : Fin 512 → EReal) :
    ∑ h : Fin 512, g h = ∑ r : Fin 256, g (row 0 r) + ∑ r : Fin 256, g (row 1 r) := by
  have h0 : ∀ r : Fin 256, row 0 r = Fin.castAdd 256 r := by
    intro r; apply Fin.ext; simp [row]
  have h1 : ∀ r : Fin 256, row 1 r = Fin.natAdd 256 r := by
    intro r; apply Fin.ext; simp [row]; omega
  simp only [h0, h1]
  exact Fin.sum_univ_add (a := 256) (b := 256) g

/-- A sum of nonnegative reals is a nonnegative real. -/
theorem sum_isReal {ι : Type} (s : Finset ι) (f : ι → EReal)
    (hf : ∀ i ∈ s, ∃ r : ℝ, 0 ≤ r ∧ f i = (r : EReal)) :
    ∃ r : ℝ, 0 ≤ r ∧ ∑ i ∈ s, f i = (r : EReal) := by
  classical
  induction s using Finset.induction_on with
  | empty => exact ⟨0, le_refl 0, by simp⟩
  | insert a s ha ih =>
    obtain ⟨ra, hra, ea⟩ := hf a (Finset.mem_insert_self a s)
    obtain ⟨rs, hrs, es⟩ := ih (fun i hi => hf i (Finset.mem_insert_of_mem hi))
    refine ⟨ra + rs, add_nonneg hra hrs, ?_⟩
    rw [Finset.sum_insert ha, ea, es, EReal.coe_add]

/-- Multiplication by a nonnegative real goes inside any sum of extended reals. -/
theorem sum_mul_real {ι : Type} (s : Finset ι) (f : ι → EReal) (c : EReal) (h0 : 0 ≤ c) (ht : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 ht, ih]

/-- The regrouping itself. For a class label on the pixels, values L and nonnegative real weights c:
    weighting the per-class sums is weighting pixel by pixel at the pixel's own class. -/
theorem regroup (κ : Fin 512 → Fin 512 → Fin 8) (L : Fin 8 → Fin 512 → Fin 512 → EReal) (c : Fin 8 → EReal)
    (h0 : ∀ k, 0 ≤ c k) (ht : ∀ k, c k ≠ ⊤) :
    ∑ k : Fin 8, (∑ h : Fin 512, ∑ w : Fin 512, (if κ h w = k then (1 : EReal) else 0) * L k h w) * c k
      = ∑ h : Fin 512, ∑ w : Fin 512, L (κ h w) h w * c (κ h w) := by
  have step : ∀ k : Fin 8,
      (∑ h : Fin 512, ∑ w : Fin 512, (if κ h w = k then (1 : EReal) else 0) * L k h w) * c k
        = ∑ h : Fin 512, ∑ w : Fin 512, (if κ h w = k then (1 : EReal) else 0) * L k h w * c k := by
    intro k
    rw [sum_mul_real _ _ _ (h0 k) (ht k)]
    exact Finset.sum_congr rfl (fun h _ => sum_mul_real _ _ _ (h0 k) (ht k))
  simp only [step]
  rw [Finset.sum_comm]
  refine Finset.sum_congr rfl (fun h _ => ?_)
  rw [Finset.sum_comm]
  refine Finset.sum_congr rfl (fun w _ => ?_)
  simp only [ite_mul, one_mul, zero_mul, Finset.sum_ite_eq, Finset.mem_univ, if_true]

/-! ## The weights are nonnegative reals -/

/-- The indicator is 0 or 1. -/
theorem ind_isReal (t : BitVec 32) (k : Fin 8) : ∃ r : ℝ, 0 ≤ r ∧ ind t k = (r : EReal) := by
  unfold ind
  split
  · exact ⟨1, zero_le_one, by simp⟩
  · exact ⟨0, le_refl 0, by simp⟩

/-- The number of pixels of a class is a nonnegative real. -/
theorem totR_isReal (T : ST.Idx → BitVec 32) (k : Fin 8) : ∃ r : ℝ, 0 ≤ r ∧ totR T k = (r : EReal) := by
  unfold totR
  exact sum_isReal _ _ (fun n _ => sum_isReal _ _ (fun h _ => sum_isReal _ _ (fun w _ => ind_isReal _ k)))

/-- The weight of a nonnegative real count r is the real 1 / (r + e), with e the positive constant. -/
theorem invc_isReal (tot : EReal) (h : ∃ r : ℝ, 0 ≤ r ∧ tot = (r : EReal)) :
    0 ≤ invc tot ∧ invc tot ≠ ⊤ := by
  obtain ⟨r, hr, rfl⟩ := h
  obtain ⟨e, he, hE⟩ := eps_pos
  have hpos : 0 < r + e := add_pos_of_nonneg_of_pos hr he
  have hval : invc (r : EReal) = ((1 / (r + e) : ℝ) : EReal) := by
    unfold invc
    rw [hE, ← EReal.coe_add, Ideal.div_coe hpos.ne', one_eq, one_mul]
  rw [hval]
  exact ⟨by exact_mod_cast (one_div_nonneg.mpr hpos.le), EReal.coe_ne_top _⟩

variable (P : SP.Idx → EReal) (T : ST.Idx → BitVec 32)

theorem wtR_nonneg (k : Fin 8) : 0 ≤ wtR T k := by
  unfold wtR; rw [zero_add]; exact (invc_isReal _ (totR_isReal T k)).1

theorem wtR_ne_top (k : Fin 8) : wtR T k ≠ ⊤ := by
  unfold wtR; rw [zero_add]; exact (invc_isReal _ (totR_isReal T k)).2

/-! ## The per-class sums over the whole image -/

theorem cntK_eq (n : Fin 16) (k : Fin 8) :
    cntK T n k = ∑ h : Fin 512, ∑ w : Fin 512, ind (T (ix3 n h w)) k := by
  unfold cntK blkC
  rw [zero_add, sum_rows (fun h => ∑ w : Fin 512, ind (T (ix3 n h w)) k)]

theorem lgK_eq (n : Fin 16) (k : Fin 8) :
    lgK P T n k = ∑ h : Fin 512, ∑ w : Fin 512, ind (T (ix3 n h w)) k * lsm P n k h w := by
  unfold lgK blkL
  rw [zero_add, sum_rows (fun h => ∑ w : Fin 512, ind (T (ix3 n h w)) k * lsm P n k h w)]

theorem totK_eq (k : Fin 8) : totK T k = 0 + totR T k := by
  unfold totK totR
  simp only [cntK_eq]

theorem wtK_eq (k : Fin 8) : wtK T k = wtR T k := by
  unfold wtK wtR; rw [totK_eq]

/-! ## The two arrangements -/

theorem numK_eq (n : Fin 16) : numK P T n = numR P T n := by
  unfold numK numR
  congr 1
  simp only [lgK_eq, wtK_eq, ind]
  exact regroup (fun h w => cls (T (ix3 n h w))) (fun k h w => lsm P n k h w) (wtR T)
    (wtR_nonneg T) (wtR_ne_top T)

theorem denK_eq (n : Fin 16) : denK T n = denR T n := by
  unfold denK denR
  congr 1
  simp only [cntK_eq, wtK_eq, ind]
  have key := regroup (fun h w => cls (T (ix3 n h w))) (fun _ _ _ => 1) (wtR T)
    (wtR_nonneg T) (wtR_ne_top T)
  simp only [mul_one, one_mul] at key
  exact key

end Regroup

/-- Summing per row and class first, or weighting pixel by pixel: the same extended real. -/
theorem resK_eq_resR (P : SP.Idx → EReal) (T : ST.Idx → BitVec 32) : resK P T = resR P T := by
  unfold resK resR
  simp only [Regroup.numK_eq, Regroup.denK_eq]

end Cert.WCE

end
-- ==== Proof.KTailFn.lean ====
/-
  The kernel program's host operations after the pallas_call, as one function of the two output arrays.

  `A2` holds the per-row pixel counts and `A3` the per-row sums of log-probabilities, both indexed
  (row n, 0, class k) with 16 rows and 8 classes. The operations: read both as [16, 8] matrices; `tot k` is the
  column sum of the counts from zero; `invc k = 1 / (tot k + eps)`; the weight matrix repeats `invc` on every
  row; `num n` and `den n` are the row sums from zero of the log-probability sums and of the counts, each times
  the weights; the result is minus the sum from zero of `num n / den n`, divided by sixteen.
-/
import proofs.«429264_j111669149713_3_alg».proof.Proof.Gen.KernelIdeal
import proofs.«429264_j111669149713_3_alg».proof.Proof.Spec
import Idealize.ShloMosaic.Lib.ValueIdx
import Idealize.ShloMosaic.Lib.ValueIdxRank1
import Idealize.ShloMosaic.Lib.Pipeline.Value
import Idealize.ShloMosaic.PureOps.Ideal.Laws

noncomputable section

namespace Cert.KernelIdeal.KTail

open Cert.KernelIdeal Cert.KernelIdeal.Gen Idealize.ShloMosaic Idealize.ShloMosaic.ValueIdx Idealize.SL.Sem

variable {F : FTy → Type} [FloatOps F]

/-- A [16, 1, 8] array read as the [16, 8] matrix of the same row-major order. -/
def flat (A : FVec F S16x1x8 .f32) : FVec F S16x8 .f32 :=
  fun i => shapeCast S16x8 A shapeCasts_S16x1x8_S16x8 i

/-- `tot k`: the column sums of the counts, from the zero word. -/
def tot (A2 : FVec F S16x1x8 .f32) : FVec F S8 .f32 :=
  Host.reduceAdd (F := F) (flat A2) (constant (F := F) S_ .f32 0x00000000#32) reducesTo_S16x8_S8_d0 h_S_

/-- `invc k = one / (tot k + eps)`, the two literals splat over the 8 classes. -/
def invcV (A2 : FVec F S16x1x8 .f32) : FVec F S8 .f32 :=
  Host.divf (F := F) (broadcastInDim S8 ![] bcast_S_S8 (constant (F := F) S_ .f32 0x3F800000#32))
    (addf (tot A2) (broadcastInDim S8 ![] bcast_S_S8 (constant (F := F) S_ .f32 0x358637BD#32)))

/-- The weights as a [16, 8] matrix: `invc` as one row, repeated on the 16 rows. -/
def wmat (A2 : FVec F S16x1x8 .f32) : FVec F S16x8 .f32 :=
  broadcastInDim S16x8 ![0, 1] bcast_S1x8_S16x8_0_1 (broadcastInDim S1x8 ![1] bcast_S8_S1x8_1 (invcV A2))

/-- The row sums of a [16, 8] matrix, from the zero word. -/
def rowSum (X : FVec F S16x8 .f32) : FVec F S16 .f32 :=
  Host.reduceAdd (F := F) X (constant (F := F) S_ .f32 0x00000000#32) reducesTo_S16x8_S16_d1 h_S_

/-- `num n`: the weighted log-probability sums of row `n`. -/
def num (A2 A3 : FVec F S16x1x8 .f32) : FVec F S16 .f32 := rowSum (mulf (flat A3) (wmat A2))

/-- `den n`: the weighted counts of row `n`. -/
def den (A2 : FVec F S16x1x8 .f32) : FVec F S16 .f32 := rowSum (mulf (flat A2) (wmat A2))

/-- The sum over the 16 rows of `num n / den n`, from the zero word. -/
def quotSum (A2 A3 : FVec F S16x1x8 .f32) : FVec F S_ .f32 :=
  Host.reduceAdd (F := F) (Host.divf (F := F) (num A2 A3) (den A2)) (constant (F := F) S_ .f32 0x00000000#32) reducesTo_S16_S_d0 h_S_

/-- The host operations after the pallas_call, composed: minus the mean of the 16 quotients. -/
def tailFn (A2 A3 : FVec F S16x1x8 .f32) : FVec F S_ .f32 :=
  Host.negf (F := F) (Host.divf (F := F) (quotSum A2 A3) (constant (F := F) S_ .f32 0x41800000#32))

/-! ## The pieces read at an index -/

/-- Row `n`, class `k` of the matrix is entry (n, 0, k) of the array: both have row-major position `8 n + k`. -/
theorem flat_apply (A : FVec F S16x1x8 .f32) (n : Fin 16) (k : Fin 8) :
    flat A (ix2 n k) = A (ix3 n 0 k) := by
  unfold flat
  exact shapeCast_apply A shapeCasts_S16x1x8_S16x8 (ix2 n k) (ix3 n 0 k)
    (by rewrite [Shape.rowMajor_val_three, Shape.rowMajor_val_two]
        show (n.val * 1 + 0) * 8 + k.val = n.val * 8 + k.val
        omega)

/-- The weight matrix at (n, k) is `invc k`: the row broadcast reads its unit axis at 0, the column one keeps `k`. -/
theorem wmat_apply (A2 : FVec F S16x1x8 .f32) (n : Fin 16) (k : Fin 8) :
    wmat A2 (ix2 n k) = invcV A2 (ix1 k) := by
  unfold wmat
  generalize invcV A2 = y
  rw [broadcastInDim_apply _ bcast_S1x8_S16x8_0_1 _ (ix2 n k) (ix2 (0 : Fin 1) k)
    (fun a => match a with | ⟨0, _⟩ => rfl | ⟨1, _⟩ => rfl)]
  exact broadcastInDim_apply _ bcast_S8_S1x8_1 y (ix2 (0 : Fin 1) k) (ix1 k)
    (fun a => match a with | ⟨0, _⟩ => rfl)

/-- A literal splat over the 8 classes reads the literal's value. -/
theorem splat8_apply (b : BitVec 32) (k : Fin 8) :
    broadcastInDim S8 ![] bcast_S_S8 (constant (F := Ideal) S_ .f32 b) (ix1 k) = Ideal.ofBits .f32 b := by
  rw [broadcastInDim_apply _ bcast_S_S8 _ (ix1 k) ix0 (fun a => a.elim0)]
  rfl

/-- At the ideal values the column sum of the counts from the zero word is `0 + ∑ n`. -/
theorem tot_apply (A2 : FVec Ideal S16x1x8 .f32) (k : Fin 8) :
    tot (F := Ideal) A2 (ix1 k) = 0 + ∑ n : Fin 16, A2 (ix3 n 0 k) := by
  unfold tot
  simp only [Host.reduceAdd, Ideal.hostReduceAdd_def]
  rw [Ideal.hostReduceAdd_single reducesTo_S16x8_S8_d0 (by decide)]
  rw [constant_apply, Ideal.ofBits_zero_f32]
  refine congrArg (0 + ·) (Finset.sum_congr rfl fun n _ => ?_)
  refine Eq.trans (congrArg (flat A2) (funext fun a => Fin.ext ?_)) (flat_apply A2 n k)
  match a with | ⟨0, _⟩ => rfl | ⟨1, _⟩ => rfl

/-- At the ideal values `invc k` is the specification's weight of a class that has `0 + ∑ n` pixels: the two literals
    are the words of `one` and `eps`, the quotient is the ideal division. -/
theorem invcV_apply (A2 : FVec Ideal S16x1x8 .f32) (k : Fin 8) :
    invcV (F := Ideal) A2 (ix1 k) = Cert.WCE.invc (0 + ∑ n : Fin 16, A2 (ix3 n 0 k)) := by
  unfold invcV Cert.WCE.invc Cert.WCE.one Cert.WCE.eps
  show Ideal.div (broadcastInDim S8 ![] bcast_S_S8 (constant (F := Ideal) S_ .f32 0x3F800000#32) (ix1 k))
      (tot (F := Ideal) A2 (ix1 k) + broadcastInDim S8 ![] bcast_S_S8 (constant (F := Ideal) S_ .f32 0x358637BD#32) (ix1 k)) = _
  rw [splat8_apply, splat8_apply, tot_apply]

/-- At the ideal values a row sum from the zero word is `0 + ∑ k` over the row's 8 entries. -/
theorem rowSum_apply (X : FVec Ideal S16x8 .f32) (n : Fin 16) :
    rowSum (F := Ideal) X (ix1 n) = 0 + ∑ k : Fin 8, X (ix2 n k) := by
  unfold rowSum
  simp only [Host.reduceAdd, Ideal.hostReduceAdd_def]
  rw [Ideal.hostReduceAdd_single reducesTo_S16x8_S16_d1 (by decide)]
  rw [constant_apply, Ideal.ofBits_zero_f32]
  refine congrArg (0 + ·) (Finset.sum_congr rfl fun k _ => ?_)
  exact congrArg X (funext fun a => Fin.ext (by match a with | ⟨0, _⟩ => rfl | ⟨1, _⟩ => rfl))

/-- `num n` at the ideal values: the row's log-probability sums, each times its class's weight. -/
theorem num_apply (A2 A3 : FVec Ideal S16x1x8 .f32) (n : Fin 16) :
    num (F := Ideal) A2 A3 (ix1 n)
      = 0 + ∑ k : Fin 8, A3 (ix3 n 0 k) * Cert.WCE.invc (0 + ∑ n' : Fin 16, A2 (ix3 n' 0 k)) := by
  unfold num
  rw [rowSum_apply]
  refine congrArg (0 + ·) (Finset.sum_congr rfl fun k _ => ?_)
  rw [mulf_apply, flat_apply, wmat_apply, invcV_apply]

/-- `den n` at the ideal values: the row's counts, each times its class's weight. -/
theorem den_apply (A2 : FVec Ideal S16x1x8 .f32) (n : Fin 16) :
    den (F := Ideal) A2 (ix1 n)
      = 0 + ∑ k : Fin 8, A2 (ix3 n 0 k) * Cert.WCE.invc (0 + ∑ n' : Fin 16, A2 (ix3 n' 0 k)) := by
  unfold den
  rw [rowSum_apply]
  refine congrArg (0 + ·) (Finset.sum_congr rfl fun k _ => ?_)
  rw [mulf_apply, flat_apply, wmat_apply, invcV_apply]

/-- The sum of the 16 quotients from the zero word, at the ideal values: a sum over every index of a rank-1 shape is
    the sum over its coordinate. -/
theorem quotSum_apply (A2 A3 : FVec Ideal S16x1x8 .f32) :
    quotSum (F := Ideal) A2 A3 ix0
      = 0 + ∑ n : Fin 16, Ideal.div (num (F := Ideal) A2 A3 (ix1 n)) (den (F := Ideal) A2 (ix1 n)) := by
  unfold quotSum
  generalize num (F := Ideal) A2 A3 = u
  generalize den (F := Ideal) A2 = v
  simp only [Host.reduceAdd, Ideal.hostReduceAdd_def]
  rw [Ideal.hostReduceAdd_total reducesTo_S16_S_d0 (fun b => b.elim0)]
  rw [constant_apply, Ideal.ofBits_zero_f32]
  refine congrArg (0 + ·) ?_
  exact (Equiv.sum_comp (idxEquiv1 (n := 16)).symm (Host.divf (F := Ideal) u v)).symm

/-- THE TAIL AT ITS ONE INDEX, at the ideal values: minus the sum from zero of `num n / den n` over sixteen, the sums
    and the weights written out over the two arrays' entries. -/
theorem tailFn_apply (A2 A3 : FVec Ideal S16x1x8 .f32) :
    tailFn (F := Ideal) A2 A3 ix0
      = -(Ideal.div (0 + ∑ n : Fin 16, Ideal.div
            (0 + ∑ k : Fin 8, A3 (ix3 n 0 k) * Cert.WCE.invc (0 + ∑ n' : Fin 16, A2 (ix3 n' 0 k)))
            (0 + ∑ k : Fin 8, A2 (ix3 n 0 k) * Cert.WCE.invc (0 + ∑ n' : Fin 16, A2 (ix3 n' 0 k)))) Cert.WCE.sixteen) := by
  unfold tailFn Cert.WCE.sixteen
  show -(Ideal.div (quotSum (F := Ideal) A2 A3 ix0) (Ideal.ofBits .f32 0x41800000#32)) = _
  rw [quotSum_apply]
  simp only [num_apply, den_apply]

end Cert.KernelIdeal.KTail

end
-- ==== Proof.KTail.lean ====
/-
  The kernel program run to its end: the result buffer holds the host operations after the pallas_call applied to
  the two output arrays the pipeline leaves, and the two arguments are unchanged.

  The frame run states every array of the pipeline at the contents the proof data compute (window 2: the per-row
  pixel counts, window 3: the per-row sums of log-probabilities) and every other unscoped buffer at what the 27
  lines after the region compute from those; read at the result buffer, those lines are `tailFn` of the two arrays.
-/
import proofs.«429264_j111669149713_3_alg».proof.Proof.KTailFn
import proofs.«429264_j111669149713_3_alg».proof.Proof.Gen.KernelIdeal.Frame

noncomputable section

namespace Cert.KernelIdeal.KTail

open Cert.KernelIdeal Cert.KernelIdeal.Gen Idealize.ShloMosaic Idealize.ShloMosaic.ValueIdx Idealize.SL.Sem
open Idealize.ShloMosaic.TcCoe Idealize.ShloMosaic.StableHlo

variable {F : FTy → Type} [FloatOps F]

variable (m : (ℓ : Loc nD τ sig) → Buf (Elt F) ℓ) (ρ : Dev nD → PrngReg)

/-- What the lines after the region leave in the result buffer: each line's result is its function of its operands'
    contents, the two reshapes read the pipeline's arrays 2 and 3, and the composition is `tailFn` of those two. -/
theorem tail_eq (c : Dev nD) :
    Pipeline.afterTail₀ cfgs (dats m) 0 (V0 m) [hostOps1] c main_v20
      = tailFn ((dats m 0 c).arrAt 2 cfg0.N) ((dats m 0 c).arrAt 3 cfg0.N) := by
  have e2 := Pipeline.withArrays_arr (cfgs 0).spec launch0.win.arr_inj c (V0 m c) (fun w => (dats m 0 c).arrAt w (cfgs 0).N) 2
  have e3 := Pipeline.withArrays_arr (cfgs 0).spec launch0.win.arr_inj c (V0 m c) (fun w => (dats m 0 c).arrAt w (cfgs 0).N) 3
  refine Eq.trans ?_ (congrArg₂ tailFn e2 e3)
  unfold Pipeline.afterTail₀
  show StableHlo.after hostOps1 _ (Proc.devRef .tc main_v20) = _
  after_results_simp
  rfl

/-- THE RUN: from any memory with zero counters every weakly fair execution of @main terminates, with the result buffer
    at `tailFn` of the two output arrays (the result is no array of the pipeline, so the frame run's clause for the other
    unscoped buffers speaks of it) and the two argument arrays, staged inputs, at their entry contents. -/
theorem run_tail : θ_run defs (onTc (τ := τ) (main (F := F))) ⟨m, fun _ => 0, ρ⟩ (fun r => ∀ c : Dev nD,
      r.2.mem ((c.tc : Thread nD τ).loc main_v20) = tailFn ((dats m 0 c).arrAt 2 cfg0.N) ((dats m 0 c).arrAt 3 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v20 (Pipeline.mem_restRefs_of main_v20 rfl (by decide))).trans (tail_eq m c),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c)))⟩) (run_main m ρ)

end Cert.KernelIdeal.KTail

end
-- ==== Proof.KBlock.lean ====
/-
  One grid point's work as two functions of the point's input blocks.

  At a grid point the kernel holds one half-image of one batch row: the logits block, read as its eight
  class slices `s c` (each a [1, 1, 256, 512] array), and the target block `x1` ([1, 256, 512] words).
  `cntBlock x1 acc` is what the point stores into the per-class pixel counter that held `acc`;
  `lgBlock s x1 acc` is what it stores into the per-class log-probability accumulator that held `acc`.
  Both are the kernel's own operations, composed in the kernel's order; nothing is evaluated here.
-/
import proofs.«429264_j111669149713_3_alg».proof.Proof.Gen.KernelIdeal.Skeleton

noncomputable section

namespace Cert.KernelIdeal.KBlock

open Cert.KernelIdeal Cert.KernelIdeal.Gen Idealize.ShloMosaic

variable {F : FTy → Type} [FloatOps F]

/-- The clipped target words of the block, as a [256, 512] array. -/
def tw (x1 : Vec F S1x256x512 .i32) : IVec S256x512 32 := k0_pay5 (F := F) x1

/-- The running maximum over classes 0 … 5, and the maximum over all eight. -/
def mx6 (s : Fin 8 → Vec F S1x1x256x512 .f32) : FVec F S256x512 .f32 := k0_pay6 (s 0) (s 1) (s 2) (s 3) (s 4) (s 5)
def mx8 (s : Fin 8 → Vec F S1x1x256x512 .f32) : FVec F S256x512 .f32 := k0_pay7 (mx6 s) (s 6) (s 7)

/-- The sum of the shifted exponentials of classes 0 … 3, the exponential of class 4, and the logarithm of the
    sum over all eight classes. -/
def se4 (s : Fin 8 → Vec F S1x1x256x512 .f32) : FVec F S256x512 .f32 := k0_pay8 (mx6 s) (s 6) (s 7) (s 0) (s 1) (s 2) (s 3)
def ex4 (s : Fin 8 → Vec F S1x1x256x512 .f32) : FVec F S256x512 .f32 := k0_pay9 (mx6 s) (s 6) (s 7) (s 4)
def lse (s : Fin 8 → Vec F S1x1x256x512 .f32) : FVec F S256x512 .f32 := k0_pay10 (mx8 s) (se4 s) (ex4 s) (s 5) (s 6) (s 7)

/-- What the point stores into the pixel counter that held `acc`. -/
def cntBlock (x1 : Vec F S1x256x512 .i32) (acc : Vec F S1x1x8 .f32) : FVec F S1x1x8 .f32 :=
  k0_pay1 (k0_pay13 (F := F) (tw x1)) (k0_pay17 (k0_pay14 (F := F) (tw x1))) (k0_pay20 (F := F) (tw x1)) (k0_pay23 (F := F) (tw x1))
    (k0_pay27 (k0_pay24 (F := F) (tw x1))) (k0_pay30 (F := F) (tw x1)) (k0_pay33 (F := F) (tw x1)) (k0_pay34 (F := F) (tw x1)) acc

/-- What the point stores into the log-probability accumulator that held `acc`. -/
def lgBlock (s : Fin 8 → Vec F S1x1x256x512 .f32) (x1 : Vec F S1x256x512 .i32) (acc : Vec F S1x1x8 .f32) : FVec F S1x1x8 .f32 :=
  k0_pay2 (mx8 s) (lse s)
    (k0_pay12 (tw x1) (mx8 s) (se4 s) (ex4 s) (s 5) (s 6) (s 7) (s 0))
    (k0_pay16 (mx8 s) (lse s) (k0_pay14 (F := F) (tw x1)) (k0_pay15 (s 1)))
    (k0_pay19 (tw x1) (mx8 s) (lse s) (s 2))
    (k0_pay22 (tw x1) (mx8 s) (lse s) (s 3))
    (k0_pay26 (mx8 s) (lse s) (k0_pay24 (F := F) (tw x1)) (k0_pay25 (s 4)))
    (k0_pay29 (tw x1) (mx8 s) (lse s) (s 5))
    (k0_pay32 (tw x1) (mx8 s) (lse s) (s 6))
    (k0_pay34 (F := F) (tw x1)) (k0_pay35 (s 7)) acc

end Cert.KernelIdeal.KBlock

end
-- ==== Proof.KPieces.lean ====
/-
  What each grid point leaves in the two accumulators and in the two output blocks, as the block
  functions of `KBlock` applied to the point's input blocks.

  The grid is 16 batch rows by 2 half-images, visited row by row; point `t` is half-image `t % 2` of row
  `t / 2`. At an even point the accumulators are reset to zero and then updated; at an odd point they are
  updated from what the even point before left, and copied to the output blocks.
-/
import proofs.«429264_j111669149713_3_alg».proof.Proof.Gen.KernelIdeal.Frame
import proofs.«429264_j111669149713_3_alg».proof.Proof.KBlock
import Idealize.ShloMosaic.Lib.ValueIdx
import Idealize.ShloMosaic.Lib.Pipeline.Value

set_option maxRecDepth 16384

noncomputable section

namespace Cert.KernelIdeal.KPieces

open Cert.KernelIdeal Cert.KernelIdeal.Gen Idealize.ShloMosaic Idealize.ShloMosaic.ValueIdx Idealize.SL.Sem
open Idealize.ShloMosaic.Tactic

variable {F : FTy → Type} [FloatOps F]
variable (m : (ℓ : Loc nD τ sig) → Buf (Elt F) ℓ)

/-- The logits block and the target block of grid point `t`, at their literal types. -/
abbrev pblk (c : Dev nD) (t : Fin cfg0.N) : Vec F S1x8x256x512 .f32 := iblk m c 0 t
abbrev tblk (c : Dev nD) (t : Fin cfg0.N) : Vec F S1x256x512 .i32 := iblk m c 1 t

/-- Class slice `k` of a logits block, as the kernel loads it. -/
def slices (x0 : Vec F S1x8x256x512 .f32) (k : Fin 8) : Vec F S1x1x256x512 .f32 :=
  match k with
  | ⟨0, _⟩ => View.ld (Val := Elt F) x0 (Rect.unit (s := S1x8x256x512) ![0, 0, 0, 0] S1x1x256x512.size inb_S1x8x256x512_S1x1x256x512_0_0_0_0)
  | ⟨1, _⟩ => View.ld (Val := Elt F) x0 (Rect.unit (s := S1x8x256x512) ![0, 1, 0, 0] S1x1x256x512.size inb_S1x8x256x512_S1x1x256x512_0_1_0_0)
  | ⟨2, _⟩ => View.ld (Val := Elt F) x0 (Rect.unit (s := S1x8x256x512) ![0, 2, 0, 0] S1x1x256x512.size inb_S1x8x256x512_S1x1x256x512_0_2_0_0)
  | ⟨3, _⟩ => View.ld (Val := Elt F) x0 (Rect.unit (s := S1x8x256x512) ![0, 3, 0, 0] S1x1x256x512.size inb_S1x8x256x512_S1x1x256x512_0_3_0_0)
  | ⟨4, _⟩ => View.ld (Val := Elt F) x0 (Rect.unit (s := S1x8x256x512) ![0, 4, 0, 0] S1x1x256x512.size inb_S1x8x256x512_S1x1x256x512_0_4_0_0)
  | ⟨5, _⟩ => View.ld (Val := Elt F) x0 (Rect.unit (s := S1x8x256x512) ![0, 5, 0, 0] S1x1x256x512.size inb_S1x8x256x512_S1x1x256x512_0_5_0_0)
  | ⟨6, _⟩ => View.ld (Val := Elt F) x0 (Rect.unit (s := S1x8x256x512) ![0, 6, 0, 0] S1x1x256x512.size inb_S1x8x256x512_S1x1x256x512_0_6_0_0)
  | ⟨7, _⟩ => View.ld (Val := Elt F) x0 (Rect.unit (s := S1x8x256x512) ![0, 7, 0, 0] S1x1x256x512.size inb_S1x8x256x512_S1x1x256x512_0_7_0_0)

/-- The eight slices, each as its load. -/
theorem slices_0 (x0 : Vec F S1x8x256x512 .f32) : slices x0 0 = View.ld (Val := Elt F) x0 (Rect.unit (s := S1x8x256x512) ![0, 0, 0, 0] S1x1x256x512.size inb_S1x8x256x512_S1x1x256x512_0_0_0_0) := rfl
theorem slices_1 (x0 : Vec F S1x8x256x512 .f32) : slices x0 1 = View.ld (Val := Elt F) x0 (Rect.unit (s := S1x8x256x512) ![0, 1, 0, 0] S1x1x256x512.size inb_S1x8x256x512_S1x1x256x512_0_1_0_0) := rfl
theorem slices_2 (x0 : Vec F S1x8x256x512 .f32) : slices x0 2 = View.ld (Val := Elt F) x0 (Rect.unit (s := S1x8x256x512) ![0, 2, 0, 0] S1x1x256x512.size inb_S1x8x256x512_S1x1x256x512_0_2_0_0) := rfl
theorem slices_3 (x0 : Vec F S1x8x256x512 .f32) : slices x0 3 = View.ld (Val := Elt F) x0 (Rect.unit (s := S1x8x256x512) ![0, 3, 0, 0] S1x1x256x512.size inb_S1x8x256x512_S1x1x256x512_0_3_0_0) := rfl
theorem slices_4 (x0 : Vec F S1x8x256x512 .f32) : slices x0 4 = View.ld (Val := Elt F) x0 (Rect.unit (s := S1x8x256x512) ![0, 4, 0, 0] S1x1x256x512.size inb_S1x8x256x512_S1x1x256x512_0_4_0_0) := rfl
theorem slices_5 (x0 : Vec F S1x8x256x512 .f32) : slices x0 5 = View.ld (Val := Elt F) x0 (Rect.unit (s := S1x8x256x512) ![0, 5, 0, 0] S1x1x256x512.size inb_S1x8x256x512_S1x1x256x512_0_5_0_0) := rfl
theorem slices_6 (x0 : Vec F S1x8x256x512 .f32) : slices x0 6 = View.ld (Val := Elt F) x0 (Rect.unit (s := S1x8x256x512) ![0, 6, 0, 0] S1x1x256x512.size inb_S1x8x256x512_S1x1x256x512_0_6_0_0) := rfl
theorem slices_7 (x0 : Vec F S1x8x256x512 .f32) : slices x0 7 = View.ld (Val := Elt F) x0 (Rect.unit (s := S1x8x256x512) ![0, 7, 0, 0] S1x1x256x512.size inb_S1x8x256x512_S1x1x256x512_0_7_0_0) := rfl

/-- A load of the class-`k` rectangle at pixel (r, w): the rectangle's offset is (0, k, 0, 0) and its strides are
    one, so coordinate (0, 0, r, w) inside it is coordinate (0, k, r, w) of the block. -/
theorem ld_class (x0 : Vec F S1x8x256x512 .f32) (k : Fin 8)
    (inb : ∀ a, (![0, k.val, 0, 0] : Fin 4 → Nat) a + S1x1x256x512.size a ≤ S1x8x256x512.size a)
    (r : Fin 256) (w : Fin 512) :
    View.ld (Val := Elt F) x0 (Rect.unit (s := S1x8x256x512) ![0, k.val, 0, 0] S1x1x256x512.size inb) (ix4 0 0 r w)
      = x0 (ix4 0 k r w) := by
  refine congrArg x0 (funext fun a => Fin.ext ?_)
  match a with
  | ⟨0, _⟩ => show 0 + 1 * (0 : Fin 1).val = (0 : Fin 1).val; simp
  | ⟨1, _⟩ => show k.val + 1 * (0 : Fin 1).val = k.val; simp
  | ⟨2, _⟩ => show 0 + 1 * r.val = r.val; omega
  | ⟨3, _⟩ => show 0 + 1 * w.val = w.val; omega

/-- Slice `k` at pixel (r, w) is the block at (0, k, r, w). -/
theorem slices_apply (x0 : Vec F S1x8x256x512 .f32) (k : Fin 8) (r : Fin 256) (w : Fin 512) :
    slices x0 k (ix4 0 0 r w) = x0 (ix4 0 k r w) := by
  match k with
  | ⟨0, h⟩ => exact ld_class x0 ⟨0, h⟩ inb_S1x8x256x512_S1x1x256x512_0_0_0_0 r w
  | ⟨1, h⟩ => exact ld_class x0 ⟨1, h⟩ inb_S1x8x256x512_S1x1x256x512_0_1_0_0 r w
  | ⟨2, h⟩ => exact ld_class x0 ⟨2, h⟩ inb_S1x8x256x512_S1x1x256x512_0_2_0_0 r w
  | ⟨3, h⟩ => exact ld_class x0 ⟨3, h⟩ inb_S1x8x256x512_S1x1x256x512_0_3_0_0 r w
  | ⟨4, h⟩ => exact ld_class x0 ⟨4, h⟩ inb_S1x8x256x512_S1x1x256x512_0_4_0_0 r w
  | ⟨5, h⟩ => exact ld_class x0 ⟨5, h⟩ inb_S1x8x256x512_S1x1x256x512_0_5_0_0 r w
  | ⟨6, h⟩ => exact ld_class x0 ⟨6, h⟩ inb_S1x8x256x512_S1x1x256x512_0_6_0_0 r w
  | ⟨7, h⟩ => exact ld_class x0 ⟨7, h⟩ inb_S1x8x256x512_S1x1x256x512_0_7_0_0 r w

/-- The zero offsets of a whole [1, 1, 8] buffer. -/
theorem hz3 : (![0, 0, 0] : Fin 3 → Nat) = fun _ => 0 := funext fun a => by fin_cases a <;> rfl

/-! ## What an odd point leaves: each buffer's one covering store

The accumulators hold the update of what they held (`xs0`, `xs1`); the output blocks are stored from the
accumulators read back after that update, so they hold the same. -/

theorem piece_B_S0 (c : Dev nD) (i : grid0.Coords) (arg2 : Memref sig .tc .vmem S1x8x256x512 .f32) (harg2 : arg2.IsWhole) (arg3 : Memref sig .tc .vmem S1x256x512 .i32) (harg3 : arg3.IsWhole) (arg4 : Memref sig .tc .vmem S1x1x8 .f32) (harg4 : arg4.IsWhole) (arg5 : Memref sig .tc .vmem S1x1x8 .f32) (harg5 : arg5.IsWhole) (arg6 : Memref sig .tc .vmem S1x1x8 .f32) (harg6 : arg6.IsWhole) (arg7 : Memref sig .tc .vmem S1x1x8 .f32) (harg7 : arg7.IsWhole) (hc0 : ¬cond0_0 i) (hc1 : cond0_1 i)
    (x0 : Vec F S1x8x256x512 .f32) (x1 : Vec F S1x256x512 .i32) (xs0 : Vec F S1x1x8 .f32) (xs1 : Vec F S1x1x8 .f32) :
    sout0_B_0 c i arg2 harg2 arg3 harg3 arg4 harg4 arg5 harg5 arg6 harg6 arg7 harg7 hc0 hc1 x0 x1 xs0 xs1 = KBlock.cntBlock x1 xs0 := by
  unfold sout0_B_0
  rw [View.read_writes_eq_canon _ _ _ (scover0_B_0 c i arg2 harg2 arg3 harg3 arg4 harg4 arg5 harg5 arg6 harg6 arg7 harg7 hc0 hc1 x0 x1 xs0 xs1)]
  unfold kernelRun0_B
  dsimp only
  sl_unfold_words
  rw [View.canon_unit_zero hz3]
  simp only [View.readAt_eq_ld, harg2.read_unread, harg3.read_unread, harg6.read_unread, harg7.read_unread,
    View.ld_unit_zero (S := S1x1x8) hz3, View.ld_unit_zero (S := S1x256x512) hz3,
    KBlock.cntBlock, KBlock.tw]

theorem piece_B_S1 (c : Dev nD) (i : grid0.Coords) (arg2 : Memref sig .tc .vmem S1x8x256x512 .f32) (harg2 : arg2.IsWhole) (arg3 : Memref sig .tc .vmem S1x256x512 .i32) (harg3 : arg3.IsWhole) (arg4 : Memref sig .tc .vmem S1x1x8 .f32) (harg4 : arg4.IsWhole) (arg5 : Memref sig .tc .vmem S1x1x8 .f32) (harg5 : arg5.IsWhole) (arg6 : Memref sig .tc .vmem S1x1x8 .f32) (harg6 : arg6.IsWhole) (arg7 : Memref sig .tc .vmem S1x1x8 .f32) (harg7 : arg7.IsWhole) (hc0 : ¬cond0_0 i) (hc1 : cond0_1 i)
    (x0 : Vec F S1x8x256x512 .f32) (x1 : Vec F S1x256x512 .i32) (xs0 : Vec F S1x1x8 .f32) (xs1 : Vec F S1x1x8 .f32) :
    sout0_B_1 c i arg2 harg2 arg3 harg3 arg4 harg4 arg5 harg5 arg6 harg6 arg7 harg7 hc0 hc1 x0 x1 xs0 xs1 = KBlock.lgBlock (slices x0) x1 xs1 := by
  unfold sout0_B_1
  rw [View.read_writes_eq_canon _ _ _ (scover0_B_1 c i arg2 harg2 arg3 harg3 arg4 harg4 arg5 harg5 arg6 harg6 arg7 harg7 hc0 hc1 x0 x1 xs0 xs1)]
  unfold kernelRun0_B
  dsimp only
  sl_unfold_words
  rw [View.canon_unit_zero hz3]
  simp only [View.readAt_eq_ld, harg2.read_unread, harg3.read_unread, harg6.read_unread, harg7.read_unread,
    View.ld_unit_zero (S := S1x1x8) hz3, View.ld_unit_zero (S := S1x256x512) hz3,
    KBlock.lgBlock, KBlock.mx8, KBlock.mx6, KBlock.lse, KBlock.se4, KBlock.ex4, KBlock.tw,
    slices_0, slices_1, slices_2, slices_3, slices_4, slices_5, slices_6, slices_7]

theorem piece_B_2 (c : Dev nD) (i : grid0.Coords) (arg2 : Memref sig .tc .vmem S1x8x256x512 .f32) (harg2 : arg2.IsWhole) (arg3 : Memref sig .tc .vmem S1x256x512 .i32) (harg3 : arg3.IsWhole) (arg4 : Memref sig .tc .vmem S1x1x8 .f32) (harg4 : arg4.IsWhole) (arg5 : Memref sig .tc .vmem S1x1x8 .f32) (harg5 : arg5.IsWhole) (arg6 : Memref sig .tc .vmem S1x1x8 .f32) (harg6 : arg6.IsWhole) (arg7 : Memref sig .tc .vmem S1x1x8 .f32) (harg7 : arg7.IsWhole) (hc0 : ¬cond0_0 i) (hc1 : cond0_1 i)
    (x0 : Vec F S1x8x256x512 .f32) (x1 : Vec F S1x256x512 .i32) (xs0 : Vec F S1x1x8 .f32) (xs1 : Vec F S1x1x8 .f32) :
    out0_B_2 c i arg2 harg2 arg3 harg3 arg4 harg4 arg5 harg5 arg6 harg6 arg7 harg7 hc0 hc1 x0 x1 xs0 xs1 = KBlock.cntBlock x1 xs0 := by
  unfold out0_B_2
  rw [View.read_writes_eq_canon _ _ _ (cover0_B_2 c i arg2 harg2 arg3 harg3 arg4 harg4 arg5 harg5 arg6 harg6 arg7 harg7 hc0 hc1 x0 x1 xs0 xs1)]
  unfold kernelRun0_B
  dsimp only
  sl_unfold_words
  rw [View.canon_unit_zero hz3]
  simp only [View.readCov_unit_zero (S := S1x1x8) _ hz3, View.readAt_eq_ld, harg2.read_unread, harg3.read_unread, harg6.read_unread, harg7.read_unread,
    View.ld_unit_zero (S := S1x1x8) hz3, View.ld_unit_zero (S := S1x256x512) hz3,
    KBlock.cntBlock, KBlock.tw]

theorem piece_B_3 (c : Dev nD) (i : grid0.Coords) (arg2 : Memref sig .tc .vmem S1x8x256x512 .f32) (harg2 : arg2.IsWhole) (arg3 : Memref sig .tc .vmem S1x256x512 .i32) (harg3 : arg3.IsWhole) (arg4 : Memref sig .tc .vmem S1x1x8 .f32) (harg4 : arg4.IsWhole) (arg5 : Memref sig .tc .vmem S1x1x8 .f32) (harg5 : arg5.IsWhole) (arg6 : Memref sig .tc .vmem S1x1x8 .f32) (harg6 : arg6.IsWhole) (arg7 : Memref sig .tc .vmem S1x1x8 .f32) (harg7 : arg7.IsWhole) (hc0 : ¬cond0_0 i) (hc1 : cond0_1 i)
    (x0 : Vec F S1x8x256x512 .f32) (x1 : Vec F S1x256x512 .i32) (xs0 : Vec F S1x1x8 .f32) (xs1 : Vec F S1x1x8 .f32) :
    out0_B_3 c i arg2 harg2 arg3 harg3 arg4 harg4 arg5 harg5 arg6 harg6 arg7 harg7 hc0 hc1 x0 x1 xs0 xs1 = KBlock.lgBlock (slices x0) x1 xs1 := by
  unfold out0_B_3
  rw [View.read_writes_eq_canon _ _ _ (cover0_B_3 c i arg2 harg2 arg3 harg3 arg4 harg4 arg5 harg5 arg6 harg6 arg7 harg7 hc0 hc1 x0 x1 xs0 xs1)]
  unfold kernelRun0_B
  dsimp only
  sl_unfold_words
  rw [View.canon_unit_zero hz3]
  simp only [View.readCov_unit_zero (S := S1x1x8) _ hz3, View.readAt_eq_ld, harg2.read_unread, harg3.read_unread, harg6.read_unread, harg7.read_unread,
    View.ld_unit_zero (S := S1x1x8) hz3, View.ld_unit_zero (S := S1x256x512) hz3,
    KBlock.lgBlock, KBlock.mx8, KBlock.mx6, KBlock.lse, KBlock.se4, KBlock.ex4, KBlock.tw,
    slices_0, slices_1, slices_2, slices_3, slices_4, slices_5, slices_6, slices_7]

/-! ## What an even point leaves: the reset to zero, then the update, which reads the zero back -/

theorem piece_A_S0 (c : Dev nD) (i : grid0.Coords) (arg2 : Memref sig .tc .vmem S1x8x256x512 .f32) (harg2 : arg2.IsWhole) (arg3 : Memref sig .tc .vmem S1x256x512 .i32) (harg3 : arg3.IsWhole) (arg4 : Memref sig .tc .vmem S1x1x8 .f32) (harg4 : arg4.IsWhole) (arg5 : Memref sig .tc .vmem S1x1x8 .f32) (harg5 : arg5.IsWhole) (arg6 : Memref sig .tc .vmem S1x1x8 .f32) (harg6 : arg6.IsWhole) (arg7 : Memref sig .tc .vmem S1x1x8 .f32) (harg7 : arg7.IsWhole) (hc0 : cond0_0 i) (hc1 : ¬cond0_1 i)
    (x0 : Vec F S1x8x256x512 .f32) (x1 : Vec F S1x256x512 .i32) :
    sout0_A_0 c i arg2 harg2 arg3 harg3 arg4 harg4 arg5 harg5 arg6 harg6 arg7 harg7 hc0 hc1 x0 x1 = KBlock.cntBlock x1 (k0_pay3 (F := F)) := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_words
  rw [View.canon_cons_unit_zero (S := S1x1x8) hz3, View.readCov_unit_zero (S := S1x1x8) _ hz3]
  simp only [View.readAt_eq_ld, harg2.read_unread, harg3.read_unread, harg6.read_unread, harg7.read_unread,
    View.ld_unit_zero (S := S1x1x8) hz3, View.ld_unit_zero (S := S1x256x512) hz3,
    KBlock.cntBlock, KBlock.tw]

theorem piece_A_S1 (c : Dev nD) (i : grid0.Coords) (arg2 : Memref sig .tc .vmem S1x8x256x512 .f32) (harg2 : arg2.IsWhole) (arg3 : Memref sig .tc .vmem S1x256x512 .i32) (harg3 : arg3.IsWhole) (arg4 : Memref sig .tc .vmem S1x1x8 .f32) (harg4 : arg4.IsWhole) (arg5 : Memref sig .tc .vmem S1x1x8 .f32) (harg5 : arg5.IsWhole) (arg6 : Memref sig .tc .vmem S1x1x8 .f32) (harg6 : arg6.IsWhole) (arg7 : Memref sig .tc .vmem S1x1x8 .f32) (harg7 : arg7.IsWhole) (hc0 : cond0_0 i) (hc1 : ¬cond0_1 i)
    (x0 : Vec F S1x8x256x512 .f32) (x1 : Vec F S1x256x512 .i32) :
    sout0_A_1 c i arg2 harg2 arg3 harg3 arg4 harg4 arg5 harg5 arg6 harg6 arg7 harg7 hc0 hc1 x0 x1 = KBlock.lgBlock (slices x0) x1 (k0_pay4 (F := F)) := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  sl_unfold_words
  rw [View.canon_cons_unit_zero (S := S1x1x8) hz3, View.readCov_unit_zero (S := S1x1x8) _ hz3]
  simp only [View.readAt_eq_ld, harg2.read_unread, harg3.read_unread, harg6.read_unread, harg7.read_unread,
    View.ld_unit_zero (S := S1x1x8) hz3, View.ld_unit_zero (S := S1x256x512) hz3,
    KBlock.lgBlock, KBlock.mx8, KBlock.mx6, KBlock.lse, KBlock.se4, KBlock.ex4, KBlock.tw,
    slices_0, slices_1, slices_2, slices_3, slices_4, slices_5, slices_6, slices_7]

/-- At an even point: the accumulators hold the point's update of zero. -/
theorem outs_even (c : Dev nD) (t : Fin cfg0.N) (h0 : t.val % 2 = 0) :
    (outsAt0 m c t.val t.isLt).2.2.1 = KBlock.cntBlock (tblk m c t) (k0_pay3 (F := F))
    ∧ (outsAt0 m c t.val t.isLt).2.2.2 = KBlock.lgBlock (slices (pblk m c t)) (tblk m c t) (k0_pay4 (F := F)) := by
  have h1 : ¬t.val % 2 = 1 := by omega
  rw [outsAt0_A m c t h0 h1]
  dsimp only
  exact ⟨piece_A_S0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t),
    piece_A_S1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t)⟩

/-- At an odd point: the output blocks hold the point's update of what the point before left in the accumulators. -/
theorem outs_odd (c : Dev nD) (t : Fin cfg0.N) (h1 : t.val % 2 = 1) :
    (outsAt0 m c t.val t.isLt).1
        = KBlock.cntBlock (tblk m c t) ((outsAt0 m c (t.val - 1) (Nat.lt_of_le_of_lt (Nat.sub_le _ _) t.isLt)).2.2.1)
    ∧ (outsAt0 m c t.val t.isLt).2.1
        = KBlock.lgBlock (slices (pblk m c t)) (tblk m c t) ((outsAt0 m c (t.val - 1) (Nat.lt_of_le_of_lt (Nat.sub_le _ _) t.isLt)).2.2.2) := by
  have h0 : ¬t.val % 2 = 0 := by omega
  rw [outsAt0_B m c t h0 h1]
  dsimp only
  exact ⟨piece_B_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2.2.1 (outsAt0 m c (t.val - 1) (Nat.lt_of_le_of_lt (Nat.sub_le _ _) t.isLt)).2.2.2,
    piece_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2.2.1 (outsAt0 m c (t.val - 1) (Nat.lt_of_le_of_lt (Nat.sub_le _ _) t.isLt)).2.2.2⟩

end Cert.KernelIdeal.KPieces

end
-- ==== Proof.KFinal.lean ====
/-
  From what the kernel leaves at each grid point to its two output arrays, and its two input blocks read at an index.

  The grid is 16 batch rows by 2 half-images, visited row by row: point (n, j) is number 2 n + j. At point (n, j)
  the logits block is batch row n, all 8 classes, image rows 256 j … 256 j + 255, all 512 columns, and the target
  block is batch row n, the same image rows, all columns. Each output array has shape [16, 1, 8]; its block at
  point (n, j) is row n, and the block is written back only at the odd points (n, 1). So row n of an output array
  ends as what point (n, 1) left in the output block.
-/
import proofs.«429264_j111669149713_3_alg».proof.Proof.KPieces
import proofs.«429264_j111669149713_3_alg».proof.Proof.Spec
import Idealize.ShloMosaic.Lib.Pipeline.Value
import Idealize.ShloMosaic.Lib.ValueIdx

set_option maxRecDepth 16384

noncomputable section

namespace Cert.KernelIdeal.KFinal

open Cert.KernelIdeal Cert.KernelIdeal.Gen Cert.KernelIdeal.KPieces Idealize.ShloMosaic Idealize.ShloMosaic.ValueIdx
open Idealize.ShloMosaic.Pipeline (Dat)

variable {F : FTy → Type} [FloatOps F]
variable (m : (ℓ : Loc nD τ sig) → Buf (Elt F) ℓ)

/-- Grid point (n, j): half-image j of batch row n, number 2 n + j in the order of the visit. -/
def pt (n : Fin 16) (j : Fin 2) : Fin cfg0.N :=
  ⟨2 * n.val + j.val, by have := n.isLt; have := j.isLt; rw [show cfg0.N = 32 from N_0]; omega⟩

theorem pt_val (n : Fin 16) (j : Fin 2) : (pt n j).val = 2 * n.val + j.val := rfl

/-- The block-index maps at point t: the batch row is t / 2 for every window, the inputs' image-row block is t % 2,
    every other block index is 0. -/
theorem idx_maps : ∀ t : Fin cfg0.N,
    win0_0.index t (0 : Fin 4) = t.val / 2 ∧ win0_0.index t (1 : Fin 4) = 0
    ∧ win0_0.index t (2 : Fin 4) = t.val % 2 ∧ win0_0.index t (3 : Fin 4) = 0
    ∧ win0_1.index t (0 : Fin 3) = t.val / 2 ∧ win0_1.index t (1 : Fin 3) = t.val % 2
    ∧ win0_1.index t (2 : Fin 3) = 0
    ∧ win0_2.index t (0 : Fin 3) = t.val / 2 ∧ win0_2.index t (1 : Fin 3) = 0 ∧ win0_2.index t (2 : Fin 3) = 0
    ∧ win0_3.index t (0 : Fin 3) = t.val / 2 ∧ win0_3.index t (1 : Fin 3) = 0 ∧ win0_3.index t (2 : Fin 3) = 0 :=
  (by decide +kernel : ∀ t : Fin grid0.N, _)

/-! ## The input blocks at an index -/

/-- The target block of point (n, j) at (0, r, w) is the target array at (n, 256 j + r, w). -/
theorem tblk_apply (c : Dev nD) (n : Fin 16) (j : Fin 2) (r : Fin 256) (w : Fin 512) :
    tblk m c (pt n j) (ix3 0 r w) = V m c main_arg1 (ix3 n (Cert.WCE.row j r) w) := by
  obtain ⟨-, -, -, -, e0, e1, e2, -⟩ := idx_maps (pt n j)
  have hn := n.isLt
  have hj := j.isLt
  rw [pt_val] at e0 e1
  show V m c main_arg1 (((cfg0.win 1).blk (pt n j)).view.emb (ix3 0 r w)) = V m c main_arg1 (ix3 n (Cert.WCE.row j r) w)
  congr 1
  funext a
  apply Fin.ext
  match a with
  | ⟨0, _⟩ => show win0_1.index (pt n j) (0 : Fin 3) * 1 + 1 * 0 = n.val; rw [e0]; omega
  | ⟨1, _⟩ => show win0_1.index (pt n j) (1 : Fin 3) * 256 + 1 * r.val = 256 * j.val + r.val; rw [e1]; omega
  | ⟨2, _⟩ => show win0_1.index (pt n j) (2 : Fin 3) * 512 + 1 * w.val = w.val; rw [e2]; omega

/-- The logits block of point (n, j) at (0, k, r, w) is the logits array at (n, k, 256 j + r, w). -/
theorem pblk_apply (c : Dev nD) (n : Fin 16) (j : Fin 2) (k : Fin 8) (r : Fin 256) (w : Fin 512) :
    pblk m c (pt n j) (ix4 0 k r w) = V m c main_arg0 (ix4 n k (Cert.WCE.row j r) w) := by
  obtain ⟨e0, e1, e2, e3, -⟩ := idx_maps (pt n j)
  have hn := n.isLt
  have hj := j.isLt
  rw [pt_val] at e0 e2
  show V m c main_arg0 (((cfg0.win 0).blk (pt n j)).view.emb (ix4 0 k r w)) = V m c main_arg0 (ix4 n k (Cert.WCE.row j r) w)
  congr 1
  funext a
  apply Fin.ext
  match a with
  | ⟨0, _⟩ => show win0_0.index (pt n j) (0 : Fin 4) * 1 + 1 * 0 = n.val; rw [e0]; omega
  | ⟨1, _⟩ => show win0_0.index (pt n j) (1 : Fin 4) * 8 + 1 * k.val = k.val; rw [e1]; omega
  | ⟨2, _⟩ => show win0_0.index (pt n j) (2 : Fin 4) * 256 + 1 * r.val = 256 * j.val + r.val; rw [e2]; omega
  | ⟨3, _⟩ => show win0_0.index (pt n j) (3 : Fin 4) * 512 + 1 * w.val = w.val; rw [e3]; omega

/-! ## The output arrays -/

/-- The contents after a point depend on the point's number only, not on the proof that it is in range. -/
theorem outsAt0_congr (c : Dev nD) {a b : ℕ} (h : a = b) (ha : a < cfg0.N) (hb : b < cfg0.N) :
    outsAt0 m c a ha = outsAt0 m c b hb := by
  subst h; rfl

/-- The first output as one array: row n holds what point (n, 1) left in the first output block. -/
def G2 (c : Dev nD) : S16x1x8.Idx → Elt F .f32 := fun i =>
  (outsAt0 m c (pt (i 0) 1).val (pt (i 0) 1).isLt).1 (ix3 0 0 (i 2))

/-- The second output as one array: row n holds what point (n, 1) left in the second output block. -/
def G3 (c : Dev nD) : S16x1x8.Idx → Elt F .f32 := fun i =>
  (outsAt0 m c (pt (i 0) 1).val (pt (i 0) 1).isLt).2.1 (ix3 0 0 (i 2))

/-- An index of a [1, 1, 8] block is (0, 0, its last coordinate). -/
theorem blk_idx (y : S1x1x8.Idx) : y = ix3 0 0 (y 2) := by
  funext a
  match a with
  | ⟨0, _⟩ => exact Fin.ext (by have h : (y 0).val < 1 := (y 0).isLt; show (y 0).val = 0; omega)
  | ⟨1, _⟩ => exact Fin.ext (by have h : (y 1).val < 1 := (y 1).isLt; show (y 1).val = 0; omega)
  | ⟨2, _⟩ => rfl

/-- At an odd point t, the array G2 at row t / 2 and column y₂ is the point's own block at y. -/
theorem G2_at (c : Dev nD) (t : Fin cfg0.N) (h1 : t.val % 2 = 1) (y : S1x1x8.Idx) (i : S16x1x8.Idx)
    (h0 : (i 0).val = t.val / 2) (h2 : (i 2).val = (y 2).val) :
    G2 m c i = (outsAt0 m c t.val t.isLt).1 y := by
  have e : (pt (i 0) 1).val = t.val := by show 2 * (i 0).val + 1 = t.val; rw [h0]; omega
  unfold G2
  rw [outsAt0_congr m c e (pt (i 0) 1).isLt t.isLt, blk_idx y]
  exact congrArg _ (congrArg (ix3 0 0) (Fin.ext h2))

theorem G3_at (c : Dev nD) (t : Fin cfg0.N) (h1 : t.val % 2 = 1) (y : S1x1x8.Idx) (i : S16x1x8.Idx)
    (h0 : (i 0).val = t.val / 2) (h2 : (i 2).val = (y 2).val) :
    G3 m c i = (outsAt0 m c t.val t.isLt).2.1 y := by
  have e : (pt (i 0) 1).val = t.val := by show 2 * (i 0).val + 1 = t.val; rw [h0]; omega
  unfold G3
  rw [outsAt0_congr m c e (pt (i 0) 1).isLt t.isLt, blk_idx y]
  exact congrArg _ (congrArg (ix3 0 0) (Fin.ext h2))

/-- What an odd point writes back of the first output is its block of G2. -/
theorem flushed2_eq (c : Dev nD) (t : Fin cfg0.N) (hf : (cfg0.win 2).flush t = true) :
    (dats m 0 c).flushed 2 t = ((cfg0.win 2).blk t).view.read (Elt F) (G2 m c) := by
  have h1 : t.val % 2 = 1 := (flush0_2 t).mp hf
  obtain ⟨-, -, -, -, -, -, -, e0, e1, e2, -⟩ := idx_maps t
  show (cfg0.win 2).cut (grid0.coords t) ((dats m 0 c).after 2 t) = _
  rw [after0_2]
  funext y
  show (outsAt0 m c t.val t.isLt).1 y = G2 m c (((cfg0.win 2).blk t).view.emb y)
  refine (G2_at m c t h1 y _ ?_ ?_).symm
  · show win0_2.index t (0 : Fin 3) * 1 + 1 * (y 0).val = t.val / 2
    have : (y 0).val < 1 := (y 0).isLt
    rw [e0]; omega
  · show win0_2.index t (2 : Fin 3) * 8 + 1 * (y 2).val = (y 2).val
    rw [e2]; omega

theorem flushed3_eq (c : Dev nD) (t : Fin cfg0.N) (hf : (cfg0.win 3).flush t = true) :
    (dats m 0 c).flushed 3 t = ((cfg0.win 3).blk t).view.read (Elt F) (G3 m c) := by
  have h1 : t.val % 2 = 1 := (flush0_3 t).mp hf
  obtain ⟨-, -, -, -, -, -, -, -, -, -, e0, e1, e2⟩ := idx_maps t
  show (cfg0.win 3).cut (grid0.coords t) ((dats m 0 c).after 3 t) = _
  rw [after0_3]
  funext y
  show (outsAt0 m c t.val t.isLt).2.1 y = G3 m c (((cfg0.win 3).blk t).view.emb y)
  refine (G3_at m c t h1 y _ ?_ ?_).symm
  · show win0_3.index t (0 : Fin 3) * 1 + 1 * (y 0).val = t.val / 2
    have : (y 0).val < 1 := (y 0).isLt
    rw [e0]; omega
  · show win0_3.index t (2 : Fin 3) * 8 + 1 * (y 2).val = (y 2).val
    rw [e2]; omega

/-- An index of an output array lies in point t's block iff each coordinate lies in the block's range. -/
theorem mem_blk2 (t : Fin cfg0.N) (i : S16x1x8.Idx) :
    i ∈ ((cfg0.win 2).blk t).view.set ↔ ∀ a : Fin 3, win0_2.index t a * S1x1x8.size a ≤ (i a).val ∧ (i a).val < win0_2.index t a * S1x1x8.size a + S1x1x8.size a := by
  show i ∈ ((View.whole main_v0_0).slice (win0_2.rect t)).set ↔ _
  rw [View.set_slice_whole, Rect.mem_set_unit]
  exact Iff.rfl

theorem mem_blk3 (t : Fin cfg0.N) (i : S16x1x8.Idx) :
    i ∈ ((cfg0.win 3).blk t).view.set ↔ ∀ a : Fin 3, win0_3.index t a * S1x1x8.size a ≤ (i a).val ∧ (i a).val < win0_3.index t a * S1x1x8.size a + S1x1x8.size a := by
  show i ∈ ((View.whole main_v0_1).slice (win0_3.rect t)).set ↔ _
  rw [View.set_slice_whole, Rect.mem_set_unit]
  exact Iff.rfl

/-- Row n of an output array is covered by the block written back at point (n, 1). -/
theorem cover2 (i : S16x1x8.Idx) :
    ∃ t : Fin cfg0.N, (cfg0.win 2).flush t = true ∧ i ∈ ((cfg0.win 2).blk t).view.set := by
  have h0 : (i 0).val < 16 := (i 0).isLt
  have h1 : (i 1).val < 1 := (i 1).isLt
  have h2 : (i 2).val < 8 := (i 2).isLt
  have hv : (pt (i 0) 1).val = 2 * (i 0).val + 1 := rfl
  obtain ⟨-, -, -, -, -, -, -, e0, e1, e2, -⟩ := idx_maps (pt (i 0) 1)
  refine ⟨pt (i 0) 1, (flush0_2 _).mpr (by rw [hv]; omega), ?_⟩
  rw [mem_blk2]
  intro a
  match a with
  | ⟨0, _⟩ => show win0_2.index (pt (i 0) 1) (0 : Fin 3) * 1 ≤ (i 0).val ∧ (i 0).val < win0_2.index (pt (i 0) 1) (0 : Fin 3) * 1 + 1; rw [e0, hv]; omega
  | ⟨1, _⟩ => show win0_2.index (pt (i 0) 1) (1 : Fin 3) * 1 ≤ (i 1).val ∧ (i 1).val < win0_2.index (pt (i 0) 1) (1 : Fin 3) * 1 + 1; rw [e1]; omega
  | ⟨2, _⟩ => show win0_2.index (pt (i 0) 1) (2 : Fin 3) * 8 ≤ (i 2).val ∧ (i 2).val < win0_2.index (pt (i 0) 1) (2 : Fin 3) * 8 + 8; rw [e2]; omega

theorem cover3 (i : S16x1x8.Idx) :
    ∃ t : Fin cfg0.N, (cfg0.win 3).flush t = true ∧ i ∈ ((cfg0.win 3).blk t).view.set := by
  have h0 : (i 0).val < 16 := (i 0).isLt
  have h1 : (i 1).val < 1 := (i 1).isLt
  have h2 : (i 2).val < 8 := (i 2).isLt
  have hv : (pt (i 0) 1).val = 2 * (i 0).val + 1 := rfl
  obtain ⟨-, -, -, -, -, -, -, -, -, -, e0, e1, e2⟩ := idx_maps (pt (i 0) 1)
  refine ⟨pt (i 0) 1, (flush0_3 _).mpr (by rw [hv]; omega), ?_⟩
  rw [mem_blk3]
  intro a
  match a with
  | ⟨0, _⟩ => show win0_3.index (pt (i 0) 1) (0 : Fin 3) * 1 ≤ (i 0).val ∧ (i 0).val < win0_3.index (pt (i 0) 1) (0 : Fin 3) * 1 + 1; rw [e0, hv]; omega
  | ⟨1, _⟩ => show win0_3.index (pt (i 0) 1) (1 : Fin 3) * 1 ≤ (i 1).val ∧ (i 1).val < win0_3.index (pt (i 0) 1) (1 : Fin 3) * 1 + 1; rw [e1]; omega
  | ⟨2, _⟩ => show win0_3.index (pt (i 0) 1) (2 : Fin 3) * 8 ≤ (i 2).val ∧ (i 2).val < win0_3.index (pt (i 0) 1) (2 : Fin 3) * 8 + 8; rw [e2]; omega

/-- The two output arrays after the run, whole. -/
theorem arr2_eq (c : Dev nD) : (dats m 0 c).arrAt 2 cfg0.N = G2 m c :=
  (dats m 0 c).arrAt_eq_of_cover 2 (G2 m c) (flushed2_eq m c) cover2

theorem arr3_eq (c : Dev nD) : (dats m 0 c).arrAt 3 cfg0.N = G3 m c :=
  (dats m 0 c).arrAt_eq_of_cover 3 (G3 m c) (flushed3_eq m c) cover3

/-- Row n, column k of the first output array is what point (n, 1) left in the first output block at (0, 0, k). -/
theorem final2 (c : Dev nD) (n : Fin 16) (k : Fin 8) :
    (dats m 0 c).arrAt 2 cfg0.N (ix3 n 0 k) = (outsAt0 m c (pt n 1).val (pt n 1).isLt).1 (ix3 0 0 k) :=
  congrFun (arr2_eq m c) (ix3 n 0 k)

/-- Row n, column k of the second output array is what point (n, 1) left in the second output block at (0, 0, k). -/
theorem final3 (c : Dev nD) (n : Fin 16) (k : Fin 8) :
    (dats m 0 c).arrAt 3 cfg0.N (ix3 n 0 k) = (outsAt0 m c (pt n 1).val (pt n 1).isLt).2.1 (ix3 0 0 k) :=
  congrFun (arr3_eq m c) (ix3 n 0 k)

end Cert.KernelIdeal.KFinal

end
-- ==== Proof.LibRowOps.lean ====
/-
  Row operations read at an index, for arrays of any number of rows.

  The arrays here are rank-2, `[n, k]`, and every operation acts on each row by itself, so each lemma reads an
  operation at the index `(p, q)` from its operands at row `p`:
  * a concatenation along the columns reads the piece whose column span holds `q` — for unit-width pieces, piece
    `q` at column `0`; for a `[n, 3]` piece beside a `[n, 2]` piece, the first at `q` when `q < 3`, else the
    second at `q - 3`;
  * a matrix product `[n, K] × [K, N]` into a zero accumulator is `∑ k, l (p, k) * r (k, j)`.
  Nothing depends on `n`: the same statements serve a block of rows and the whole array.
-/
import Idealize.ShloMosaic.Lib.Pipeline.Value
import Idealize.ShloMosaic.Lib.ValueIdx
import Idealize.ShloMosaic.Lib.ValueLayout
import Idealize.ShloMosaic.PureOps.Ideal.Laws

noncomputable section

namespace Cert.LibRowOps

open Idealize.ShloMosaic Idealize.ShloMosaic.ValueIdx
open scoped BigOperators

variable {α : Type}

/-! ## Concatenation along the columns -/

/-- A `[n, 3]` piece beside a `[n, 2]` piece: column `q` comes from the first piece when `q < 3`, else from the
    second at `q - 3`. -/
theorem cat32_apply {n : ℕ} (a : (⟨2, ![n, 3]⟩ : Shape).Idx → α) (b : (⟨2, ![n, 2]⟩ : Shape).Idx → α)
    (h : Shape.Concatenates [(⟨2, ![n, 3]⟩ : Shape), ⟨2, ![n, 2]⟩] ⟨2, ![n, 5]⟩ 1) (p : Fin n) (q : Fin 5) :
    concatenate ⟨2, ![n, 5]⟩ 1 [⟨⟨2, ![n, 3]⟩, a⟩, ⟨⟨2, ![n, 2]⟩, b⟩] h (ix2 p q)
      = if hq : q.val < 3 then a (ix2 p ⟨q.val, hq⟩) else b (ix2 p ⟨q.val - 3, by omega⟩) := by
  split
  · next hq =>
    exact concatenate_pair_apply_left 1 a b h (ix2 p q) rfl (ix2 p ⟨q.val, hq⟩)
      (fun bb => by match bb with | ⟨0, _⟩ => rfl | ⟨1, _⟩ => rfl)
  · next hq =>
    exact concatenate_pair_apply_right 1 a b h (ix2 p q) rfl rfl (ix2 p ⟨q.val - 3, by omega⟩)
      (fun bb hb => by match bb with | ⟨0, _⟩ => rfl | ⟨1, _⟩ => exact absurd rfl hb)
      (by show (q.val - 3) + 3 = q.val; omega)

/-- Unit-width pieces: column `q` of the concatenation is piece `q`, read at column `0`. The hypothesis `hpre`
    says the pieces before piece `q` span `q` columns; for a literal list it holds by evaluation. -/
theorem catUnits_apply {n K : ℕ} {xs : List ((s : Shape) × (s.Idx → α))}
    {h : Shape.Concatenates (xs.map (·.1)) ⟨2, ![n, K]⟩ 1} (p : Fin n) (q : Fin K)
    (hq : q.val < xs.length) (x : (⟨2, ![n, 1]⟩ : Shape).Idx → α) (hx : xs[q.val] = ⟨⟨2, ![n, 1]⟩, x⟩)
    (hpre : (((xs.take q.val).map (·.1)).map fun s : Shape =>
      if h : s.rank = (⟨2, ![n, K]⟩ : Shape).rank then s.size ((1 : Fin (⟨2, ![n, K]⟩ : Shape).rank).cast h.symm) else 0).sum = q.val) :
    concatenate ⟨2, ![n, K]⟩ 1 xs h (ix2 p q) = x (ix2 p 0) :=
  concatenate_apply_piece 1 xs h (ix2 p q) q.val hq _ x hx rfl q.val hpre (ix2 p 0)
    (fun b hb => by match b with | ⟨0, _⟩ => rfl | ⟨1, _⟩ => exact absurd rfl hb)
    (by show q.val + 0 = q.val; omega)

/-- Two unit-width pieces. -/
theorem cat2_apply {n : ℕ} (x0 x1 : (⟨2, ![n, 1]⟩ : Shape).Idx → α)
    (h : Shape.Concatenates [(⟨2, ![n, 1]⟩ : Shape), ⟨2, ![n, 1]⟩] ⟨2, ![n, 2]⟩ 1) (p : Fin n) (q : Fin 2) :
    concatenate ⟨2, ![n, 2]⟩ 1 [⟨⟨2, ![n, 1]⟩, x0⟩, ⟨⟨2, ![n, 1]⟩, x1⟩] h (ix2 p q)
      = ![x0 (ix2 p 0), x1 (ix2 p 0)] q := by
  match q with
  | ⟨0, _⟩ => exact catUnits_apply p ⟨0, by omega⟩ (by simp) x0 rfl rfl
  | ⟨1, _⟩ => exact catUnits_apply p ⟨1, by omega⟩ (by simp) x1 rfl rfl

/-- Five unit-width pieces. -/
theorem cat5_apply {n : ℕ} (x0 x1 x2 x3 x4 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩] ⟨2, ![n, 5]⟩ 1)
    (p : Fin n) (q : Fin 5) :
    concatenate ⟨2, ![n, 5]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩] h (ix2 p q)
      = ![x0 (ix2 p 0), x1 (ix2 p 0), x2 (ix2 p 0), x3 (ix2 p 0), x4 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl

/-- Six unit-width pieces. -/
theorem cat6_apply {n : ℕ} (x0 x1 x2 x3 x4 x5 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩, ⟨2, ![n, 1]⟩] ⟨2, ![n, 6]⟩ 1)
    (p : Fin n) (q : Fin 6) :
    concatenate ⟨2, ![n, 6]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩, ⟨⟨2, ![n, 1]⟩, x5⟩] h (ix2 p q)
      = ![x0 (ix2 p 0), x1 (ix2 p 0), x2 (ix2 p 0), x3 (ix2 p 0), x4 (ix2 p 0), x5 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl
  | ⟨5, _⟩ => exact catUnits_apply p ⟨5, by omega⟩ (by simp) x5 rfl rfl

/-- Seven unit-width pieces. -/
theorem cat7_apply {n : ℕ} (x0 x1 x2 x3 x4 x5 x6 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩, ⟨2, ![n, 1]⟩, ⟨2, ![n, 1]⟩] ⟨2, ![n, 7]⟩ 1)
    (p : Fin n) (q : Fin 7) :
    concatenate ⟨2, ![n, 7]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩, ⟨⟨2, ![n, 1]⟩, x5⟩, ⟨⟨2, ![n, 1]⟩, x6⟩] h (ix2 p q)
      = ![x0 (ix2 p 0), x1 (ix2 p 0), x2 (ix2 p 0), x3 (ix2 p 0), x4 (ix2 p 0), x5 (ix2 p 0), x6 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl
  | ⟨5, _⟩ => exact catUnits_apply p ⟨5, by omega⟩ (by simp) x5 rfl rfl
  | ⟨6, _⟩ => exact catUnits_apply p ⟨6, by omega⟩ (by simp) x6 rfl rfl

/-! ## A matrix product, `[M, K] × [K, N]`, as a sum over `Fin K` -/

section Plain
variable {M K N : ℕ}

theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_lhs_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction of a plain product, at `(p, j)`: the sum over `k : Fin K` of `l (p, k) * r (k, j)`. -/
theorem plain_sum (l : (⟨2, ![M, K]⟩ : Shape).Idx → EReal) (r : (⟨2, ![K, N]⟩ : Shape).Idx → EReal) (p : Fin M) (j : Fin N) :
    ∑ k : (DotDims.plain M K N).contr.Idx, l ((DotDims.plain M K N).lhsIdx (ix2 p j) k) * r ((DotDims.plain M K N).rhsIdx (ix2 p j) k)
      = ∑ k : Fin K, l (ix2 p k) * r (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact plain_lhs_0 _ _
      | ⟨1, _⟩ => exact (plain_lhs_1 _ _).trans hk)
  have er : (DotDims.plain M K N).rhsIdx (ix2 p j) ((contrEquiv1 (DotDims.plain M K N) K rfl rfl).symm k) = ix2 k j :=
    funext fun a => Fin.ext (by
      match a with
      | ⟨0, _⟩ => exact (plain_rhs_0 _ _).trans hk
      | ⟨1, _⟩ => exact plain_rhs_1 _ _)
  rw [el, er]

/-- A kernel's matrix product into the zero accumulator, for any dimension record that is the plain one. -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (j : Fin N) :
    matmul d prec l r (constant ⟨2, ![M, N]⟩ .f32 0x00000000#32) (ix2 p j) = ∑ k : Fin K, l (ix2 p k) * r (ix2 k j) := by
  subst hd
  simp only [matmul]
  rw [Ideal.matmul_constant_zero_apply]
  exact plain_sum l r p j

/-- The host's product of the same operands is the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (j : Fin N) :
    Host.dotGeneral d prec l r (ix2 p j) = ∑ k : Fin K, l (ix2 p k) * r (ix2 k j) := by
  subst hd
  simp only [Host.dotGeneral]
  rw [Ideal.dotGeneral_apply]
  exact plain_sum l r p j

end Plain

/-! ## Slices, a row broadcast, a bias row -/

/-- One column cut out of `[n, k]`: at `(p, 0)` it reads column `o`. -/
theorem col_apply {n k : ℕ} (o : ℕ) (X : (⟨2, ![n, k]⟩ : Shape).Idx → α)
    (h : (⟨2, ![n, k]⟩ : Shape).Slices ![0, o] ⟨2, ![n, 1]⟩) (p : Fin n) (c : Fin k) (hc : c.val = o) :
    extractStridedSlice ⟨2, ![n, 1]⟩ ![0, o] X h (ix2 p 0) = X (ix2 p c) :=
  slice2_axis1_apply o X h p 0 c (by rw [hc]; rfl)

/-- A rank-1 array `[k]` cast to `[1, k]` and broadcast down `n` rows reads, at `(p, q)`, entry `q`. -/
theorem rowBcast_apply {n k : ℕ} (v : (⟨1, ![k]⟩ : Shape).Idx → α) (hc : (⟨1, ![k]⟩ : Shape).ShapeCasts ⟨2, ![1, k]⟩)
    (hb : (⟨2, ![1, k]⟩ : Shape).Broadcasts ⟨2, ![n, k]⟩) (p : Fin n) (q : Fin k) :
    broadcastTo ⟨2, ![n, k]⟩ (shapeCast ⟨2, ![1, k]⟩ v hc) hb (ix2 p q) = v (ix1 q) :=
  (broadcastTo_1b_ab_apply _ hb p q).trans (shapeCast_a_1a_apply v hc 0 q)

/-- One affine layer as the kernel spells it — a product into the zero accumulator plus a bias row broadcast down the
    rows — at `(p, j)`: `(∑ k, x k * W (k, j)) + b j`, where `x` is row `p` of the left operand. -/
theorem layer_apply {n K N : ℕ} {φa φw : FTy} (d : DotDims ⟨2, ![n, K]⟩ ⟨2, ![K, N]⟩ ⟨2, ![n, N]⟩) (hd : d = DotDims.plain n K N)
    (A : FVec Ideal ⟨2, ![n, K]⟩ φa) (W : FVec Ideal ⟨2, ![K, N]⟩ φw) (b : FVec Ideal ⟨1, ![N]⟩ .f32)
    (hc : (⟨1, ![N]⟩ : Shape).ShapeCasts ⟨2, ![1, N]⟩) (hb : (⟨2, ![1, N]⟩ : Shape).Broadcasts ⟨2, ![n, N]⟩)
    (p : Fin n) (j : Fin N) (x : Fin K → EReal) (hx : ∀ k, A (ix2 p k) = x k) :
    addf (matmul d none A W (constant ⟨2, ![n, N]⟩ .f32 0x00000000#32)) (broadcastTo ⟨2, ![n, N]⟩ (shapeCast ⟨2, ![1, N]⟩ b hc) hb) (ix2 p j)
      = (∑ k : Fin K, x k * W (ix2 k j)) + b (ix1 j) := by
  show matmul d none A W (constant ⟨2, ![n, N]⟩ .f32 0x00000000#32) (ix2 p j) + broadcastTo ⟨2, ![n, N]⟩ (shapeCast ⟨2, ![1, N]⟩ b hc) hb (ix2 p j) = _
  rw [matmul_plain_apply d hd, rowBcast_apply]
  exact congrArg (· + b (ix1 j)) (Finset.sum_congr rfl fun k _ => by rw [hx k])

/-- The product alone, at `(p, j)`, from row `p` of the left operand. -/
theorem prod_apply {n K N : ℕ} {φa φw : FTy} (d : DotDims ⟨2, ![n, K]⟩ ⟨2, ![K, N]⟩ ⟨2, ![n, N]⟩) (hd : d = DotDims.plain n K N)
    (A : FVec Ideal ⟨2, ![n, K]⟩ φa) (W : FVec Ideal ⟨2, ![K, N]⟩ φw) (p : Fin n) (j : Fin N) (x : Fin K → EReal)
    (hx : ∀ k, A (ix2 p k) = x k) :
    matmul d none A W (constant ⟨2, ![n, N]⟩ .f32 0x00000000#32) (ix2 p j) = ∑ k : Fin K, x k * W (ix2 k j) := by
  rw [matmul_plain_apply d hd]
  exact Finset.sum_congr rfl fun k _ => by rw [hx k]

end Cert.LibRowOps

end
-- ==== Proof.KPayload.lean ====
/-
  The kernel's arithmetic at one grid point, read at an index, at the ideal values.

  A grid point holds the eight class slices `s c` of the logits (each [1, 1, 256, 512]) and the target words
  `x1` ([1, 256, 512]). Per pixel (r, w) the kernel clips the target word to [0, 7], forms for each class `k` the
  0/1 mask "the clipped word is k", the maximum `M` of the eight logits, the sum `S` of the eight shifted
  exponentials, and the value mask * ((p k - M) - log S). Each class's mask, and each class's value, is summed over
  the 512 lanes, the eight columns of row sums are laid side by side, summed over the 256 rows, and added onto the
  accumulator. Read at class `k` this is the accumulator plus the double sum over (r, w) of the indicator of class
  `k`, respectively of the indicator times the log-softmax at class `k`.
-/
import proofs.«429264_j111669149713_3_alg».proof.Proof.KBlock
import proofs.«429264_j111669149713_3_alg».proof.Proof.Spec
import proofs.«429264_j111669149713_3_alg».proof.Proof.LibRowOps
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KPayload

open Cert.KernelIdeal Cert.KernelIdeal.Gen Idealize.ShloMosaic Idealize.ShloMosaic.ValueIdx
open scoped BigOperators

/-! ## The two zero splats -/

/-- The float zero word is the extended real zero, at every index of the splat. -/
theorem pay3_apply (i : S1x1x8.Idx) : (k0_pay3 (F := Ideal)) i = 0 := by
  unfold k0_pay3
  exact Ideal.ofBits_zero_f32

/-- The second zero splat likewise. -/
theorem pay4_apply (i : S1x1x8.Idx) : (k0_pay4 (F := Ideal)) i = 0 := by
  unfold k0_pay4
  exact Ideal.ofBits_zero_f32

/-! ## The clipped target words and the class masks -/

/-- The clipped words at pixel (r, w): the clip of the target word at (0, r, w). -/
theorem tw_apply (x1 : Vec Ideal S1x256x512 .i32) (r : Fin 256) (w : Fin 512) :
    KBlock.tw (F := Ideal) x1 (ix2 r w) = Cert.WCE.clipW (x1 (ix3 0 r w)) := by
  unfold KBlock.tw k0_pay5
  refine (shapeCast_1ab_ab_apply _ _ r w).trans ?_
  rfl

/-- A word comparison widened and converted: 1 where the words agree, 0 elsewhere. -/
theorem maskW (t c : BitVec 32) :
    (FloatOps.sitofp (F := Ideal) .f32 ((IntOp.cmpi .eq t c).setWidth 32) : EReal) = if t = c then 1 else 0 := by
  show (((((IntOp.cmpi .eq t c).setWidth 32).toInt : ℝ)) : EReal) = _
  unfold IntOp.cmpi
  by_cases h : t = c
  · subst h
    simp
  · have hb : (t == c) = false := beq_eq_false_iff_ne.2 h
    simp [hb, h]

/-- The class of a word is `k` exactly when its clip is the word `k`. -/
theorem cls_eq_iff (t : BitVec 32) (k : Fin 8) : Cert.WCE.cls t = k ↔ Cert.WCE.clipW t = BitVec.ofNat 32 k.val := by
  constructor
  · intro h
    have hv : (Cert.WCE.clipW t).toNat = k.val := congrArg Fin.val h
    rw [← hv, BitVec.ofNat_toNat, BitVec.setWidth_eq]
  · intro h
    refine Fin.ext ?_
    show (Cert.WCE.clipW t).toNat = k.val
    rw [h, BitVec.toNat_ofNat]
    have := k.isLt
    omega

/-- The mask of class `k` at a clipped word is the indicator of class `k`. -/
theorem mask_ind (t : BitVec 32) (k : Fin 8) (c : BitVec 32) (hc : c = BitVec.ofNat 32 k.val) :
    (FloatOps.sitofp (F := Ideal) .f32 ((IntOp.cmpi .eq (Cert.WCE.clipW t) c).setWidth 32) : EReal) = Cert.WCE.ind t k := by
  rw [maskW, hc]
  unfold Cert.WCE.ind
  by_cases h : Cert.WCE.cls t = k
  · rw [if_pos h, if_pos ((cls_eq_iff t k).1 h)]
  · rw [if_neg h, if_neg (fun h' => h ((cls_eq_iff t k).2 h'))]

/-- The mask of class `k` (the clipped words compared with the word `c` = `k`) at pixel (r, w). -/
theorem maskc_apply (x1 : Vec Ideal S1x256x512 .i32) (c : BitVec 32) (k : Fin 8) (hc : c = BitVec.ofNat 32 k.val)
    (h : 1 < 32) (r : Fin 256) (w : Fin 512) :
    (sitofp .f32 (extui 32 (cmpi .eq (KBlock.tw (F := Ideal) x1) (broadcast S256x512 c)) h) : FVec Ideal S256x512 .f32) (ix2 r w)
      = Cert.WCE.ind (x1 (ix3 0 r w)) k := by
  show FloatOps.sitofp (F := Ideal) .f32 ((IntOp.cmpi .eq (KBlock.tw (F := Ideal) x1 (ix2 r w)) c).setWidth 32) = _
  rw [tw_apply]
  exact mask_ind _ k c hc

/-! ## Lane sums, the column cast, and the eight columns summed over the rows -/

/-- A [256, 512] array summed over its lanes and cast to a column: at (r, 0), the sum of row `r`. -/
theorem rowSum_apply (v : FVec Ideal S256x512 .f32) (h : S256x512.Reduces [1] S256) (hφ : FKind.Formats .f32)
    (hacc : (0x00000000#32 : BitVec 32) = FKind.add.neutral .f32 hφ) (hc : S256.ShapeCasts S256x1) (r : Fin 256) :
    shapeCast S256x1 (multiReduction .add [1] S256 v 0x00000000#32 h hφ hacc) hc (ix2 r 0)
      = ∑ w : Fin 512, v (ix2 r w) := by
  refine (shapeCast_apply _ hc (ix2 r 0) (ix1 r) ?_).trans ?_
  · rw [Shape.rowMajor_val_one, Shape.rowMajor_val_two]
    show r.val = r.val * 1 + 0
    omega
  · refine (Ideal.multiReduction_add_single v _ h hφ hacc (ix1 r)).trans ?_
    refine Finset.sum_congr rfl fun w _ => congrArg v ?_
    funext a
    match a with
    | ⟨0, _⟩ => rfl
    | ⟨1, _⟩ => rfl

/-- A class's pixel-count column: at (r, 0), the number of pixels of the class in row `r`. -/
theorem cntCol_apply (mask : FVec Ideal S256x512 .f32) (x1 : Vec Ideal S1x256x512 .i32) (k : Fin 8) (r : Fin 256)
    (hm : ∀ w : Fin 512, mask (ix2 r w) = Cert.WCE.ind (x1 (ix3 0 r w)) k)
    (h : S256x512.Reduces [1] S256) (hφ : FKind.Formats .f32)
    (hacc : (0x00000000#32 : BitVec 32) = FKind.add.neutral .f32 hφ) (hc : S256.ShapeCasts S256x1) :
    shapeCast S256x1 (multiReduction .add [1] S256 mask 0x00000000#32 h hφ hacc) hc (ix2 r 0)
      = ∑ w : Fin 512, Cert.WCE.ind (x1 (ix3 0 r w)) k :=
  (rowSum_apply mask h hφ hacc hc r).trans (Finset.sum_congr rfl fun w _ => hm w)

/-- Eight columns laid side by side, summed over the 256 rows, cast to [1, 1, 8] and added onto the accumulator: at
    class `k`, the accumulator plus the sum over the rows of column `k`. -/
theorem accum_apply (c0 c1 c2 c3 c4 c5 c6 c7 : FVec Ideal S256x1 .f32) (acc : Vec Ideal S1x1x8 .f32)
    (hcat : Shape.Concatenates [S256x1, S256x1, S256x1, S256x1, S256x1, S256x1, S256x1, S256x1] S256x8 1)
    (hr : S256x8.Reduces [0] S8) (hφ : FKind.Formats .f32)
    (hacc : (0x00000000#32 : BitVec 32) = FKind.add.neutral .f32 hφ)
    (h1 : S8.ShapeCasts S1x8) (h2 : S1x8.ShapeCasts S1x1x8) (h3 : S1x1x8.ShapeCasts S1x1x8)
    (f : Fin 8 → Fin 256 → EReal)
    (e0 : ∀ r : Fin 256, c0 (ix2 r 0) = f 0 r)
    (e1 : ∀ r : Fin 256, c1 (ix2 r 0) = f 1 r)
    (e2 : ∀ r : Fin 256, c2 (ix2 r 0) = f 2 r)
    (e3 : ∀ r : Fin 256, c3 (ix2 r 0) = f 3 r)
    (e4 : ∀ r : Fin 256, c4 (ix2 r 0) = f 4 r)
    (e5 : ∀ r : Fin 256, c5 (ix2 r 0) = f 5 r)
    (e6 : ∀ r : Fin 256, c6 (ix2 r 0) = f 6 r)
    (e7 : ∀ r : Fin 256, c7 (ix2 r 0) = f 7 r) (k : Fin 8) :
    shapeCast S1x1x8 (addf acc (shapeCast S1x1x8 (shapeCast S1x8 (multiReduction .add [0] S8
      (concatenate S256x8 1 [⟨S256x1, c0⟩, ⟨S256x1, c1⟩, ⟨S256x1, c2⟩, ⟨S256x1, c3⟩, ⟨S256x1, c4⟩, ⟨S256x1, c5⟩, ⟨S256x1, c6⟩, ⟨S256x1, c7⟩] hcat)
      0x00000000#32 hr hφ hacc) h1) h2)) h3 (ix3 0 0 k)
      = acc (ix3 0 0 k) + ∑ r : Fin 256, f k r := by
  rw [shapeCast_self]
  show acc (ix3 0 0 k) + shapeCast S1x1x8 (shapeCast S1x8 _ h1) h2 (ix3 0 0 k) = _
  congr 1
  refine (shapeCast_ab_1ab_apply _ h2 0 0 k).trans ?_
  refine (shapeCast_a_1a_apply _ h1 0 k).trans ?_
  refine (Ideal.multiReduction_add_single _ _ hr hφ hacc (ix1 k)).trans ?_
  refine Finset.sum_congr rfl fun r _ => ?_
  have hl : hr.lift (ix1 k) r = ix2 r k := by
    funext a
    match a with
    | ⟨0, _⟩ => rfl
    | ⟨1, _⟩ => rfl
  rw [hl]
  match k with
  | ⟨0, _⟩ => exact (Cert.LibRowOps.catUnits_apply r ⟨0, by omega⟩ (by simp) c0 rfl rfl).trans (e0 r)
  | ⟨1, _⟩ => exact (Cert.LibRowOps.catUnits_apply r ⟨1, by omega⟩ (by simp) c1 rfl rfl).trans (e1 r)
  | ⟨2, _⟩ => exact (Cert.LibRowOps.catUnits_apply r ⟨2, by omega⟩ (by simp) c2 rfl rfl).trans (e2 r)
  | ⟨3, _⟩ => exact (Cert.LibRowOps.catUnits_apply r ⟨3, by omega⟩ (by simp) c3 rfl rfl).trans (e3 r)
  | ⟨4, _⟩ => exact (Cert.LibRowOps.catUnits_apply r ⟨4, by omega⟩ (by simp) c4 rfl rfl).trans (e4 r)
  | ⟨5, _⟩ => exact (Cert.LibRowOps.catUnits_apply r ⟨5, by omega⟩ (by simp) c5 rfl rfl).trans (e5 r)
  | ⟨6, _⟩ => exact (Cert.LibRowOps.catUnits_apply r ⟨6, by omega⟩ (by simp) c6 rfl rfl).trans (e6 r)
  | ⟨7, _⟩ => exact (Cert.LibRowOps.catUnits_apply r ⟨7, by omega⟩ (by simp) c7 rfl rfl).trans (e7 r)

/-! ## The pixel counter -/

/-- What the point stores into the pixel counter, at class `k`: what the counter held plus the number of the block's
    pixels of class `k`. -/
theorem cntBlock_apply (x1 : Vec Ideal S1x256x512 .i32) (acc : Vec Ideal S1x1x8 .f32) (k : Fin 8) :
    KBlock.cntBlock (F := Ideal) x1 acc (ix3 0 0 k)
      = acc (ix3 0 0 k) + ∑ r : Fin 256, ∑ w : Fin 512, Cert.WCE.ind (x1 (ix3 0 r w)) k := by
  unfold KBlock.cntBlock k0_pay1
  exact accum_apply _ _ _ _ _ _ _ _ acc _ _ _ _ _ _ _ (fun k r => ∑ w : Fin 512, Cert.WCE.ind (x1 (ix3 0 r w)) k)
    (fun r => cntCol_apply _ x1 0 r (fun w => maskc_apply x1 0#32 0 rfl _ r w) _ _ _ _)
    (fun r => cntCol_apply _ x1 1 r (fun w => maskc_apply x1 1#32 1 rfl _ r w) _ _ _ _)
    (fun r => cntCol_apply _ x1 2 r (fun w => maskc_apply x1 2#32 2 rfl _ r w) _ _ _ _)
    (fun r => cntCol_apply _ x1 3 r (fun w => maskc_apply x1 3#32 3 rfl _ r w) _ _ _ _)
    (fun r => cntCol_apply _ x1 4 r (fun w => maskc_apply x1 4#32 4 rfl _ r w) _ _ _ _)
    (fun r => cntCol_apply _ x1 5 r (fun w => maskc_apply x1 5#32 5 rfl _ r w) _ _ _ _)
    (fun r => cntCol_apply _ x1 6 r (fun w => maskc_apply x1 6#32 6 rfl _ r w) _ _ _ _)
    (fun r => cntCol_apply _ x1 7 r (fun w => maskc_apply x1 7#32 7 rfl _ r w) _ _ _ _) k

/-! ## The logits: a class slice, the maximum, the sum of exponentials -/

/-- A class slice cast to [256, 512]: at (r, w), the slice at (0, 0, r, w). -/
theorem slice_apply {α : Type} (v : S1x1x256x512.Idx → α) (h : S1x1x256x512.ShapeCasts S256x512) (r : Fin 256) (w : Fin 512) :
    shapeCast S256x512 v h (ix2 r w) = v (ix4 0 0 r w) :=
  shapeCast_apply v h _ _ (by
    rw [Shape.rowMajor_val_four, Shape.rowMajor_val_two]
    show ((0 * 1 + 0) * 256 + r.val) * 512 + w.val = r.val * 512 + w.val
    omega)

/-- The fold of `max` from the bottom element over the eight classes is the nested maximum in the order 0, …, 7. -/
theorem mxOf_eq (p : Fin 8 → EReal) :
    Cert.WCE.mxOf p = max (max (max (max (max (max (max (p 0) (p 1)) (p 2)) (p 3)) (p 4)) (p 5)) (p 6)) (p 7) := by
  unfold Cert.WCE.mxOf
  refine le_antisymm ?_ ?_
  · refine (Finset.fold_max_le _).2 ⟨bot_le, fun c _ => ?_⟩
    match c with
    | ⟨0, _⟩ =>
      show p 0 ≤ _
      simp only [le_max_iff, le_refl, true_or, or_true]
    | ⟨1, _⟩ =>
      show p 1 ≤ _
      simp only [le_max_iff, le_refl, true_or, or_true]
    | ⟨2, _⟩ =>
      show p 2 ≤ _
      simp only [le_max_iff, le_refl, true_or, or_true]
    | ⟨3, _⟩ =>
      show p 3 ≤ _
      simp only [le_max_iff, le_refl, true_or, or_true]
    | ⟨4, _⟩ =>
      show p 4 ≤ _
      simp only [le_max_iff, le_refl, true_or, or_true]
    | ⟨5, _⟩ =>
      show p 5 ≤ _
      simp only [le_max_iff, le_refl, true_or, or_true]
    | ⟨6, _⟩ =>
      show p 6 ≤ _
      simp only [le_max_iff, le_refl, true_or, or_true]
    | ⟨7, _⟩ =>
      show p 7 ≤ _
      simp only [le_max_iff, le_refl, true_or, or_true]
  · have hle : ∀ c : Fin 8, p c ≤ (Finset.univ : Finset (Fin 8)).fold max ⊥ p :=
      fun c => (Finset.le_fold_max _).2 (Or.inr ⟨c, Finset.mem_univ c, le_rfl⟩)
    exact max_le (max_le (max_le (max_le (max_le (max_le (max_le (hle 0) (hle 1)) (hle 2)) (hle 3)) (hle 4)) (hle 5)) (hle 6)) (hle 7)

/-- The sum of the shifted exponentials, spelt in the order 0, …, 7 from a leading zero. -/
theorem seOf_eq (p : Fin 8 → EReal) :
    Cert.WCE.seOf p = 0 + Ideal.exp (p 0 - Cert.WCE.mxOf p) + Ideal.exp (p 1 - Cert.WCE.mxOf p) + Ideal.exp (p 2 - Cert.WCE.mxOf p) + Ideal.exp (p 3 - Cert.WCE.mxOf p) + Ideal.exp (p 4 - Cert.WCE.mxOf p) + Ideal.exp (p 5 - Cert.WCE.mxOf p) + Ideal.exp (p 6 - Cert.WCE.mxOf p) + Ideal.exp (p 7 - Cert.WCE.mxOf p) := by
  unfold Cert.WCE.seOf
  rw [Fin.sum_univ_eight, zero_add]

/-- The exponential and the logarithm of an array, at an index. -/
theorem exp_apply {s : Shape} {φ : FTy} (a : FVec Ideal s φ) (i : s.Idx) : exp a i = Ideal.exp (a i) := rfl
theorem log_apply {s : Shape} {φ : FTy} (a : FVec Ideal s φ) (i : s.Idx) : log a i = Ideal.log (a i) := rfl

/-- The running maximum over the eight slices at pixel (r, w): the largest of the pixel's eight logits. -/
theorem mx8_apply (s : Fin 8 → Vec Ideal S1x1x256x512 .f32) (r : Fin 256) (w : Fin 512) :
    KBlock.mx8 (F := Ideal) s (ix2 r w) = Cert.WCE.mxOf (fun c => s c (ix4 0 0 r w)) := by
  rw [mxOf_eq]
  unfold KBlock.mx8 KBlock.mx6 k0_pay7 k0_pay6
  simp only [maximumf_apply, slice_apply]

/-- The logarithm of the sum of the eight shifted exponentials at pixel (r, w). -/
theorem lse_apply (s : Fin 8 → Vec Ideal S1x1x256x512 .f32) (r : Fin 256) (w : Fin 512) :
    KBlock.lse (F := Ideal) s (ix2 r w) = Ideal.log (Cert.WCE.seOf (fun c => s c (ix4 0 0 r w))) := by
  have hM := mx8_apply s r w
  have hM' : k0_pay7 (KBlock.mx6 (F := Ideal) s) (s 6) (s 7) (ix2 r w) = Cert.WCE.mxOf (fun c => s c (ix4 0 0 r w)) := hM
  have hz : (Scalar.ofBits (F := Ideal) .f32 0x00000000#32 : EReal) = 0 := Ideal.ofBits_zero_f32
  rw [seOf_eq]
  unfold KBlock.lse KBlock.se4 KBlock.ex4 k0_pay10 k0_pay8 k0_pay9
  simp only [log_apply, exp_apply, addf_apply, subf_apply, broadcast_apply, slice_apply, hM, hM', hz]

/-! ## The log-probability accumulator -/

/-- A class's value column: at (r, 0), the sum over row `r` of the class indicator times the log-softmax at the class.
    `mask`, `pk`, `M` and `L` are the class mask, the class's logits, the maximum and the logarithm of the sum. -/
theorem lgCol_apply (mask pk M L : FVec Ideal S256x512 .f32) (x1 : Vec Ideal S1x256x512 .i32)
    (s : Fin 8 → Vec Ideal S1x1x256x512 .f32) (k : Fin 8) (r : Fin 256)
    (hm : ∀ w : Fin 512, mask (ix2 r w) = Cert.WCE.ind (x1 (ix3 0 r w)) k)
    (hp : ∀ w : Fin 512, pk (ix2 r w) = s k (ix4 0 0 r w))
    (hM : ∀ w : Fin 512, M (ix2 r w) = Cert.WCE.mxOf (fun c => s c (ix4 0 0 r w)))
    (hL : ∀ w : Fin 512, L (ix2 r w) = Ideal.log (Cert.WCE.seOf (fun c => s c (ix4 0 0 r w))))
    (h : S256x512.Reduces [1] S256) (hφ : FKind.Formats .f32)
    (hacc : (0x00000000#32 : BitVec 32) = FKind.add.neutral .f32 hφ) (hc : S256.ShapeCasts S256x1) :
    shapeCast S256x1 (multiReduction .add [1] S256 (mulf mask (subf (subf pk M) L)) 0x00000000#32 h hφ hacc) hc (ix2 r 0)
      = ∑ w : Fin 512, Cert.WCE.ind (x1 (ix3 0 r w)) k * Cert.WCE.lsmOf (fun c => s c (ix4 0 0 r w)) k := by
  refine (rowSum_apply _ h hφ hacc hc r).trans (Finset.sum_congr rfl fun w _ => ?_)
  show mask (ix2 r w) * ((pk (ix2 r w) - M (ix2 r w)) - L (ix2 r w)) = _
  rw [hm, hp, hM, hL]
  rfl

/-- What the point stores into the log-probability accumulator, at class `k`: what it held plus the sum over the
    block's pixels of the indicator of class `k` times the pixel's log-softmax at class `k`. -/
theorem lgBlock_apply (s : Fin 8 → Vec Ideal S1x1x256x512 .f32) (x1 : Vec Ideal S1x256x512 .i32)
    (acc : Vec Ideal S1x1x8 .f32) (k : Fin 8) :
    KBlock.lgBlock (F := Ideal) s x1 acc (ix3 0 0 k)
      = acc (ix3 0 0 k) + ∑ r : Fin 256, ∑ w : Fin 512,
          Cert.WCE.ind (x1 (ix3 0 r w)) k * Cert.WCE.lsmOf (fun c => s c (ix4 0 0 r w)) k := by
  unfold KBlock.lgBlock k0_pay2
  exact accum_apply _ _ _ _ _ _ _ _ acc _ _ _ _ _ _ _
    (fun k r => ∑ w : Fin 512, Cert.WCE.ind (x1 (ix3 0 r w)) k * Cert.WCE.lsmOf (fun c => s c (ix4 0 0 r w)) k)
    (fun r => lgCol_apply _ _ _ _ x1 s 0 r (fun w => maskc_apply x1 0#32 0 rfl _ r w) (fun w => slice_apply (s 0) _ r w)
      (fun w => mx8_apply s r w) (fun w => lse_apply s r w) _ _ _ _)
    (fun r => lgCol_apply _ _ _ _ x1 s 1 r (fun w => maskc_apply x1 1#32 1 rfl _ r w) (fun w => slice_apply (s 1) _ r w)
      (fun w => mx8_apply s r w) (fun w => lse_apply s r w) _ _ _ _)
    (fun r => lgCol_apply _ _ _ _ x1 s 2 r (fun w => maskc_apply x1 2#32 2 rfl _ r w) (fun w => slice_apply (s 2) _ r w)
      (fun w => mx8_apply s r w) (fun w => lse_apply s r w) _ _ _ _)
    (fun r => lgCol_apply _ _ _ _ x1 s 3 r (fun w => maskc_apply x1 3#32 3 rfl _ r w) (fun w => slice_apply (s 3) _ r w)
      (fun w => mx8_apply s r w) (fun w => lse_apply s r w) _ _ _ _)
    (fun r => lgCol_apply _ _ _ _ x1 s 4 r (fun w => maskc_apply x1 4#32 4 rfl _ r w) (fun w => slice_apply (s 4) _ r w)
      (fun w => mx8_apply s r w) (fun w => lse_apply s r w) _ _ _ _)
    (fun r => lgCol_apply _ _ _ _ x1 s 5 r (fun w => maskc_apply x1 5#32 5 rfl _ r w) (fun w => slice_apply (s 5) _ r w)
      (fun w => mx8_apply s r w) (fun w => lse_apply s r w) _ _ _ _)
    (fun r => lgCol_apply _ _ _ _ x1 s 6 r (fun w => maskc_apply x1 6#32 6 rfl _ r w) (fun w => slice_apply (s 6) _ r w)
      (fun w => mx8_apply s r w) (fun w => lse_apply s r w) _ _ _ _)
    (fun r => lgCol_apply _ _ _ _ x1 s 7 r (fun w => maskc_apply x1 7#32 7 rfl _ r w) (fun w => slice_apply (s 7) _ r w)
      (fun w => mx8_apply s r w) (fun w => lse_apply s r w) _ _ _ _) k

end Cert.KernelIdeal.KPayload

end
-- ==== Proof.KCombine.lean ====
/-
  The two half-images of one batch row, joined into the per-row sums of the specification.

  A batch row n is visited at two grid points, half-image 0 (image rows 0 … 255) and half-image 1 (image rows
  256 … 511). Each visit adds, for every class k, its half-image's number of pixels of class k onto the pixel
  counter, and the sum of their log-softmax values onto the log-probability accumulator. Starting from the zero
  accumulators the two visits leave (0 + first half) + second half, which is how the specification writes
  cntK and lgK. The final quotient, mean and negation of the per-row sums is then resK term for term.
-/
import proofs.«429264_j111669149713_3_alg».proof.Proof.KBlock
import proofs.«429264_j111669149713_3_alg».proof.Proof.Spec
import Idealize.ShloMosaic.Lib.ValueIdx

noncomputable section

namespace Cert.KernelIdeal.KCombine

open Cert.KernelIdeal Cert.KernelIdeal.Gen Idealize.ShloMosaic Idealize.ShloMosaic.ValueIdx

/-- The pixel counter of row n at class k after both half-images, from the zero accumulator: cntK. -/
theorem cnt_two (T : Cert.WCE.ST.Idx → BitVec 32) (n : Fin 16) (k : Fin 8)
    (hc : ∀ (x1 : Vec Ideal S1x256x512 .i32) (acc : Vec Ideal S1x1x8 .f32) (k : Fin 8),
      KBlock.cntBlock (F := Ideal) x1 acc (ix3 0 0 k)
        = acc (ix3 0 0 k) + ∑ r : Fin 256, ∑ w : Fin 512, Cert.WCE.ind (x1 (ix3 0 r w)) k)
    (h3 : ∀ i : S1x1x8.Idx, (k0_pay3 (F := Ideal)) i = 0)
    (tb0 tb1 : Vec Ideal S1x256x512 .i32)
    (e0 : ∀ r w, tb0 (ix3 0 r w) = T (ix3 n (Cert.WCE.row 0 r) w))
    (e1 : ∀ r w, tb1 (ix3 0 r w) = T (ix3 n (Cert.WCE.row 1 r) w)) :
    KBlock.cntBlock (F := Ideal) tb1 (KBlock.cntBlock (F := Ideal) tb0 (k0_pay3 (F := Ideal))) (ix3 0 0 k)
      = Cert.WCE.cntK T n k := by
  rw [hc, hc, h3]
  unfold Cert.WCE.cntK Cert.WCE.blkC
  simp only [e0, e1]

/-- The log-probability accumulator of row n at class k after both half-images, from the zero accumulator: lgK. -/
theorem lg_two (P : Cert.WCE.SP.Idx → EReal) (T : Cert.WCE.ST.Idx → BitVec 32) (n : Fin 16) (k : Fin 8)
    (hl : ∀ (s : Fin 8 → Vec Ideal S1x1x256x512 .f32) (x1 : Vec Ideal S1x256x512 .i32) (acc : Vec Ideal S1x1x8 .f32) (k : Fin 8),
      KBlock.lgBlock (F := Ideal) s x1 acc (ix3 0 0 k)
        = acc (ix3 0 0 k) + ∑ r : Fin 256, ∑ w : Fin 512,
            Cert.WCE.ind (x1 (ix3 0 r w)) k * Cert.WCE.lsmOf (fun c => s c (ix4 0 0 r w)) k)
    (h4 : ∀ i : S1x1x8.Idx, (k0_pay4 (F := Ideal)) i = 0)
    (s0 s1 : Fin 8 → Vec Ideal S1x1x256x512 .f32) (tb0 tb1 : Vec Ideal S1x256x512 .i32)
    (p0 : ∀ c r w, s0 c (ix4 0 0 r w) = P (ix4 n c (Cert.WCE.row 0 r) w))
    (p1 : ∀ c r w, s1 c (ix4 0 0 r w) = P (ix4 n c (Cert.WCE.row 1 r) w))
    (e0 : ∀ r w, tb0 (ix3 0 r w) = T (ix3 n (Cert.WCE.row 0 r) w))
    (e1 : ∀ r w, tb1 (ix3 0 r w) = T (ix3 n (Cert.WCE.row 1 r) w)) :
    KBlock.lgBlock (F := Ideal) s1 tb1 (KBlock.lgBlock (F := Ideal) s0 tb0 (k0_pay4 (F := Ideal))) (ix3 0 0 k)
      = Cert.WCE.lgK P T n k := by
  rw [hl, hl, h4]
  unfold Cert.WCE.lgK Cert.WCE.blkL Cert.WCE.lsm
  simp only [e0, e1, p0, p1]

/-- The quotient of the weighted per-row sums, averaged over the 16 rows and negated, is resK. -/
theorem res_of (P : Cert.WCE.SP.Idx → EReal) (T : Cert.WCE.ST.Idx → BitVec 32) (A2 A3 : FVec Ideal S16x1x8 .f32)
    (h2 : ∀ n k, A2 (ix3 n 0 k) = Cert.WCE.cntK T n k)
    (h3' : ∀ n k, A3 (ix3 n 0 k) = Cert.WCE.lgK P T n k) :
    -(Ideal.div (0 + ∑ n : Fin 16, Ideal.div
          (0 + ∑ k : Fin 8, A3 (ix3 n 0 k) * Cert.WCE.invc (0 + ∑ n' : Fin 16, A2 (ix3 n' 0 k)))
          (0 + ∑ k : Fin 8, A2 (ix3 n 0 k) * Cert.WCE.invc (0 + ∑ n' : Fin 16, A2 (ix3 n' 0 k)))) Cert.WCE.sixteen)
      = Cert.WCE.resK P T := by
  simp only [h2, h3']
  unfold Cert.WCE.resK Cert.WCE.numK Cert.WCE.denK Cert.WCE.wtK Cert.WCE.totK
  rfl

end Cert.KernelIdeal.KCombine

end
-- ==== Proof.KValue.lean ====
/-
  The kernel program's result is the per-class arrangement `resK` of its two argument arrays.

  Row `n` of the first output array holds, per class, the pixel count of batch row `n`: grid point (n, 1)
  stored there its update of what point (n, 0) left, and point (n, 0) updated zero; the two points' target
  blocks are the two half-images of the row, so the entry is `cntK`. The second output array holds `lgK` in
  the same way, the logits blocks' class slices being the two half-images of the logits. The host code
  after the kernel, read at its one index, turns these two arrays into `resK`.
-/
import proofs.«429264_j111669149713_3_alg».proof.Proof.KTail
import proofs.«429264_j111669149713_3_alg».proof.Proof.KFinal
import proofs.«429264_j111669149713_3_alg».proof.Proof.KPayload
import proofs.«429264_j111669149713_3_alg».proof.Proof.KCombine

noncomputable section

namespace Cert.KernelIdeal.KValue

open Cert.KernelIdeal Cert.KernelIdeal.Gen Cert.KernelIdeal.KPieces Cert.KernelIdeal.KFinal
open Idealize.ShloMosaic Idealize.ShloMosaic.ValueIdx Idealize.SL.Sem

variable (m : (ℓ : Loc nD τ sig) → Buf (Elt Ideal) ℓ)

/-- Point (n, 1) comes right after point (n, 0). -/
theorem pt_pred (n : Fin 16) : (pt n 1).val - 1 = (pt n 0).val := by
  rw [pt_val, pt_val]; show 2 * n.val + 1 - 1 = 2 * n.val + 0; omega

/-- The counts array at (n, 0, k) is the number of pixels of class `k` in batch row `n`. -/
theorem arr2_apply (c : Dev nD) (n : Fin 16) (k : Fin 8) :
    (dats m 0 c).arrAt 2 cfg0.N (ix3 n 0 k) = Cert.WCE.cntK (V m c main_arg1) n k := by
  rw [final2 m c n k, (outs_odd m c (pt n 1) (by rw [pt_val]; show (2 * n.val + 1) % 2 = 1; omega)).1,
    outsAt0_congr m c (pt_pred n) _ (pt n 0).isLt, (outs_even m c (pt n 0) (by rw [pt_val]; show (2 * n.val + 0) % 2 = 0; omega)).1]
  exact KCombine.cnt_two (V m c main_arg1) n k KPayload.cntBlock_apply KPayload.pay3_apply _ _
    (fun r w => tblk_apply m c n 0 r w) (fun r w => tblk_apply m c n 1 r w)

/-- The second array at (n, 0, k) is the sum of the class-`k` log-probabilities over the pixels of class `k` in row `n`. -/
theorem arr3_apply (c : Dev nD) (n : Fin 16) (k : Fin 8) :
    (dats m 0 c).arrAt 3 cfg0.N (ix3 n 0 k) = Cert.WCE.lgK (V m c main_arg0) (V m c main_arg1) n k := by
  rw [final3 m c n k, (outs_odd m c (pt n 1) (by rw [pt_val]; show (2 * n.val + 1) % 2 = 1; omega)).2,
    outsAt0_congr m c (pt_pred n) _ (pt n 0).isLt, (outs_even m c (pt n 0) (by rw [pt_val]; show (2 * n.val + 0) % 2 = 0; omega)).2]
  exact KCombine.lg_two (V m c main_arg0) (V m c main_arg1) n k KPayload.lgBlock_apply KPayload.pay4_apply _ _ _ _
    (fun cl r w => (slices_apply _ cl r w).trans (pblk_apply m c n 0 cl r w))
    (fun cl r w => (slices_apply _ cl r w).trans (pblk_apply m c n 1 cl r w))
    (fun r w => tblk_apply m c n 0 r w) (fun r w => tblk_apply m c n 1 r w)

/-- The host code after the kernel, applied to the two arrays, is the constant `resK`. -/
theorem value_eq (c : Dev nD) :
    KTail.tailFn (F := Ideal) ((dats m 0 c).arrAt 2 cfg0.N) ((dats m 0 c).arrAt 3 cfg0.N)
      = fun _ => Cert.WCE.resK (m ((c.tc : Thread nD τ).loc main_arg0)) (m ((c.tc : Thread nD τ).loc main_arg1)) := by
  funext i
  rw [eq_ix0 i, KTail.tailFn_apply]
  exact KCombine.res_of (V m c main_arg0) (V m c main_arg1) _ _ (arr2_apply m c) (arr3_apply m c)

/-- Every weakly fair execution of the kernel program ends with its result at `resK` of the arguments, which it
    leaves unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v20)
          = (fun _ => Cert.WCE.resK (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (value_eq m c), (h c).2⟩) (KTail.run_tail m ρ)

end Cert.KernelIdeal.KValue

end
-- ==== Proof.RefRun.lean ====
/- The reference program's run, stage by stage. The 89 host operations are cut into stretches; for each stretch, from a
   valuation in which every buffer still read later holds its stage (a function of the two arguments x0, x1), the
   valuation after the stretch holds, in every buffer read after it, that buffer's stage: a buffer the stretch writes by
   the operation's result at its operands' stages, one level of the stage's definition; a buffer it does not write by
   what was there. The stretches' concatenation is the whole list, so the result holds the last stage and the two
   arguments keep their contents. -/
import proofs.«429264_j111669149713_3_alg».proof.Proof.RefOps
import proofs.«429264_j111669149713_3_alg».proof.Proof.RefRead

noncomputable section

namespace Cert.ReferenceIdeal.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- The fold over two lists one after the other is the fold over the second from the fold over the first. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- Operations 0 to 7: they write main_c, main_c_0, main_call0_v0, main_call0_v1, main_call0_v2, main_call0_v3, main_call0_v4, main_v0. -/
def stretch1 : List (HloOp τ sig (Elt F)) :=
  [ nullary main_c (constantI S_ 32 0#32),
    nullary main_c_0 (constantI S_ 32 7#32),
    TRef.unary (TRef.of (T := ⟨S_, .i32⟩) main_c) (TRef.of (T := ⟨S_, .i32⟩) main_call0_v0) id,
    TRef.unary (TRef.of (T := ⟨S_, .i32⟩) main_call0_v0) (TRef.of (T := ⟨S16x512x512, .i32⟩) main_call0_v1) (broadcastInDim S16x512x512 ![] bcast_S_S16x512x512),
    TRef.binary (TRef.of (T := ⟨S16x512x512, .i32⟩) main_call0_v1) (TRef.of (T := ⟨S16x512x512, .i32⟩) main_arg1) (TRef.of (T := ⟨S16x512x512, .i32⟩) main_call0_v2) maxsi,
    TRef.unary (TRef.of (T := ⟨S_, .i32⟩) main_c_0) (TRef.of (T := ⟨S_, .i32⟩) main_call0_v3) id,
    TRef.unary (TRef.of (T := ⟨S_, .i32⟩) main_call0_v3) (TRef.of (T := ⟨S16x512x512, .i32⟩) main_call0_v4) (broadcastInDim S16x512x512 ![] bcast_S_S16x512x512),
    TRef.binary (TRef.of (T := ⟨S16x512x512, .i32⟩) main_call0_v4) (TRef.of (T := ⟨S16x512x512, .i32⟩) main_call0_v2) (TRef.of (T := ⟨S16x512x512, .i32⟩) main_v0) minsi ]

/-- After operations 0 to 7: main_arg0, main_arg1, main_v0 hold their stages, given that main_arg0, main_arg1 did before. -/
theorem stretch1_run (V : Valuation τ sig (Elt F)) (x0 : (⟨S16x8x512x512, .f32⟩ : BufTy).Contents (Elt F)) (x1 : (⟨S16x512x512, .i32⟩ : BufTy).Contents (Elt F))
    (h_arg0 : V (Proc.devRef .tc main_arg0) = x0)
    (h_arg1 : V (Proc.devRef .tc main_arg1) = x1)
    :
      after (stretch1 (F := F)) V (Proc.devRef .tc main_arg0) = x0
    ∧ after (stretch1 (F := F)) V (Proc.devRef .tc main_arg1) = x1
    ∧ after (stretch1 (F := F)) V (Proc.devRef .tc main_v0) = val_main_v0 (F := F) x1
    := by
  unfold stretch1
  refine ⟨?_, ?_, ?_⟩
  -- main_arg0: not written in this stretch
  · after_results_simp; exact h_arg0
  -- main_arg1: not written in this stretch
  · after_results_simp; exact h_arg1
  -- main_v0: written in this stretch
  · after_results_simp; (try simp only [h_arg0, h_arg1, TRef.ofBuf, TRef.toBuf, cast_eq]); rfl

/-- Operations 8 to 13: they write main_cst, main_v1, main_v2, main_c_1, main_v3, main_v4. -/
def stretch2 : List (HloOp τ sig (Elt F)) :=
  [ nullary main_cst (constant S_ .f32 0x00000000#32),
    unary main_cst main_v1 (broadcastInDim S8 ![] bcast_S_S8 : (⟨S_, .f32⟩ : BufTy).Contents (Elt F) → (⟨S8, .f32⟩ : BufTy).Contents (Elt F)),
    reshape main_v0 main_v2 rfl shapeCasts_S16x512x512_S4194304,
    nullary main_c_1 (constantI S_ 32 0#32),
    unary main_c_1 main_v3 (broadcastInDim S4194304 ![] bcast_S_S4194304 : (⟨S_, .i32⟩ : BufTy).Contents (Elt F) → (⟨S4194304, .i32⟩ : BufTy).Contents (Elt F)),
    binary main_v2 main_v3 main_v4 (cmpi .slt : (⟨S4194304, .i32⟩ : BufTy).Contents (Elt F) → (⟨S4194304, .i32⟩ : BufTy).Contents (Elt F) → (⟨S4194304, .i1⟩ : BufTy).Contents (Elt F)) ]

/-- After operations 8 to 13: main_arg0, main_arg1, main_v0, main_v1, main_v2, main_v4 hold their stages, given that main_arg0, main_arg1, main_v0 did before. -/
theorem stretch2_run (V : Valuation τ sig (Elt F)) (x0 : (⟨S16x8x512x512, .f32⟩ : BufTy).Contents (Elt F)) (x1 : (⟨S16x512x512, .i32⟩ : BufTy).Contents (Elt F))
    (h_arg0 : V (Proc.devRef .tc main_arg0) = x0)
    (h_arg1 : V (Proc.devRef .tc main_arg1) = x1)
    (h_v0 : V (Proc.devRef .tc main_v0) = val_main_v0 (F := F) x1)
    :
      after (stretch2 (F := F)) V (Proc.devRef .tc main_arg0) = x0
    ∧ after (stretch2 (F := F)) V (Proc.devRef .tc main_arg1) = x1
    ∧ after (stretch2 (F := F)) V (Proc.devRef .tc main_v0) = val_main_v0 (F := F) x1
    ∧ after (stretch2 (F := F)) V (Proc.devRef .tc main_v1) = val_main_v1 (F := F)
    ∧ after (stretch2 (F := F)) V (Proc.devRef .tc main_v2) = val_main_v2 (F := F) x1
    ∧ after (stretch2 (F := F)) V (Proc.devRef .tc main_v4) = val_main_v4 (F := F) x1
    := by
  unfold stretch2
  refine ⟨?_, ?_, ?_, ?_, ?_, ?_⟩
  -- main_arg0: not written in this stretch
  · after_results_simp; exact h_arg0
  -- main_arg1: not written in this stretch
  · after_results_simp; exact h_arg1
  -- main_v0: not written in this stretch
  · after_results_simp; exact h_v0
  -- main_v1: written in this stretch
  · after_results_simp; (try simp only [h_arg0, h_arg1, h_v0, TRef.ofBuf, TRef.toBuf, cast_eq]); rfl
  -- main_v2: written in this stretch
  · after_results_simp; (try simp only [h_arg0, h_arg1, h_v0, TRef.ofBuf, TRef.toBuf, cast_eq]); rfl
  -- main_v4: written in this stretch
  · after_results_simp; (try simp only [h_arg0, h_arg1, h_v0, TRef.ofBuf, TRef.toBuf, cast_eq]); rfl

/-- Operations 14 to 21: they write main_c_2, main_v5, main_v6, main_v7, main_v8, main_cst_3, main_v9, main_v10. -/
def stretch3 : List (HloOp τ sig (Elt F)) :=
  [ nullary main_c_2 (constantI S_ 32 8#32),
    unary main_c_2 main_v5 (broadcastInDim S4194304 ![] bcast_S_S4194304 : (⟨S_, .i32⟩ : BufTy).Contents (Elt F) → (⟨S4194304, .i32⟩ : BufTy).Contents (Elt F)),
    binary main_v2 main_v5 main_v6 (addi : (⟨S4194304, .i32⟩ : BufTy).Contents (Elt F) → (⟨S4194304, .i32⟩ : BufTy).Contents (Elt F) → (⟨S4194304, .i32⟩ : BufTy).Contents (Elt F)),
    ternary main_v4 main_v6 main_v2 main_v7 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    unary main_v7 main_v8 (broadcastInDim S4194304x1 ![0] bcast_S4194304_S4194304x1_0 : (⟨S4194304, .i32⟩ : BufTy).Contents (Elt F) → (⟨S4194304x1, .i32⟩ : BufTy).Contents (Elt F)),
    nullary main_cst_3 (constant S_ .f32 0x3F800000#32),
    unary main_cst_3 main_v9 (broadcastInDim S4194304 ![] bcast_S_S4194304 : (⟨S_, .f32⟩ : BufTy).Contents (Elt F) → (⟨S4194304, .f32⟩ : BufTy).Contents (Elt F)),
    ternary main_v1 main_v8 main_v9 main_v10 ((fun x i u => Host.scatterAdd scatter_S8_S4194304x1_S4194304_n_0_0_1 x i u) : (⟨S8, .f32⟩ : BufTy).Contents (Elt F) → (⟨S4194304x1, .i32⟩ : BufTy).Contents (Elt F) → (⟨S4194304, .f32⟩ : BufTy).Contents (Elt F) → (⟨S8, .f32⟩ : BufTy).Contents (Elt F)) ]

/-- After operations 14 to 21: main_arg0, main_arg1, main_v0, main_v10 hold their stages, given that main_arg0, main_arg1, main_v0, main_v1, main_v2, main_v4 did before. -/
theorem stretch3_run (V : Valuation τ sig (Elt F)) (x0 : (⟨S16x8x512x512, .f32⟩ : BufTy).Contents (Elt F)) (x1 : (⟨S16x512x512, .i32⟩ : BufTy).Contents (Elt F))
    (h_arg0 : V (Proc.devRef .tc main_arg0) = x0)
    (h_arg1 : V (Proc.devRef .tc main_arg1) = x1)
    (h_v0 : V (Proc.devRef .tc main_v0) = val_main_v0 (F := F) x1)
    (h_v1 : V (Proc.devRef .tc main_v1) = val_main_v1 (F := F))
    (h_v2 : V (Proc.devRef .tc main_v2) = val_main_v2 (F := F) x1)
    (h_v4 : V (Proc.devRef .tc main_v4) = val_main_v4 (F := F) x1)
    :
      after (stretch3 (F := F)) V (Proc.devRef .tc main_arg0) = x0
    ∧ after (stretch3 (F := F)) V (Proc.devRef .tc main_arg1) = x1
    ∧ after (stretch3 (F := F)) V (Proc.devRef .tc main_v0) = val_main_v0 (F := F) x1
    ∧ after (stretch3 (F := F)) V (Proc.devRef .tc main_v10) = val_main_v10 (F := F) x1
    := by
  unfold stretch3
  refine ⟨?_, ?_, ?_, ?_⟩
  -- main_arg0: not written in this stretch
  · after_results_simp; exact h_arg0
  -- main_arg1: not written in this stretch
  · after_results_simp; exact h_arg1
  -- main_v0: not written in this stretch
  · after_results_simp; exact h_v0
  -- main_v10: written in this stretch
  · after_results_simp; (try simp only [h_arg0, h_arg1, h_v0, h_v1, h_v2, h_v4, TRef.ofBuf, TRef.toBuf, cast_eq]); rfl

/-- Operations 22 to 27: they write main_cst_4, main_v11, main_v12, main_cst_5, main_v13, main_v14. -/
def stretch4 : List (HloOp τ sig (Elt F)) :=
  [ nullary main_cst_4 (constant S_ .f32 0x358637BD#32),
    unary main_cst_4 main_v11 (broadcastInDim S8 ![] bcast_S_S8 : (⟨S_, .f32⟩ : BufTy).Contents (Elt F) → (⟨S8, .f32⟩ : BufTy).Contents (Elt F)),
    binary main_v10 main_v11 main_v12 (addf : (⟨S8, .f32⟩ : BufTy).Contents (Elt F) → (⟨S8, .f32⟩ : BufTy).Contents (Elt F) → (⟨S8, .f32⟩ : BufTy).Contents (Elt F)),
    nullary main_cst_5 (constant S_ .f32 0x3F800000#32),
    unary main_cst_5 main_v13 (broadcastInDim S8 ![] bcast_S_S8 : (⟨S_, .f32⟩ : BufTy).Contents (Elt F) → (⟨S8, .f32⟩ : BufTy).Contents (Elt F)),
    binary main_v13 main_v12 main_v14 (Host.divf : (⟨S8, .f32⟩ : BufTy).Contents (Elt F) → (⟨S8, .f32⟩ : BufTy).Contents (Elt F) → (⟨S8, .f32⟩ : BufTy).Contents (Elt F)) ]

/-- After operations 22 to 27: main_arg0, main_arg1, main_v0, main_v14 hold their stages, given that main_arg0, main_arg1, main_v0, main_v10 did before. -/
theorem stretch4_run (V : Valuation τ sig (Elt F)) (x0 : (⟨S16x8x512x512, .f32⟩ : BufTy).Contents (Elt F)) (x1 : (⟨S16x512x512, .i32⟩ : BufTy).Contents (Elt F))
    (h_arg0 : V (Proc.devRef .tc main_arg0) = x0)
    (h_arg1 : V (Proc.devRef .tc main_arg1) = x1)
    (h_v0 : V (Proc.devRef .tc main_v0) = val_main_v0 (F := F) x1)
    (h_v10 : V (Proc.devRef .tc main_v10) = val_main_v10 (F := F) x1)
    :
      after (stretch4 (F := F)) V (Proc.devRef .tc main_arg0) = x0
    ∧ after (stretch4 (F := F)) V (Proc.devRef .tc main_arg1) = x1
    ∧ after (stretch4 (F := F)) V (Proc.devRef .tc main_v0) = val_main_v0 (F := F) x1
    ∧ after (stretch4 (F := F)) V (Proc.devRef .tc main_v14) = val_main_v14 (F := F) x1
    := by
  unfold stretch4
  refine ⟨?_, ?_, ?_, ?_⟩
  -- main_arg0: not written in this stretch
  · after_results_simp; exact h_arg0
  -- main_arg1: not written in this stretch
  · after_results_simp; exact h_arg1
  -- main_v0: not written in this stretch
  · after_results_simp; exact h_v0
  -- main_v14: written in this stretch
  · after_results_simp; (try simp only [h_arg0, h_arg1, h_v0, h_v10, TRef.ofBuf, TRef.toBuf, cast_eq]); rfl

/-- Operations 28 to 36: they write main_c_6, main_v15, main_v16, main_c_7, main_v17, main_v18, main_v19, main_v20, main_v21. -/
def stretch5 : List (HloOp τ sig (Elt F)) :=
  [ nullary main_c_6 (constantI S_ 32 0#32),
    unary main_c_6 main_v15 (broadcastInDim S16x512x512 ![] bcast_S_S16x512x512 : (⟨S_, .i32⟩ : BufTy).Contents (Elt F) → (⟨S16x512x512, .i32⟩ : BufTy).Contents (Elt F)),
    binary main_v0 main_v15 main_v16 (cmpi .slt : (⟨S16x512x512, .i32⟩ : BufTy).Contents (Elt F) → (⟨S16x512x512, .i32⟩ : BufTy).Contents (Elt F) → (⟨S16x512x512, .i1⟩ : BufTy).Contents (Elt F)),
    nullary main_c_7 (constantI S_ 32 8#32),
    unary main_c_7 main_v17 (broadcastInDim S16x512x512 ![] bcast_S_S16x512x512 : (⟨S_, .i32⟩ : BufTy).Contents (Elt F) → (⟨S16x512x512, .i32⟩ : BufTy).Contents (Elt F)),
    binary main_v0 main_v17 main_v18 (addi : (⟨S16x512x512, .i32⟩ : BufTy).Contents (Elt F) → (⟨S16x512x512, .i32⟩ : BufTy).Contents (Elt F) → (⟨S16x512x512, .i32⟩ : BufTy).Contents (Elt F)),
    ternary main_v16 main_v18 main_v0 main_v19 (select : (⟨S16x512x512, .i1⟩ : BufTy).Contents (Elt F) → (⟨S16x512x512, .i32⟩ : BufTy).Contents (Elt F) → (⟨S16x512x512, .i32⟩ : BufTy).Contents (Elt F) → (⟨S16x512x512, .i32⟩ : BufTy).Contents (Elt F)),
    unary main_v19 main_v20 (broadcastInDim S16x512x512x1 ![0, 1, 2] bcast_S16x512x512_S16x512x512x1_0_1_2 : (⟨S16x512x512, .i32⟩ : BufTy).Contents (Elt F) → (⟨S16x512x512x1, .i32⟩ : BufTy).Contents (Elt F)),
    binary main_v14 main_v20 main_v21 ((fun x i => Host.gather gather_S8_S16x512x512x1_S16x512x512_n_0_n_n_0_3_1 x i) : (⟨S8, .f32⟩ : BufTy).Contents (Elt F) → (⟨S16x512x512x1, .i32⟩ : BufTy).Contents (Elt F) → (⟨S16x512x512, .f32⟩ : BufTy).Contents (Elt F)) ]

/-- After operations 28 to 36: main_arg0, main_arg1, main_v0, main_v21 hold their stages, given that main_arg0, main_arg1, main_v0, main_v14 did before. -/
theorem stretch5_run (V : Valuation τ sig (Elt F)) (x0 : (⟨S16x8x512x512, .f32⟩ : BufTy).Contents (Elt F)) (x1 : (⟨S16x512x512, .i32⟩ : BufTy).Contents (Elt F))
    (h_arg0 : V (Proc.devRef .tc main_arg0) = x0)
    (h_arg1 : V (Proc.devRef .tc main_arg1) = x1)
    (h_v0 : V (Proc.devRef .tc main_v0) = val_main_v0 (F := F) x1)
    (h_v14 : V (Proc.devRef .tc main_v14) = val_main_v14 (F := F) x1)
    :
      after (stretch5 (F := F)) V (Proc.devRef .tc main_arg0) = x0
    ∧ after (stretch5 (F := F)) V (Proc.devRef .tc main_arg1) = x1
    ∧ after (stretch5 (F := F)) V (Proc.devRef .tc main_v0) = val_main_v0 (F := F) x1
    ∧ after (stretch5 (F := F)) V (Proc.devRef .tc main_v21) = val_main_v21 (F := F) x1
    := by
  unfold stretch5
  refine ⟨?_, ?_, ?_, ?_⟩
  -- main_arg0: not written in this stretch
  · after_results_simp; exact h_arg0
  -- main_arg1: not written in this stretch
  · after_results_simp; exact h_arg1
  -- main_v0: not written in this stretch
  · after_results_simp; exact h_v0
  -- main_v21: written in this stretch
  · after_results_simp; (try simp only [h_arg0, h_arg1, h_v0, h_v14, TRef.ofBuf, TRef.toBuf, cast_eq]); rfl

/-- Operations 37 to 44: they write main_call1_cst, main_call1_v0, main_call1_cst_0, main_call1_v1, main_call1_v2, main_call1_v3, main_call1_v4, main_call1_v5. -/
def stretch6 : List (HloOp τ sig (Elt F)) :=
  [ TRef.nullary (TRef.of (T := ⟨S_, .f32⟩) main_call1_cst) (constant S_ .f32 0xFF800000#32),
    TRef.binary (TRef.of (T := ⟨S16x8x512x512, .f32⟩) main_arg0) (TRef.of (T := ⟨S_, .f32⟩) main_call1_cst) (TRef.of (T := ⟨S16x512x512, .f32⟩) main_call1_v0) (fun x v => Host.reduce FloatOps.maximumf x v reducesTo_S16x8x512x512_S16x512x512_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S16x512x512, .f32⟩) main_call1_v1) (broadcastInDim S16x512x512 ![] bcast_S_S16x512x512),
    TRef.binary (TRef.of (T := ⟨S16x512x512, .f32⟩) main_call1_v1) (TRef.of (T := ⟨S16x512x512, .f32⟩) main_call1_v0) (TRef.of (T := ⟨S16x512x512, .f32⟩) main_call1_v2) maximumf,
    TRef.unary (TRef.of (T := ⟨S16x512x512, .f32⟩) main_call1_v2) (TRef.of (T := ⟨S16x1x512x512, .f32⟩) main_call1_v3) (broadcastInDim S16x1x512x512 ![0, 2, 3] bcast_S16x512x512_S16x1x512x512_0_2_3),
    TRef.unary (TRef.of (T := ⟨S16x1x512x512, .f32⟩) main_call1_v3) (TRef.of (T := ⟨S16x8x512x512, .f32⟩) main_call1_v4) (broadcastInDim S16x8x512x512 ![0, 1, 2, 3] bcast_S16x1x512x512_S16x8x512x512_0_1_2_3),
    TRef.binary (TRef.of (T := ⟨S16x8x512x512, .f32⟩) main_arg0) (TRef.of (T := ⟨S16x8x512x512, .f32⟩) main_call1_v4) (TRef.of (T := ⟨S16x8x512x512, .f32⟩) main_call1_v5) subf ]

/-- After operations 37 to 44: main_arg0, main_arg1, main_v0, main_v21, main_call1_v5 hold their stages, given that main_arg0, main_arg1, main_v0, main_v21 did before. -/
theorem stretch6_run (V : Valuation τ sig (Elt F)) (x0 : (⟨S16x8x512x512, .f32⟩ : BufTy).Contents (Elt F)) (x1 : (⟨S16x512x512, .i32⟩ : BufTy).Contents (Elt F))
    (h_arg0 : V (Proc.devRef .tc main_arg0) = x0)
    (h_arg1 : V (Proc.devRef .tc main_arg1) = x1)
    (h_v0 : V (Proc.devRef .tc main_v0) = val_main_v0 (F := F) x1)
    (h_v21 : V (Proc.devRef .tc main_v21) = val_main_v21 (F := F) x1)
    :
      after (stretch6 (F := F)) V (Proc.devRef .tc main_arg0) = x0
    ∧ after (stretch6 (F := F)) V (Proc.devRef .tc main_arg1) = x1
    ∧ after (stretch6 (F := F)) V (Proc.devRef .tc main_v0) = val_main_v0 (F := F) x1
    ∧ after (stretch6 (F := F)) V (Proc.devRef .tc main_v21) = val_main_v21 (F := F) x1
    ∧ after (stretch6 (F := F)) V (Proc.devRef .tc main_call1_v5) = val_main_call1_v5 (F := F) x0
    := by
  unfold stretch6
  refine ⟨?_, ?_, ?_, ?_, ?_⟩
  -- main_arg0: not written in this stretch
  · after_results_simp; exact h_arg0
  -- main_arg1: not written in this stretch
  · after_results_simp; exact h_arg1
  -- main_v0: not written in this stretch
  · after_results_simp; exact h_v0
  -- main_v21: not written in this stretch
  · after_results_simp; exact h_v21
  -- main_call1_v5: written in this stretch
  · after_results_simp; (try simp only [h_arg0, h_arg1, h_v0, h_v21, TRef.ofBuf, TRef.toBuf, cast_eq]); rfl

/-- Operations 45 to 51: they write main_call1_v6, main_call1_cst_1, main_call1_v7, main_call1_v8, main_call1_v9, main_call1_v10, main_v22. -/
def stretch7 : List (HloOp τ sig (Elt F)) :=
  [ TRef.unary (TRef.of (T := ⟨S16x8x512x512, .f32⟩) main_call1_v5) (TRef.of (T := ⟨S16x8x512x512, .f32⟩) main_call1_v6) Host.exp,
    TRef.nullary (TRef.of (T := ⟨S_, .f32⟩) main_call1_cst_1) (constant S_ .f32 0x00000000#32),
    TRef.binary (TRef.of (T := ⟨S16x8x512x512, .f32⟩) main_call1_v6) (TRef.of (T := ⟨S_, .f32⟩) main_call1_cst_1) (TRef.of (T := ⟨S16x512x512, .f32⟩) main_call1_v7) (fun x v => Host.reduceAdd x v reducesTo_S16x8x512x512_S16x512x512_d1 h_S_),
    TRef.unary (TRef.of (T := ⟨S16x512x512, .f32⟩) main_call1_v7) (TRef.of (T := ⟨S16x1x512x512, .f32⟩) main_call1_v8) (broadcastInDim S16x1x512x512 ![0, 2, 3] bcast_S16x512x512_S16x1x512x512_0_2_3),
    TRef.unary (TRef.of (T := ⟨S16x1x512x512, .f32⟩) main_call1_v8) (TRef.of (T := ⟨S16x1x512x512, .f32⟩) main_call1_v9) Host.log,
    TRef.unary (TRef.of (T := ⟨S16x1x512x512, .f32⟩) main_call1_v9) (TRef.of (T := ⟨S16x8x512x512, .f32⟩) main_call1_v10) (broadcastInDim S16x8x512x512 ![0, 1, 2, 3] bcast_S16x1x512x512_S16x8x512x512_0_1_2_3),
    TRef.binary (TRef.of (T := ⟨S16x8x512x512, .f32⟩) main_call1_v5) (TRef.of (T := ⟨S16x8x512x512, .f32⟩) main_call1_v10) (TRef.of (T := ⟨S16x8x512x512, .f32⟩) main_v22) subf ]

/-- After operations 45 to 51: main_arg0, main_arg1, main_v0, main_v21, main_v22 hold their stages, given that main_arg0, main_arg1, main_v0, main_v21, main_call1_v5 did before. -/
theorem stretch7_run (V : Valuation τ sig (Elt F)) (x0 : (⟨S16x8x512x512, .f32⟩ : BufTy).Contents (Elt F)) (x1 : (⟨S16x512x512, .i32⟩ : BufTy).Contents (Elt F))
    (h_arg0 : V (Proc.devRef .tc main_arg0) = x0)
    (h_arg1 : V (Proc.devRef .tc main_arg1) = x1)
    (h_v0 : V (Proc.devRef .tc main_v0) = val_main_v0 (F := F) x1)
    (h_v21 : V (Proc.devRef .tc main_v21) = val_main_v21 (F := F) x1)
    (h_call1_v5 : V (Proc.devRef .tc main_call1_v5) = val_main_call1_v5 (F := F) x0)
    :
      after (stretch7 (F := F)) V (Proc.devRef .tc main_arg0) = x0
    ∧ after (stretch7 (F := F)) V (Proc.devRef .tc main_arg1) = x1
    ∧ after (stretch7 (F := F)) V (Proc.devRef .tc main_v0) = val_main_v0 (F := F) x1
    ∧ after (stretch7 (F := F)) V (Proc.devRef .tc main_v21) = val_main_v21 (F := F) x1
    ∧ after (stretch7 (F := F)) V (Proc.devRef .tc main_v22) = val_main_v22 (F := F) x0
    := by
  unfold stretch7
  refine ⟨?_, ?_, ?_, ?_, ?_⟩
  -- main_arg0: not written in this stretch
  · after_results_simp; exact h_arg0
  -- main_arg1: not written in this stretch
  · after_results_simp; exact h_arg1
  -- main_v0: not written in this stretch
  · after_results_simp; exact h_v0
  -- main_v21: not written in this stretch
  · after_results_simp; exact h_v21
  -- main_v22: written in this stretch
  · after_results_simp; (try simp only [h_arg0, h_arg1, h_v0, h_v21, h_call1_v5, TRef.ofBuf, TRef.toBuf, cast_eq]); rfl

/-- Operations 52 to 60: they write main_v23, main_call2_c, main_call2_v0, main_call2_v1, main_call2_c_0, main_call2_v2, main_call2_v3, main_call2_v4, main_call2_v5. -/
def stretch8 : List (HloOp τ sig (Elt F)) :=
  [ unary main_v0 main_v23 (broadcastInDim S16x1x512x512 ![0, 2, 3] bcast_S16x512x512_S16x1x512x512_0_2_3 : (⟨S16x512x512, .i32⟩ : BufTy).Contents (Elt F) → (⟨S16x1x512x512, .i32⟩ : BufTy).Contents (Elt F)),
    TRef.nullary (TRef.of (T := ⟨S_, .i32⟩) main_call2_c) (constantI S_ 32 0#32),
    TRef.unary (TRef.of (T := ⟨S_, .i32⟩) main_call2_c) (TRef.of (T := ⟨S16x1x512x512, .i32⟩) main_call2_v0) (broadcastInDim S16x1x512x512 ![] bcast_S_S16x1x512x512),
    TRef.binary (TRef.of (T := ⟨S16x1x512x512, .i32⟩) main_v23) (TRef.of (T := ⟨S16x1x512x512, .i32⟩) main_call2_v0) (TRef.of (T := ⟨S16x1x512x512, .i1⟩) main_call2_v1) (cmpi .slt),
    TRef.nullary (TRef.of (T := ⟨S_, .i32⟩) main_call2_c_0) (constantI S_ 32 8#32),
    TRef.unary (TRef.of (T := ⟨S_, .i32⟩) main_call2_c_0) (TRef.of (T := ⟨S16x1x512x512, .i32⟩) main_call2_v2) (broadcastInDim S16x1x512x512 ![] bcast_S_S16x1x512x512),
    TRef.binary (TRef.of (T := ⟨S16x1x512x512, .i32⟩) main_v23) (TRef.of (T := ⟨S16x1x512x512, .i32⟩) main_call2_v2) (TRef.of (T := ⟨S16x1x512x512, .i32⟩) main_call2_v3) addi,
    TRef.ternary (TRef.of (T := ⟨S16x1x512x512, .i1⟩) main_call2_v1) (TRef.of (T := ⟨S16x1x512x512, .i32⟩) main_call2_v3) (TRef.of (T := ⟨S16x1x512x512, .i32⟩) main_v23) (TRef.of (T := ⟨S16x1x512x512, .i32⟩) main_call2_v4) select,
    TRef.reshape (TRef.of (T := ⟨S16x1x512x512, .i32⟩) main_call2_v4) (TRef.of (T := ⟨S16x1x512x512x1, .i32⟩) main_call2_v5) rfl shapeCasts_S16x1x512x512_S16x1x512x512x1 ]

/-- After operations 52 to 60: main_arg0, main_arg1, main_v21, main_v22, main_call2_v5 hold their stages, given that main_arg0, main_arg1, main_v0, main_v21, main_v22 did before. -/
theorem stretch8_run (V : Valuation τ sig (Elt F)) (x0 : (⟨S16x8x512x512, .f32⟩ : BufTy).Contents (Elt F)) (x1 : (⟨S16x512x512, .i32⟩ : BufTy).Contents (Elt F))
    (h_arg0 : V (Proc.devRef .tc main_arg0) = x0)
    (h_arg1 : V (Proc.devRef .tc main_arg1) = x1)
    (h_v0 : V (Proc.devRef .tc main_v0) = val_main_v0 (F := F) x1)
    (h_v21 : V (Proc.devRef .tc main_v21) = val_main_v21 (F := F) x1)
    (h_v22 : V (Proc.devRef .tc main_v22) = val_main_v22 (F := F) x0)
    :
      after (stretch8 (F := F)) V (Proc.devRef .tc main_arg0) = x0
    ∧ after (stretch8 (F := F)) V (Proc.devRef .tc main_arg1) = x1
    ∧ after (stretch8 (F := F)) V (Proc.devRef .tc main_v21) = val_main_v21 (F := F) x1
    ∧ after (stretch8 (F := F)) V (Proc.devRef .tc main_v22) = val_main_v22 (F := F) x0
    ∧ after (stretch8 (F := F)) V (Proc.devRef .tc main_call2_v5) = val_main_call2_v5 (F := F) x1
    := by
  unfold stretch8
  refine ⟨?_, ?_, ?_, ?_, ?_⟩
  -- main_arg0: not written in this stretch
  · after_results_simp; exact h_arg0
  -- main_arg1: not written in this stretch
  · after_results_simp; exact h_arg1
  -- main_v21: not written in this stretch
  · after_results_simp; exact h_v21
  -- main_v22: not written in this stretch
  · after_results_simp; exact h_v22
  -- main_call2_v5: written in this stretch
  · after_results_simp; (try simp only [h_arg0, h_arg1, h_v0, h_v21, h_v22, TRef.ofBuf, TRef.toBuf, cast_eq]); rfl

/-- Operations 61 to 70: they write main_call2_c_1, main_call2_c_2, main_call2_v6, main_call2_v7, main_call2_v8, main_call2_v9, main_call2_v10, main_call2_v11, main_call2_c_3, main_call2_v12. -/
def stretch9 : List (HloOp τ sig (Elt F)) :=
  [ TRef.nullary (TRef.of (T := ⟨S1, .i32⟩) main_call2_c_1) (constantI S1 32 7#32),
    TRef.nullary (TRef.of (T := ⟨S_, .i32⟩) main_call2_c_2) (constantI S_ 32 0#32),
    TRef.unary (TRef.of (T := ⟨S_, .i32⟩) main_call2_c_2) (TRef.of (T := ⟨S16x1x512x512x1, .i32⟩) main_call2_v6) (broadcastInDim S16x1x512x512x1 ![] bcast_S_S16x1x512x512x1),
    TRef.binary (TRef.of (T := ⟨S16x1x512x512x1, .i32⟩) main_call2_v5) (TRef.of (T := ⟨S16x1x512x512x1, .i32⟩) main_call2_v6) (TRef.of (T := ⟨S16x1x512x512x1, .i1⟩) main_call2_v7) (cmpi .sge),
    TRef.unary (TRef.of (T := ⟨S1, .i32⟩) main_call2_c_1) (TRef.of (T := ⟨S1x1x1x1x1, .i32⟩) main_call2_v8) (broadcastInDim S1x1x1x1x1 ![4] bcast_S1_S1x1x1x1x1_4),
    TRef.unary (TRef.of (T := ⟨S1x1x1x1x1, .i32⟩) main_call2_v8) (TRef.of (T := ⟨S16x1x512x512x1, .i32⟩) main_call2_v9) (broadcastInDim S16x1x512x512x1 ![0, 1, 2, 3, 4] bcast_S1x1x1x1x1_S16x1x512x512x1_0_1_2_3_4),
    TRef.binary (TRef.of (T := ⟨S16x1x512x512x1, .i32⟩) main_call2_v5) (TRef.of (T := ⟨S16x1x512x512x1, .i32⟩) main_call2_v9) (TRef.of (T := ⟨S16x1x512x512x1, .i1⟩) main_call2_v10) (cmpi .sle),
    TRef.binary (TRef.of (T := ⟨S16x1x512x512x1, .i1⟩) main_call2_v7) (TRef.of (T := ⟨S16x1x512x512x1, .i1⟩) main_call2_v10) (TRef.of (T := ⟨S16x1x512x512x1, .i1⟩) main_call2_v11) andi,
    TRef.nullary (TRef.of (T := ⟨S_, .i1⟩) main_call2_c_3) (constantI S_ 1 1#1),
    TRef.binary (TRef.of (T := ⟨S16x1x512x512x1, .i1⟩) main_call2_v11) (TRef.of (T := ⟨S_, .i1⟩) main_call2_c_3) (TRef.of (T := ⟨S16x1x512x512, .i1⟩) main_call2_v12) (fun x v => Host.reduce IntOp.andi x v reducesTo_S16x1x512x512x1_S16x1x512x512_d4 h_S_) ]

/-- After operations 61 to 70: main_arg0, main_arg1, main_v21, main_v22, main_call2_v5, main_call2_v12 hold their stages, given that main_arg0, main_arg1, main_v21, main_v22, main_call2_v5 did before. -/
theorem stretch9_run (V : Valuation τ sig (Elt F)) (x0 : (⟨S16x8x512x512, .f32⟩ : BufTy).Contents (Elt F)) (x1 : (⟨S16x512x512, .i32⟩ : BufTy).Contents (Elt F))
    (h_arg0 : V (Proc.devRef .tc main_arg0) = x0)
    (h_arg1 : V (Proc.devRef .tc main_arg1) = x1)
    (h_v21 : V (Proc.devRef .tc main_v21) = val_main_v21 (F := F) x1)
    (h_v22 : V (Proc.devRef .tc main_v22) = val_main_v22 (F := F) x0)
    (h_call2_v5 : V (Proc.devRef .tc main_call2_v5) = val_main_call2_v5 (F := F) x1)
    :
      after (stretch9 (F := F)) V (Proc.devRef .tc main_arg0) = x0
    ∧ after (stretch9 (F := F)) V (Proc.devRef .tc main_arg1) = x1
    ∧ after (stretch9 (F := F)) V (Proc.devRef .tc main_v21) = val_main_v21 (F := F) x1
    ∧ after (stretch9 (F := F)) V (Proc.devRef .tc main_v22) = val_main_v22 (F := F) x0
    ∧ after (stretch9 (F := F)) V (Proc.devRef .tc main_call2_v5) = val_main_call2_v5 (F := F) x1
    ∧ after (stretch9 (F := F)) V (Proc.devRef .tc main_call2_v12) = val_main_call2_v12 (F := F) x1
    := by
  unfold stretch9
  refine ⟨?_, ?_, ?_, ?_, ?_, ?_⟩
  -- main_arg0: not written in this stretch
  · after_results_simp; exact h_arg0
  -- main_arg1: not written in this stretch
  · after_results_simp; exact h_arg1
  -- main_v21: not written in this stretch
  · after_results_simp; exact h_v21
  -- main_v22: not written in this stretch
  · after_results_simp; exact h_v22
  -- main_call2_v5: not written in this stretch
  · after_results_simp; exact h_call2_v5
  -- main_call2_v12: written in this stretch
  · after_results_simp; (try simp only [h_arg0, h_arg1, h_v21, h_v22, h_call2_v5, TRef.ofBuf, TRef.toBuf, cast_eq]); rfl

/-- Operations 71 to 77: they write main_call2_v13, main_call2_cst, main_call2_v14, main_v24, main_v25, main_v26, main_v27. -/
def stretch10 : List (HloOp τ sig (Elt F)) :=
  [ TRef.binary (TRef.of (T := ⟨S16x8x512x512, .f32⟩) main_v22) (TRef.of (T := ⟨S16x1x512x512x1, .i32⟩) main_call2_v5) (TRef.of (T := ⟨S16x1x512x512, .f32⟩) main_call2_v13) (fun x i => Host.gather gather_S16x8x512x512_S16x1x512x512x1_S16x1x512x512_n_1_023_023_1_4_1111 x i),
    TRef.nullary (TRef.of (T := ⟨S_, .f32⟩) main_call2_cst) (constant S_ .f32 0x7FC00000#32),
    TRef.unary (TRef.of (T := ⟨S_, .f32⟩) main_call2_cst) (TRef.of (T := ⟨S16x1x512x512, .f32⟩) main_call2_v14) (broadcastInDim S16x1x512x512 ![] bcast_S_S16x1x512x512),
    TRef.ternary (TRef.of (T := ⟨S16x1x512x512, .i1⟩) main_call2_v12) (TRef.of (T := ⟨S16x1x512x512, .f32⟩) main_call2_v13) (TRef.of (T := ⟨S16x1x512x512, .f32⟩) main_call2_v14) (TRef.of (T := ⟨S16x1x512x512, .f32⟩) main_v24) select,
    reshape main_v24 main_v25 rfl shapeCasts_S16x1x512x512_S16x512x512,
    binary main_v25 main_v21 main_v26 (mulf : (⟨S16x512x512, .f32⟩ : BufTy).Contents (Elt F) → (⟨S16x512x512, .f32⟩ : BufTy).Contents (Elt F) → (⟨S16x512x512, .f32⟩ : BufTy).Contents (Elt F)),
    reshape main_v26 main_v27 rfl shapeCasts_S16x512x512_S16x262144 ]

/-- After operations 71 to 77: main_arg0, main_arg1, main_v21, main_v27 hold their stages, given that main_arg0, main_arg1, main_v21, main_v22, main_call2_v5, main_call2_v12 did before. -/
theorem stretch10_run (V : Valuation τ sig (Elt F)) (x0 : (⟨S16x8x512x512, .f32⟩ : BufTy).Contents (Elt F)) (x1 : (⟨S16x512x512, .i32⟩ : BufTy).Contents (Elt F))
    (h_arg0 : V (Proc.devRef .tc main_arg0) = x0)
    (h_arg1 : V (Proc.devRef .tc main_arg1) = x1)
    (h_v21 : V (Proc.devRef .tc main_v21) = val_main_v21 (F := F) x1)
    (h_v22 : V (Proc.devRef .tc main_v22) = val_main_v22 (F := F) x0)
    (h_call2_v5 : V (Proc.devRef .tc main_call2_v5) = val_main_call2_v5 (F := F) x1)
    (h_call2_v12 : V (Proc.devRef .tc main_call2_v12) = val_main_call2_v12 (F := F) x1)
    :
      after (stretch10 (F := F)) V (Proc.devRef .tc main_arg0) = x0
    ∧ after (stretch10 (F := F)) V (Proc.devRef .tc main_arg1) = x1
    ∧ after (stretch10 (F := F)) V (Proc.devRef .tc main_v21) = val_main_v21 (F := F) x1
    ∧ after (stretch10 (F := F)) V (Proc.devRef .tc main_v27) = val_main_v27 (F := F) x0 x1
    := by
  unfold stretch10
  refine ⟨?_, ?_, ?_, ?_⟩
  -- main_arg0: not written in this stretch
  · after_results_simp; exact h_arg0
  -- main_arg1: not written in this stretch
  · after_results_simp; exact h_arg1
  -- main_v21: not written in this stretch
  · after_results_simp; exact h_v21
  -- main_v27: written in this stretch
  · after_results_simp; (try simp only [h_arg0, h_arg1, h_v21, h_v22, h_call2_v5, h_call2_v12, TRef.ofBuf, TRef.toBuf, cast_eq]); rfl

/-- Operations 78 to 88: they write main_cst_8, main_v28, main_v29, main_cst_9, main_v30, main_v31, main_cst_10, main_v32, main_cst_11, main_v33, main_v34. -/
def stretch11 : List (HloOp τ sig (Elt F)) :=
  [ nullary main_cst_8 (constant S_ .f32 0x00000000#32),
    binary main_v27 main_cst_8 main_v28 ((fun x v => Host.reduceAdd x v reducesTo_S16x262144_S16_d1 h_S_) : (⟨S16x262144, .f32⟩ : BufTy).Contents (Elt F) → (⟨S_, .f32⟩ : BufTy).Contents (Elt F) → (⟨S16, .f32⟩ : BufTy).Contents (Elt F)),
    reshape main_v21 main_v29 rfl shapeCasts_S16x512x512_S16x262144,
    nullary main_cst_9 (constant S_ .f32 0x00000000#32),
    binary main_v29 main_cst_9 main_v30 ((fun x v => Host.reduceAdd x v reducesTo_S16x262144_S16_d1 h_S_) : (⟨S16x262144, .f32⟩ : BufTy).Contents (Elt F) → (⟨S_, .f32⟩ : BufTy).Contents (Elt F) → (⟨S16, .f32⟩ : BufTy).Contents (Elt F)),
    binary main_v28 main_v30 main_v31 (Host.divf : (⟨S16, .f32⟩ : BufTy).Contents (Elt F) → (⟨S16, .f32⟩ : BufTy).Contents (Elt F) → (⟨S16, .f32⟩ : BufTy).Contents (Elt F)),
    nullary main_cst_10 (constant S_ .f32 0x00000000#32),
    binary main_v31 main_cst_10 main_v32 ((fun x v => Host.reduceAdd x v reducesTo_S16_S_d0 h_S_) : (⟨S16, .f32⟩ : BufTy).Contents (Elt F) → (⟨S_, .f32⟩ : BufTy).Contents (Elt F) → (⟨S_, .f32⟩ : BufTy).Contents (Elt F)),
    nullary main_cst_11 (constant S_ .f32 0x41800000#32),
    binary main_v32 main_cst_11 main_v33 (Host.divf : (⟨S_, .f32⟩ : BufTy).Contents (Elt F) → (⟨S_, .f32⟩ : BufTy).Contents (Elt F) → (⟨S_, .f32⟩ : BufTy).Contents (Elt F)),
    unary main_v33 main_v34 (Host.negf : (⟨S_, .f32⟩ : BufTy).Contents (Elt F) → (⟨S_, .f32⟩ : BufTy).Contents (Elt F)) ]

/-- After operations 78 to 88: main_arg0, main_arg1, main_v34 hold their stages, given that main_arg0, main_arg1, main_v21, main_v27 did before. -/
theorem stretch11_run (V : Valuation τ sig (Elt F)) (x0 : (⟨S16x8x512x512, .f32⟩ : BufTy).Contents (Elt F)) (x1 : (⟨S16x512x512, .i32⟩ : BufTy).Contents (Elt F))
    (h_arg0 : V (Proc.devRef .tc main_arg0) = x0)
    (h_arg1 : V (Proc.devRef .tc main_arg1) = x1)
    (h_v21 : V (Proc.devRef .tc main_v21) = val_main_v21 (F := F) x1)
    (h_v27 : V (Proc.devRef .tc main_v27) = val_main_v27 (F := F) x0 x1)
    :
      after (stretch11 (F := F)) V (Proc.devRef .tc main_arg0) = x0
    ∧ after (stretch11 (F := F)) V (Proc.devRef .tc main_arg1) = x1
    ∧ after (stretch11 (F := F)) V (Proc.devRef .tc main_v34) = val_main_v34 (F := F) x0 x1
    := by
  unfold stretch11
  refine ⟨?_, ?_, ?_⟩
  -- main_arg0: not written in this stretch
  · after_results_simp; exact h_arg0
  -- main_arg1: not written in this stretch
  · after_results_simp; exact h_arg1
  -- main_v34: written in this stretch
  · after_results_simp; (try simp only [h_arg0, h_arg1, h_v21, h_v27, TRef.ofBuf, TRef.toBuf, cast_eq]); rfl

/-- The whole list is the stretches one after the other. -/
theorem ops_eq : (ValueP.ops (F := F) : List (HloOp τ sig (Elt F))) = stretch1 (F := F) ++ (stretch2 (F := F) ++ (stretch3 (F := F) ++ (stretch4 (F := F) ++ (stretch5 (F := F) ++ (stretch6 (F := F) ++ (stretch7 (F := F) ++ (stretch8 (F := F) ++ (stretch9 (F := F) ++ (stretch10 (F := F) ++ (stretch11 (F := F))))))))))) := rfl

/-- After the 89 operations from any valuation: the result buffer holds the last stage of the two arguments' contents, and the arguments theirs. -/
theorem after_ops (V : Valuation τ sig (Elt F)) :
    after (ValueP.ops (F := F)) V (Proc.devRef .tc main_v34) = val_main_v34 (F := F) (V (Proc.devRef .tc main_arg0)) (V (Proc.devRef .tc main_arg1))
    ∧ after (ValueP.ops (F := F)) V (Proc.devRef .tc main_arg0) = V (Proc.devRef .tc main_arg0)
    ∧ after (ValueP.ops (F := F)) V (Proc.devRef .tc main_arg1) = V (Proc.devRef .tc main_arg1) := by
  rw [ops_eq]; simp only [after_app]
  obtain ⟨s1_arg0, s1_arg1, s1_v0⟩ := stretch1_run (V) _ _ rfl rfl
  obtain ⟨s2_arg0, s2_arg1, s2_v0, s2_v1, s2_v2, s2_v4⟩ := stretch2_run (after (stretch1 (F := F)) (V)) _ _ s1_arg0 s1_arg1 s1_v0
  obtain ⟨s3_arg0, s3_arg1, s3_v0, s3_v10⟩ := stretch3_run (after (stretch2 (F := F)) (after (stretch1 (F := F)) (V))) _ _ s2_arg0 s2_arg1 s2_v0 s2_v1 s2_v2 s2_v4
  obtain ⟨s4_arg0, s4_arg1, s4_v0, s4_v14⟩ := stretch4_run (after (stretch3 (F := F)) (after (stretch2 (F := F)) (after (stretch1 (F := F)) (V)))) _ _ s3_arg0 s3_arg1 s3_v0 s3_v10
  obtain ⟨s5_arg0, s5_arg1, s5_v0, s5_v21⟩ := stretch5_run (after (stretch4 (F := F)) (after (stretch3 (F := F)) (after (stretch2 (F := F)) (after (stretch1 (F := F)) (V))))) _ _ s4_arg0 s4_arg1 s4_v0 s4_v14
  obtain ⟨s6_arg0, s6_arg1, s6_v0, s6_v21, s6_call1_v5⟩ := stretch6_run (after (stretch5 (F := F)) (after (stretch4 (F := F)) (after (stretch3 (F := F)) (after (stretch2 (F := F)) (after (stretch1 (F := F)) (V)))))) _ _ s5_arg0 s5_arg1 s5_v0 s5_v21
  obtain ⟨s7_arg0, s7_arg1, s7_v0, s7_v21, s7_v22⟩ := stretch7_run (after (stretch6 (F := F)) (after (stretch5 (F := F)) (after (stretch4 (F := F)) (after (stretch3 (F := F)) (after (stretch2 (F := F)) (after (stretch1 (F := F)) (V))))))) _ _ s6_arg0 s6_arg1 s6_v0 s6_v21 s6_call1_v5
  obtain ⟨s8_arg0, s8_arg1, s8_v21, s8_v22, s8_call2_v5⟩ := stretch8_run (after (stretch7 (F := F)) (after (stretch6 (F := F)) (after (stretch5 (F := F)) (after (stretch4 (F := F)) (after (stretch3 (F := F)) (after (stretch2 (F := F)) (after (stretch1 (F := F)) (V)))))))) _ _ s7_arg0 s7_arg1 s7_v0 s7_v21 s7_v22
  obtain ⟨s9_arg0, s9_arg1, s9_v21, s9_v22, s9_call2_v5, s9_call2_v12⟩ := stretch9_run (after (stretch8 (F := F)) (after (stretch7 (F := F)) (after (stretch6 (F := F)) (after (stretch5 (F := F)) (after (stretch4 (F := F)) (after (stretch3 (F := F)) (after (stretch2 (F := F)) (after (stretch1 (F := F)) (V))))))))) _ _ s8_arg0 s8_arg1 s8_v21 s8_v22 s8_call2_v5
  obtain ⟨s10_arg0, s10_arg1, s10_v21, s10_v27⟩ := stretch10_run (after (stretch9 (F := F)) (after (stretch8 (F := F)) (after (stretch7 (F := F)) (after (stretch6 (F := F)) (after (stretch5 (F := F)) (after (stretch4 (F := F)) (after (stretch3 (F := F)) (after (stretch2 (F := F)) (after (stretch1 (F := F)) (V)))))))))) _ _ s9_arg0 s9_arg1 s9_v21 s9_v22 s9_call2_v5 s9_call2_v12
  obtain ⟨s11_arg0, s11_arg1, s11_v34⟩ := stretch11_run (after (stretch10 (F := F)) (after (stretch9 (F := F)) (after (stretch8 (F := F)) (after (stretch7 (F := F)) (after (stretch6 (F := F)) (after (stretch5 (F := F)) (after (stretch4 (F := F)) (after (stretch3 (F := F)) (after (stretch2 (F := F)) (after (stretch1 (F := F)) (V))))))))))) _ _ s10_arg0 s10_arg1 s10_v21 s10_v27
  exact ⟨s11_v34, s11_arg0, s11_arg1⟩

/-- On every device, from any memory with zero counters: every weakly fair execution of the reference program terminates
    with its result at the last stage of the two arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v34) = ReadP.val_main_v34 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => by
      obtain ⟨a, a0, a1⟩ := after_ops (F := F) (launchContents m c)
      exact ⟨(h c main_v34).trans a, (h c main_arg0).trans a0, (h c main_arg1).trans a1⟩)
    (ValueP.run_after m ρ)

end Cert.ReferenceIdeal.RefRun

end
-- ==== Proof.RefCounts.lean ====
/-
  The reference's class histogram.

  The reference clips every target word to [0, 7] (`clip_apply`), flattens the clipped words into one row of
  16 * 512 * 512 = 4194304 words, and scatter-adds a one for every word into 8 counters that start at zero. A clipped
  word is never negative, so the wrap "add 8 where negative" leaves it as it is; read signed it is its own value, which
  is below 8, so every update lands, and it lands on the counter of its class. Counter `k` is therefore zero plus the
  number of flat positions whose class is `k`; the flat positions are the pixels (n, h, w) in row-major order, so that
  number is `totR` (`counts_apply`).
-/
import proofs.«429264_j111669149713_3_alg».proof.Proof.RefRead
import proofs.«429264_j111669149713_3_alg».proof.Proof.Spec
import Idealize.ShloMosaic.Lib.StableHlo.Predicate
import Idealize.ShloMosaic.Lib.ValueIdx
import Idealize.ShloMosaic.Lib.IdealHost

noncomputable section

open scoped BigOperators

namespace Cert.ReferenceIdeal.RefCounts

open Cert.ReferenceIdeal Cert.ReferenceIdeal.ReadP Idealize.ShloMosaic Idealize.ShloMosaic.ValueIdx
open Idealize.ShloMosaic.StableHlo.Predicate

/-! ## The clipped word -/

/-- The clip of the reference is `clipW`: the smaller of 7 and the larger of 0 and the word. -/
theorem clip_apply (x1 : (⟨S16x512x512, .i32⟩ : BufTy).Contents (Elt Ideal)) (i : S16x512x512.Idx) :
    val_main_v0 (F := Ideal) x1 i = Cert.WCE.clipW (x1 i) := by
  rw [val_main_v0_apply, val_main_call0_v4_apply, val_main_call0_v3_apply, val_main_c_0_apply,
    val_main_call0_v2_apply, val_main_call0_v1_apply, val_main_call0_v0_apply, val_main_c_apply]
  rfl

/-- A clipped word reads the same signed and unsigned. -/
theorem clipW_toInt (t : BitVec 32) : (Cert.WCE.clipW t).toInt = ((Cert.WCE.clipW t).toNat : Int) :=
  toInt_eq_toNat_of_lt (by have := Cert.WCE.clipW_lt t; omega)

/-- A clipped word is not negative. -/
theorem clipW_not_neg (t : BitVec 32) : IntOp.cmpi .slt (Cert.WCE.clipW t) 0#32 = 0#1 := by
  apply eq_zero_of_ne_one
  intro h
  have h1 := (slt_iff_toNat (a := Cert.WCE.clipW t) (b := 0#32)
    (by have := Cert.WCE.clipW_lt t; omega) (by decide)).mp h
  have h0 : (0#32 : BitVec 32).toNat = 0 := rfl
  omega

/-- The index word of flat position `f`: the wrap keeps the clipped word. -/
theorem word_apply (x1 : (⟨S16x512x512, .i32⟩ : BufTy).Contents (Elt Ideal)) (f : S4194304.Idx) :
    val_main_v7 (F := Ideal) x1 f = Cert.WCE.clipW (x1 (idx_main_v2 f)) := by
  rw [val_main_v7_apply, val_main_v4_apply, val_main_v2_apply, clip_apply, val_main_v3_apply, val_main_c_1_apply,
    clipW_not_neg, select_zero]

/-! ## Where an update lands: one operand axis, inserted and start-indexed, no window axes -/

section Dims
variable {N n w : Nat} (d : ScatterDims ⟨1, ![N]⟩ ⟨2, ![n, 1]⟩ ⟨1, ![n]⟩)

/-- The operand's one axis is an inserted axis, so it carries no window coordinate. -/
theorem window_zero (hiw : d.insertedWindowDims = [0]) (j : (⟨1, ![n]⟩ : Shape).Idx) : d.window j 0 = 0 := by
  unfold ScatterDims.window
  rw [dif_neg]
  intro h
  have h' : (0 : Fin 1) ∈ (⟨1, ![N]⟩ : Shape).kept d.insertedWindowDims := h
  rw [hiw] at h'
  simp [Shape.kept] at h'

/-- The start on the operand's axis is the index word of the update's row, read signed. -/
theorem start_eq (hsd : d.scatterDimsToOperandDims = [0]) (hivd : d.indexVectorDim = 1)
    (j : (⟨1, ![n]⟩ : Shape).Idx) (idx : IVec ⟨2, ![n, 1]⟩ w) :
    d.start j idx 0 = (idx (ix2 (j 0) (0 : Fin 1))).toInt := by
  have hm : (0 : Fin 1) ∈ d.scatterDimsToOperandDims := by rw [hsd]; exact List.mem_singleton.mpr rfl
  unfold ScatterDims.start
  rw [dif_pos hm]
  congr 2
  funext b
  match b with
  | ⟨0, _⟩ =>
    unfold ScatterDims.siIdx
    rw [dif_neg (by rw [hivd]; simp)]
    unfold ScatterDims.siCoord
    apply Fin.ext
    simp only [Fin.val_cast]
    have e : ∀ X : Fin 1, (j X).val = (j 0).val := fun X => by
      have hX : X = 0 := Subsingleton.elim _ _
      subst hX; rfl
    exact e _
  | ⟨1, _⟩ =>
    unfold ScatterDims.siIdx
    rw [dif_pos (by rw [hivd])]
    apply Fin.ext
    show List.idxOf (0 : Fin 1) d.scatterDimsToOperandDims = 0
    rw [hsd]; simp

/-- Update `j` lands on operand element `i` exactly when its index word, read signed, is `i`'s coordinate. -/
theorem resultIdx?_eq_some_iff (hiw : d.insertedWindowDims = [0]) (hsd : d.scatterDimsToOperandDims = [0])
    (hivd : d.indexVectorDim = 1) (idx : IVec ⟨2, ![n, 1]⟩ w) (j : (⟨1, ![n]⟩ : Shape).Idx)
    (i : (⟨1, ![N]⟩ : Shape).Idx) :
    d.resultIdx? j idx = some i ↔ (idx (ix2 (j 0) (0 : Fin 1))).toInt = ((i 0).val : Int) := by
  have hS : ∀ a : Fin 1, d.start j idx a + d.window j a = (idx (ix2 (j 0) (0 : Fin 1))).toInt := by
    intro a
    obtain rfl : a = 0 := Subsingleton.elim _ _
    rw [start_eq d hsd hivd, window_zero d hiw, Nat.cast_zero, add_zero]
  have hi : (i 0).val < N := (i 0).isLt
  unfold ScatterDims.resultIdx?
  split_ifs with h
  · rw [Option.some.injEq]
    constructor
    · intro e
      have e0 := congrArg Fin.val (congrFun e 0)
      have h0 := h 0
      rw [hS] at h0
      simp only [hS] at e0
      omega
    · intro e
      funext a
      obtain rfl : a = 0 := Subsingleton.elim _ _
      apply Fin.ext
      simp only [hS, e, Int.toNat_natCast]
  · constructor
    · intro e; cases e
    · intro e
      exfalso
      apply h
      intro a
      obtain rfl : a = 0 := Subsingleton.elim _ _
      rw [hS, e]
      constructor
      · omega
      · exact_mod_cast hi

end Dims

/-! ## The flat positions are the pixels -/

theorem idx3_lt0 {n0 n1 n2 : Nat} (j : (⟨3, ![n0, n1, n2]⟩ : Shape).Idx) : (j 0).val < n0 := (j 0).isLt
theorem idx3_lt1 {n0 n1 n2 : Nat} (j : (⟨3, ![n0, n1, n2]⟩ : Shape).Idx) : (j 1).val < n1 := (j 1).isLt
theorem idx3_lt2 {n0 n1 n2 : Nat} (j : (⟨3, ![n0, n1, n2]⟩ : Shape).Idx) : (j 2).val < n2 := (j 2).isLt

/-- A rank-3 index set is the product of its three coordinate ranges … -/
def pixEquiv {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_pix {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (pixEquiv (n0 := n0) (n1 := n1) (n2 := n2)).symm f, Fintype.sum_prod_type]
  refine Finset.sum_congr rfl fun a _ => ?_
  rw [Fintype.sum_prod_type]
  rfl

/-- Flat position `f` is pixel (f / 512², f / 512 mod 512, f mod 512); pixel (n, h, w) is flat position
    (n * 512 + h) * 512 + w. -/
def flatEquiv : S4194304.Idx ≃ S16x512x512.Idx where
  toFun := idx_main_v2
  invFun i := ix1 ⟨((i 0).val * 512 + (i 1).val) * 512 + (i 2).val, by
    have h0 := idx3_lt0 i; have h1 := idx3_lt1 i; have h2 := idx3_lt2 i; omega⟩
  left_inv f := by
    funext a
    match a with
    | ⟨0, _⟩ =>
      apply Fin.ext
      have h0 : (f 0).val < 4194304 := (f 0).isLt
      show (((f 0).val / 262144) * 512 + (f 0).val / 512 % 512) * 512 + (f 0).val % 512 = (f 0).val
      omega
  right_inv i := by
    have h0 := idx3_lt0 i; have h1 := idx3_lt1 i; have h2 := idx3_lt2 i
    funext a
    match a with
    | ⟨0, _⟩ =>
      apply Fin.ext
      show (((i 0).val * 512 + (i 1).val) * 512 + (i 2).val) / 262144 = (i 0).val
      omega
    | ⟨1, _⟩ =>
      apply Fin.ext
      show (((i 0).val * 512 + (i 1).val) * 512 + (i 2).val) / 512 % 512 = (i 1).val
      omega
    | ⟨2, _⟩ =>
      apply Fin.ext
      show (((i 0).val * 512 + (i 1).val) * 512 + (i 2).val) % 512 = (i 2).val
      omega

/-- A sum over the flat positions of a function of the pixel is the sum over the pixels. -/
theorem sum_flat {M : Type*} [AddCommMonoid M] (g : S16x512x512.Idx → M) :
    ∑ f : S4194304.Idx, g (idx_main_v2 f) = ∑ a : Fin 16, ∑ b : Fin 512, ∑ c : Fin 512, g (ix3 a b c) := by
  rw [← sum_pix g]
  exact Fintype.sum_equiv flatEquiv _ _ (fun _ => rfl)

/-! ## The counters -/

section Scatter
variable {s si su : Shape} {w : Nat}

/-- A scatter-add read at an operand element: the element plus every update, each counted where it lands. -/
theorem scatterAdd_apply (d : ScatterDims s si su) (x : FVec Ideal s .f32) (idx : IVec si w) (upd : FVec Ideal su .f32)
    (i : s.Idx) :
    Host.scatterAdd d x idx upd i = x i + ∑ j, if d.resultIdx? j idx = some i then upd j else 0 := by
  show Ideal.hostScatterAdd d x idx upd i = _
  unfold Ideal.hostScatterAdd
  rw [Finset.sum_filter]

end Scatter

/-- The update of flat position `f` lands on counter `k` exactly when the pixel's class is `k`. -/
theorem lands_iff (x1 : (⟨S16x512x512, .i32⟩ : BufTy).Contents (Elt Ideal)) (k : Fin 8) (f : S4194304.Idx) :
    scatter_S8_S4194304x1_S4194304_n_0_0_1.resultIdx? f (val_main_v8 (F := Ideal) x1) = some (ix1 k)
      ↔ Cert.WCE.cls (x1 (idx_main_v2 f)) = k := by
  rw [resultIdx?_eq_some_iff _ rfl rfl rfl, val_main_v8_apply]
  have hf : idx_main_v8 (ix2 (f 0) (0 : Fin 1)) = f := by
    funext a
    match a with
    | ⟨0, _⟩ => rfl
  rw [hf, word_apply, clipW_toInt]
  show ((Cert.WCE.clipW (x1 (idx_main_v2 f))).toNat : Int) = (k.val : Int) ↔ _
  rw [Nat.cast_inj]
  exact (Fin.ext_iff (a := Cert.WCE.cls (x1 (idx_main_v2 f))) (b := k)).symm

/-- Counter `k` is zero plus the number of pixels of class `k`. -/
theorem counts_apply (x1 : (⟨S16x512x512, .i32⟩ : BufTy).Contents (Elt Ideal)) (k : Fin 8) :
    val_main_v10 (F := Ideal) x1 (ix1 k) = 0 + Cert.WCE.totR x1 k := by
  have h10 : val_main_v10 (F := Ideal) x1 (ix1 k) = Host.scatterAdd (F := Ideal) (φ := .f32) (w := 32)
      scatter_S8_S4194304x1_S4194304_n_0_0_1
      (val_main_v1 (F := Ideal)) (val_main_v8 (F := Ideal) x1) (val_main_v9 (F := Ideal)) (ix1 k) := rfl
  have hterm : ∀ f : S4194304.Idx,
      (if scatter_S8_S4194304x1_S4194304_n_0_0_1.resultIdx? f (val_main_v8 (F := Ideal) x1) = some (ix1 k)
        then val_main_v9 (F := Ideal) f else 0) = Cert.WCE.ind (x1 (idx_main_v2 f)) k := by
    intro f
    unfold Cert.WCE.ind
    by_cases hc : Cert.WCE.cls (x1 (idx_main_v2 f)) = k
    · rw [if_pos ((lands_iff x1 k f).mpr hc), if_pos hc, val_main_v9_apply, val_main_cst_3_apply, Ideal.ofBits_def,
        Ideal.ofBits_one_f32]
    · rw [if_neg (fun h => hc ((lands_iff x1 k f).mp h)), if_neg hc]
  rw [h10, scatterAdd_apply, val_main_v1_apply, val_main_cst_apply, Ideal.ofBits_def, Ideal.ofBits_zero_f32,
    Finset.sum_congr rfl (fun f _ => hterm f), sum_flat (fun i => Cert.WCE.ind (x1 i) k)]
  unfold Cert.WCE.totR
  with_reducible rfl

end Cert.ReferenceIdeal.RefCounts

end
-- ==== Proof.RefGather.lean ====
/-
  The reference's two gathers, read at a pixel.

  The reference clips every target word to [0, 7] and uses the clipped word twice as a position: once in the
  table of the 8 class weights (jnp's `table[idx]`), once along the class axis of the log-softmax
  (`take_along_axis`). Both lower to a gather whose start index is the clipped word `t`, first wrapped by
  `select (t < 0) (t + 8) t`, then read signed and clamped into [0, 7]. A clipped word is already one of
  0 … 7, so the wrap keeps it and the clamp keeps it: the position is the class of the pixel. The second
  gather is followed by a select on the mask "0 ≤ t ≤ 7", which is all ones for a clipped word, so the
  gathered value is kept and the fill value is never read.
-/
import proofs.«429264_j111669149713_3_alg».proof.Proof.RefRead
import proofs.«429264_j111669149713_3_alg».proof.Proof.Spec
import Idealize.ShloMosaic.Lib.StableHlo.Predicate
import Idealize.ShloMosaic.Lib.ValueIdx
import Idealize.ShloMosaic.PureOps.Reduce

noncomputable section

namespace Cert.ReferenceIdeal.RefGather

open Cert.ReferenceIdeal Cert.ReferenceIdeal.Gen Cert.ReferenceIdeal.ReadP Idealize.ShloMosaic Idealize.ShloMosaic.ValueIdx
open Idealize.ShloMosaic.StableHlo.Predicate

/-! ## The clipped word -/

/-- The first stage is the clip: `min 7 (max 0 t)`. -/
theorem clip_apply' (x1 : (⟨S16x512x512, .i32⟩ : BufTy).Contents (Elt Ideal)) (i : S16x512x512.Idx) :
    val_main_v0 (F := Ideal) x1 i = Cert.WCE.clipW (x1 i) := by
  rw [val_main_v0_apply, val_main_call0_v4_apply, val_main_call0_v3_apply, val_main_c_0_apply,
    val_main_call0_v2_apply, val_main_call0_v1_apply, val_main_call0_v0_apply, val_main_c_apply]
  rfl

/-- A word below 8 is not negative as a signed word: the compare with 0 is the bit 0. -/
theorem slt_zero_of_lt (c : BitVec 32) (hc : c.toNat < 8) : IntOp.cmpi .slt c 0#32 = 0#1 := by
  refine eq_zero_of_ne_one fun h => ?_
  have := (slt_iff_toNat (a := c) (b := 0#32) (by omega) (by decide)).1 h
  simp at this

/-- The wrap of a negative position, `select (c < 0) (c + 8) c`, keeps a word below 8. -/
theorem wrap_of_lt (c : BitVec 32) (hc : c.toNat < 8) :
    Scalar.select (IntOp.cmpi .slt c 0#32) (IntOp.addi c 8#32) c = c := by
  rw [slt_zero_of_lt c hc, select_zero]

/-- A word below 8, read signed and clamped into [0, 7], is its value. -/
theorem clamp_of_lt (c : BitVec 32) (hc : c.toNat < 8) : min c.toInt.toNat 7 = c.toNat := by
  have h := toInt_eq_toNat_of_lt (a := c) (by omega)
  omega

/-- "0 ≤ c" and "c ≤ 7" both hold for a word below 8. -/
theorem inRange_of_lt (c : BitVec 32) (hc : c.toNat < 8) :
    IntOp.andi (IntOp.cmpi .sge c 0#32) (IntOp.cmpi .sle c 7#32) = 1#1 := by
  have h1 : IntOp.cmpi .sge c 0#32 = 1#1 :=
    (sge_iff_toNat (a := c) (b := 0#32) (by omega) (by decide)).2 (by simp)
  have h2 : IntOp.cmpi .sle c 7#32 = 1#1 :=
    (sle_iff_toNat (a := c) (b := 7#32) (by omega) (by decide)).2 (by
      have : (7#32 : BitVec 32).toNat = 7 := by decide
      omega)
  rw [h1, h2]; rfl

/-! ## The table gather: operand [8], start indices [16, 512, 512, 1], result [16, 512, 512] -/

/-- The start-indices index of pixel (n, h, v): the pixel, with 0 on the index vector's axis. -/
theorem table_siIdx (n : Fin 16) (h v : Fin 512)
    (c : Fin gather_S8_S16x512x512x1_S16x512x512_n_0_n_n_0_3_1.startIndexMap.length) :
    gather_S8_S16x512x512x1_S16x512x512_n_0_n_n_0_3_1.siIdx (ix3 n h v) c = ix4 n h v (0 : Fin 1) := by
  funext b; refine Fin.ext ?_
  have hc : c.val = 0 := by have := c.isLt; change c.val < 1 at this; omega
  match b with
  | ⟨0, _⟩ => rfl
  | ⟨1, _⟩ => rfl
  | ⟨2, _⟩ => rfl
  | ⟨3, _⟩ => exact hc

/-- THE TABLE GATHER AT A PIXEL: the table at the pixel's start index, read signed and clamped into [0, 7]. -/
theorem gather_table {α : Type} {w : Nat} (x : S8.Idx → α) (idx : IVec S16x512x512x1 w) (n : Fin 16) (h v : Fin 512)
    (k : Fin 8) (hk : min (idx (ix4 n h v (0 : Fin 1))).toInt.toNat 7 = k.val) :
    Host.gather gather_S8_S16x512x512x1_S16x512x512_n_0_n_n_0_3_1 x idx (ix3 n h v) = x (ix1 k) := by
  unfold Host.gather
  congr 1
  funext a
  obtain rfl : a = 0 := Subsingleton.elim _ _
  refine Fin.ext ?_
  show gather_S8_S16x512x512x1_S16x512x512_n_0_n_n_0_3_1.start (ix3 n h v) idx 0
    + gather_S8_S16x512x512x1_S16x512x512_n_0_n_n_0_3_1.batchCoord (ix3 n h v) 0
    + gather_S8_S16x512x512x1_S16x512x512_n_0_n_n_0_3_1.offCoord (ix3 n h v) 0 = k.val
  rw [GatherDims.batchCoord_eq_zero _ _ _ List.not_mem_nil,
    GatherDims.offCoord_eq_zero _ _ _ (fun hm => ((GatherDims.mem_sKept _ _).mp hm).1 (List.mem_singleton.mpr rfl))]
  simp only [Nat.add_zero]
  unfold GatherDims.start
  rw [dif_pos (show (0 : Fin 1) ∈ gather_S8_S16x512x512x1_S16x512x512_n_0_n_n_0_3_1.startIndexMap from
    List.mem_singleton.mpr rfl), table_siIdx]
  exact hk

/-- The wrapped position of a pixel is its clipped word. -/
theorem v19_apply (x1 : (⟨S16x512x512, .i32⟩ : BufTy).Contents (Elt Ideal)) (i : S16x512x512.Idx) :
    val_main_v19 (F := Ideal) x1 i = Cert.WCE.clipW (x1 i) := by
  rw [val_main_v19_apply, val_main_v16_apply, val_main_v18_apply, val_main_v15_apply, val_main_c_6_apply,
    val_main_v17_apply, val_main_c_7_apply, clip_apply']
  exact wrap_of_lt _ (Cert.WCE.clipW_lt _)

/-- The weight gathered at pixel (n, h, w) is the weight of the pixel's class. -/
theorem wts_apply (x1 : (⟨S16x512x512, .i32⟩ : BufTy).Contents (Elt Ideal)) (n : Fin 16) (h w : Fin 512) :
    val_main_v21 (F := Ideal) x1 (ix3 n h w) = val_main_v14 (F := Ideal) x1 (ix1 (Cert.WCE.cls (x1 (ix3 n h w)))) := by
  unfold val_main_v21
  refine gather_table _ _ n h w _ ?_
  have e : idx_main_v20 (ix4 n h w (0 : Fin 1)) = ix3 n h w := by
    funext a
    match a with
    | ⟨0, _⟩ => rfl
    | ⟨1, _⟩ => rfl
    | ⟨2, _⟩ => rfl
  rw [val_main_v20_apply, e, v19_apply]
  exact clamp_of_lt _ (Cert.WCE.clipW_lt _)

/-! ## The gather along the class axis: operand [16, 8, 512, 512], start indices [16, 1, 512, 512, 1], result [16, 1, 512, 512]

Operand axes 0, 2, 3 are batching axes paired with the start indices' axes 0, 2, 3; axis 1 is collapsed and is the
one the start index names; the index vector lies on the start indices' axis 4. -/

/-- The start-indices index of result index (n, 0, h, v): the same coordinates, with 0 on the index vector's axis. -/
theorem take_siIdx (n : Fin 16) (h v : Fin 512)
    (c : Fin gather_S16x8x512x512_S16x1x512x512x1_S16x1x512x512_n_1_023_023_1_4_1111.startIndexMap.length) :
    gather_S16x8x512x512_S16x1x512x512x1_S16x1x512x512_n_1_023_023_1_4_1111.siIdx (ix4 n (0 : Fin 1) h v) c
      = ix5 n (0 : Fin 1) h v (0 : Fin 1) := by
  funext b; refine Fin.ext ?_
  have hc : c.val = 0 := by have := c.isLt; change c.val < 1 at this; omega
  match b with
  | ⟨0, _⟩ => rfl
  | ⟨1, _⟩ => rfl
  | ⟨2, _⟩ => rfl
  | ⟨3, _⟩ => rfl
  | ⟨4, _⟩ => exact hc

/-- THE GATHER ALONG THE CLASS AXIS AT (n, 0, h, v): the operand at (n, k, h, v), `k` the start index read signed and
    clamped into [0, 7]. On a batching axis the operand's coordinate is the result's; on the class axis it is the start. -/
theorem gather_class {α : Type} {w : Nat} (x : S16x8x512x512.Idx → α) (idx : IVec S16x1x512x512x1 w) (n : Fin 16)
    (h v : Fin 512) (k : Fin 8) (hk : min (idx (ix5 n (0 : Fin 1) h v (0 : Fin 1))).toInt.toNat 7 = k.val) :
    Host.gather gather_S16x8x512x512_S16x1x512x512x1_S16x1x512x512_n_1_023_023_1_4_1111 x idx (ix4 n (0 : Fin 1) h v)
      = x (ix4 n k h v) := by
  unfold Host.gather
  congr 1
  funext a
  refine Fin.ext ?_
  have hkept : ∀ a : Fin 4, a ∉ gather_S16x8x512x512_S16x1x512x512x1_S16x1x512x512_n_1_023_023_1_4_1111.sKept := by
    intro a hm
    have h2 := (GatherDims.mem_sKept _ _).mp hm
    have hc : a ∉ ([1] : List (Fin 4)) := h2.1
    have hb : a ∉ ([0, 2, 3] : List (Fin 4)) := h2.2
    revert hc hb; revert a; decide
  match a with
  | ⟨0, _⟩ =>
    show gather_S16x8x512x512_S16x1x512x512x1_S16x1x512x512_n_1_023_023_1_4_1111.start (ix4 n (0 : Fin 1) h v) idx 0
      + gather_S16x8x512x512_S16x1x512x512x1_S16x1x512x512_n_1_023_023_1_4_1111.batchCoord (ix4 n (0 : Fin 1) h v) 0
      + gather_S16x8x512x512_S16x1x512x512x1_S16x1x512x512_n_1_023_023_1_4_1111.offCoord (ix4 n (0 : Fin 1) h v) 0 = n.val
    rw [GatherDims.start_batching _ _ _ _ (show (0 : Fin 4) ∈ ([0, 2, 3] : List (Fin 4)) by decide),
      GatherDims.offCoord_eq_zero _ _ _ (hkept 0), Nat.zero_add, Nat.add_zero]
    rfl
  | ⟨1, _⟩ =>
    show gather_S16x8x512x512_S16x1x512x512x1_S16x1x512x512_n_1_023_023_1_4_1111.start (ix4 n (0 : Fin 1) h v) idx 1
      + gather_S16x8x512x512_S16x1x512x512x1_S16x1x512x512_n_1_023_023_1_4_1111.batchCoord (ix4 n (0 : Fin 1) h v) 1
      + gather_S16x8x512x512_S16x1x512x512x1_S16x1x512x512_n_1_023_023_1_4_1111.offCoord (ix4 n (0 : Fin 1) h v) 1 = k.val
    rw [GatherDims.batchCoord_eq_zero _ _ _ (show (1 : Fin 4) ∉ ([0, 2, 3] : List (Fin 4)) by decide),
      GatherDims.offCoord_eq_zero _ _ _ (hkept 1), Nat.add_zero]
    unfold GatherDims.start
    rw [dif_pos (show (1 : Fin 4) ∈ gather_S16x8x512x512_S16x1x512x512x1_S16x1x512x512_n_1_023_023_1_4_1111.startIndexMap from
      List.mem_singleton.mpr rfl), take_siIdx]
    exact hk
  | ⟨2, _⟩ =>
    show gather_S16x8x512x512_S16x1x512x512x1_S16x1x512x512_n_1_023_023_1_4_1111.start (ix4 n (0 : Fin 1) h v) idx 2
      + gather_S16x8x512x512_S16x1x512x512x1_S16x1x512x512_n_1_023_023_1_4_1111.batchCoord (ix4 n (0 : Fin 1) h v) 2
      + gather_S16x8x512x512_S16x1x512x512x1_S16x1x512x512_n_1_023_023_1_4_1111.offCoord (ix4 n (0 : Fin 1) h v) 2 = h.val
    rw [GatherDims.start_batching _ _ _ _ (show (2 : Fin 4) ∈ ([0, 2, 3] : List (Fin 4)) by decide),
      GatherDims.offCoord_eq_zero _ _ _ (hkept 2), Nat.zero_add, Nat.add_zero]
    rfl
  | ⟨3, _⟩ =>
    show gather_S16x8x512x512_S16x1x512x512x1_S16x1x512x512_n_1_023_023_1_4_1111.start (ix4 n (0 : Fin 1) h v) idx 3
      + gather_S16x8x512x512_S16x1x512x512x1_S16x1x512x512_n_1_023_023_1_4_1111.batchCoord (ix4 n (0 : Fin 1) h v) 3
      + gather_S16x8x512x512_S16x1x512x512x1_S16x1x512x512_n_1_023_023_1_4_1111.offCoord (ix4 n (0 : Fin 1) h v) 3 = v.val
    rw [GatherDims.start_batching _ _ _ _ (show (3 : Fin 4) ∈ ([0, 2, 3] : List (Fin 4)) by decide),
      GatherDims.offCoord_eq_zero _ _ _ (hkept 3), Nat.zero_add, Nat.add_zero]
    rfl

/-! ## The position and the mask of the second gather -/

/-- The wrapped position at any index of the [16, 1, 512, 512] array is the clipped word of the pixel it names. -/
theorem call2_v4_apply' (x1 : (⟨S16x512x512, .i32⟩ : BufTy).Contents (Elt Ideal)) (i : S16x1x512x512.Idx) :
    val_main_call2_v4 (F := Ideal) x1 i = Cert.WCE.clipW (x1 (idx_main_v23 i)) := by
  rw [val_main_call2_v4_apply, val_main_call2_v1_apply, val_main_call2_v3_apply, val_main_call2_v0_apply,
    val_main_call2_c_apply, val_main_call2_v2_apply, val_main_call2_c_0_apply, val_main_v23_apply, clip_apply']
  exact wrap_of_lt _ (Cert.WCE.clipW_lt _)

/-- "0 ≤ position ≤ 7" holds at every index: the position is a clipped word. -/
theorem call2_v11_one (x1 : (⟨S16x512x512, .i32⟩ : BufTy).Contents (Elt Ideal)) (i : S16x1x512x512x1.Idx) :
    val_main_call2_v11 (F := Ideal) x1 i = 1#1 := by
  rw [val_main_call2_v11_apply, val_main_call2_v7_apply, val_main_call2_v10_apply, val_main_call2_v6_apply,
    val_main_call2_c_2_apply, val_main_call2_v9_apply, val_main_call2_v8_apply, val_main_call2_c_1_apply,
    val_main_call2_v5_apply, call2_v4_apply']
  exact inRange_of_lt _ (Cert.WCE.clipW_lt _)

/-- A fold of `and` from the bit 1 over bits that are all 1 is 1. -/
theorem fold_andi_ones {ι : Type} (S : Finset ι) (f : ι → BitVec 1) (hf : ∀ i ∈ S, f i = 1#1) :
    S.fold IntOp.andi 1#1 f = 1#1 := by
  induction S using Finset.cons_induction with
  | empty => rfl
  | cons a S ha ih =>
    rw [Finset.fold_cons, hf a (Finset.mem_cons_self a S), ih fun i hi => hf i (Finset.mem_cons.2 (Or.inr hi))]
    rfl

/-- The mask, the and-reduce of those bits over the trailing unit axis, is 1 at every index. -/
theorem call2_v12_one (x1 : (⟨S16x512x512, .i32⟩ : BufTy).Contents (Elt Ideal)) (j : S16x1x512x512.Idx) :
    val_main_call2_v12 (F := Ideal) x1 j = 1#1 := by
  unfold val_main_call2_v12
  rw [Host.reduce_eq_fold, val_main_call2_c_3_apply]
  exact fold_andi_ones _ _ fun i _ => call2_v11_one x1 i

/-- The log-softmax taken at pixel (n, h, w) is the log-softmax at the pixel's class: the mask is 1, so the select keeps
    the gathered value, and the gather reads the class axis at the clipped word. -/
theorem lp_apply (x0 : (⟨S16x8x512x512, .f32⟩ : BufTy).Contents (Elt Ideal)) (x1 : (⟨S16x512x512, .i32⟩ : BufTy).Contents (Elt Ideal))
    (n : Fin 16) (h w : Fin 512) :
    val_main_v24 (F := Ideal) x0 x1 (ix4 n 0 h w)
      = val_main_v22 (F := Ideal) x0 (ix4 n (Cert.WCE.cls (x1 (ix3 n h w))) h w) := by
  rw [val_main_v24_apply, call2_v12_one, select_one]
  unfold val_main_call2_v13
  refine gather_class _ _ n h w _ ?_
  have e : idx_main_v23 (idx_main_call2_v5 (ix5 n (0 : Fin 1) h w (0 : Fin 1))) = ix3 n h w := by
    have hn := n.isLt; have hh := h.isLt; have hw := w.isLt
    funext a; refine Fin.ext ?_
    match a with
    | ⟨0, _⟩ =>
      show ((((n.val * 1 + 0) * 512 + h.val) * 512 + w.val) * 1 + 0) / 262144 = n.val
      omega
    | ⟨1, _⟩ =>
      show ((((n.val * 1 + 0) * 512 + h.val) * 512 + w.val) * 1 + 0) / 512 % 512 = h.val
      omega
    | ⟨2, _⟩ =>
      show ((((n.val * 1 + 0) * 512 + h.val) * 512 + w.val) * 1 + 0) % 512 = w.val
      omega
  rw [val_main_call2_v5_apply, call2_v4_apply', e]
  exact clamp_of_lt _ (Cert.WCE.clipW_lt _)

end Cert.ReferenceIdeal.RefGather

end
-- ==== Proof.RefLsm.lean ====
/-
  The reference's log-softmax, read at an index.

  The reference forms, for the logits x (indexed (n, class, h, w)):
    M(n, h, w)  = max (−∞) (the maximum over the 8 classes of x(n, ·, h, w), folded from −∞),
    d(n, c, h, w) = x(n, c, h, w) − M(n, h, w),
    S(n, h, w)  = 0 + the sum over the 8 classes of exp d(n, ·, h, w),
    result(n, k, h, w) = d(n, k, h, w) − log S(n, h, w),
  with M and S carried through a size-one class axis and broadcast back over the 8 classes. Read at
  (n, k, h, w) this is the log-softmax of the 8 logits of pixel (n, h, w) at class k.
-/
import proofs.«429264_j111669149713_3_alg».proof.Proof.RefRead
import proofs.«429264_j111669149713_3_alg».proof.Proof.Spec
import Idealize.ShloMosaic.PureOps.Reduce
import Idealize.ShloMosaic.PureOps.Ideal.Laws
import Idealize.ShloMosaic.Lib.ValueIdx

noncomputable section

namespace Cert.ReferenceIdeal.RefLsm

open Cert.ReferenceIdeal Cert.ReferenceIdeal.Gen Cert.ReferenceIdeal.ReadP Idealize.ShloMosaic Idealize.ShloMosaic.ValueIdx

/-! ## The composed index functions at (n, k, h, w) and (n, h, w) -/

/-- Broadcasting over the class axis reads the size-one class axis at 0. -/
theorem idx_v4_ix4 (n : Fin 16) (k : Fin 8) (h w : Fin 512) :
    idx_main_call1_v4 (ix4 n k h w) = ix4 n (0 : Fin 1) h w :=
  funext fun a => Fin.ext (by match a with | ⟨0, _⟩ => rfl | ⟨1, _⟩ => rfl | ⟨2, _⟩ => rfl | ⟨3, _⟩ => rfl)

theorem idx_v10_ix4 (n : Fin 16) (k : Fin 8) (h w : Fin 512) :
    idx_main_call1_v10 (ix4 n k h w) = ix4 n (0 : Fin 1) h w :=
  funext fun a => Fin.ext (by match a with | ⟨0, _⟩ => rfl | ⟨1, _⟩ => rfl | ⟨2, _⟩ => rfl | ⟨3, _⟩ => rfl)

/-- Inserting the size-one class axis reads the pixel (n, h, w). -/
theorem idx_v3_ix4 (n : Fin 16) (z : Fin 1) (h w : Fin 512) :
    idx_main_call1_v3 (ix4 n z h w) = ix3 n h w :=
  funext fun a => Fin.ext (by match a with | ⟨0, _⟩ => rfl | ⟨1, _⟩ => rfl | ⟨2, _⟩ => rfl)

theorem idx_v8_ix4 (n : Fin 16) (z : Fin 1) (h w : Fin 512) :
    idx_main_call1_v8 (ix4 n z h w) = ix3 n h w :=
  funext fun a => Fin.ext (by match a with | ⟨0, _⟩ => rfl | ⟨1, _⟩ => rfl | ⟨2, _⟩ => rfl)

/-- The sum over the class axis at pixel (n, h, w) reads class c at (n, c, h, w). -/
theorem idx_v7_ix3 (n : Fin 16) (h w : Fin 512) (c : Fin 8) :
    idx_main_call1_v7 (ix3 n h w) c = ix4 n c h w :=
  funext fun a => Fin.ext (by match a with | ⟨0, _⟩ => rfl | ⟨1, _⟩ => rfl | ⟨2, _⟩ => rfl | ⟨3, _⟩ => rfl)

/-- The pixel (n, h, w) with class c put back on the class axis is (n, c, h, w). -/
theorem lift_ix3 (hr : S16x8x512x512.Reduces [1] S16x512x512) (n : Fin 16) (h w : Fin 512)
    (c : Fin (S16x8x512x512.size 1)) :
    hr.lift (ix3 n h w) c = ix4 n (⟨c.val, c.isLt⟩ : Fin 8) h w :=
  funext fun a => Fin.ext (by match a with | ⟨0, _⟩ => rfl | ⟨1, _⟩ => rfl | ⟨2, _⟩ => rfl | ⟨3, _⟩ => rfl)

/-! ## The maximum over the classes -/

/-- The word of −∞ is the bottom element, and the maximum with it is the other operand. -/
theorem max_negInf (y : EReal) : max (Ideal.ofBits .f32 0xFF800000#32) y = y := by
  simp [Ideal.ofBits, Ideal.ieee]

/-- From −∞ the host's reduce with a maximum body over the class axis, at pixel (n, h, w), is the largest of the
    pixel's 8 logits. -/
theorem hostReduce_max_classes (x : FVec Ideal ⟨4, ![16, 8, 512, 512]⟩ .f32)
    (h' : (⟨4, ![16, 8, 512, 512]⟩ : Shape).ReducesTo [1] (⟨3, ![16, 512, 512]⟩ : Shape))
    (hu : 0 < (⟨0, ![]⟩ : Shape).numel) (n : Fin 16) (h w : Fin 512) :
    Host.reduce FloatOps.maximumf x (constant (⟨0, ![]⟩ : Shape) .f32 0xFF800000#32) h' hu (ix3 n h w)
      = Cert.WCE.mxOf (fun c => x (ix4 n c h w)) := by
  have hr : (⟨4, ![16, 8, 512, 512]⟩ : Shape).Reduces [1] (⟨3, ![16, 512, 512]⟩ : Shape) := by decide
  rw [Host.reduce_eq_fold_single FloatOps.maximumf x _ h' hr hu]
  have hf : (x ∘ hr.lift (ix3 n h w)) = fun c : Fin 8 => x (ix4 n c h w) :=
    funext fun c => congrArg x (lift_ix3 hr n h w c)
  have hb : Ideal.ofBits .f32 0xFF800000#32 = (⊥ : EReal) := by simp [Ideal.ofBits, Ideal.ieee]
  unfold Cert.WCE.mxOf
  rw [← hb]
  exact congrArg (fun f => Finset.fold max (Ideal.ofBits .f32 0xFF800000#32) f (Finset.univ : Finset (Fin 8))) hf

/-- The maximum-reduce over the class axis, from −∞, at pixel (n, h, w): the largest of its 8 logits. -/
theorem v0_apply (x0 : (⟨S16x8x512x512, .f32⟩ : BufTy).Contents (Elt Ideal)) (n : Fin 16) (h w : Fin 512) :
    val_main_call1_v0 (F := Ideal) x0 (ix3 n h w) = Cert.WCE.mxOf (fun c => x0 (ix4 n c h w)) :=
  hostReduce_max_classes x0 _ _ n h w

/-- The reference's maximum M at pixel (n, h, w): the maximum of −∞ and the reduced maximum. -/
theorem v2_apply (x0 : (⟨S16x8x512x512, .f32⟩ : BufTy).Contents (Elt Ideal)) (n : Fin 16) (h w : Fin 512) :
    val_main_call1_v2 (F := Ideal) x0 (ix3 n h w) = Cert.WCE.mxOf (fun c => x0 (ix4 n c h w)) := by
  rw [val_main_call1_v2_apply, val_main_call1_v1_apply, val_main_call1_cst_0_apply, v0_apply]
  exact max_negInf _

/-- M broadcast back over the classes. -/
theorem v4_apply (x0 : (⟨S16x8x512x512, .f32⟩ : BufTy).Contents (Elt Ideal)) (n : Fin 16) (k : Fin 8) (h w : Fin 512) :
    val_main_call1_v4 (F := Ideal) x0 (ix4 n k h w) = Cert.WCE.mxOf (fun c => x0 (ix4 n c h w)) := by
  rw [val_main_call1_v4_apply, idx_v4_ix4, val_main_call1_v3_apply, idx_v3_ix4, v2_apply]

/-- The shifted logit d(n, k, h, w) = x(n, k, h, w) − M(n, h, w). -/
theorem v5_apply (x0 : (⟨S16x8x512x512, .f32⟩ : BufTy).Contents (Elt Ideal)) (n : Fin 16) (k : Fin 8) (h w : Fin 512) :
    val_main_call1_v5 (F := Ideal) x0 (ix4 n k h w)
      = x0 (ix4 n k h w) - Cert.WCE.mxOf (fun c => x0 (ix4 n c h w)) := by
  rw [val_main_call1_v5_apply, v4_apply]
  rfl

/-- The sum S(n, h, w) of the shifted exponentials over the classes. -/
theorem v7_apply (x0 : (⟨S16x8x512x512, .f32⟩ : BufTy).Contents (Elt Ideal)) (n : Fin 16) (h w : Fin 512) :
    val_main_call1_v7 (F := Ideal) x0 (ix3 n h w) = Cert.WCE.seOf (fun c => x0 (ix4 n c h w)) := by
  rw [val_main_call1_v7_apply, val_main_call1_cst_1_apply]
  unfold Cert.WCE.seOf
  refine Eq.trans (congrArg (· + _) Ideal.ofBits_zero_f32) ?_
  rw [zero_add]
  refine Finset.sum_congr rfl fun c _ => ?_
  rw [idx_v7_ix3, val_main_call1_v6_apply, v5_apply]
  rfl

/-- log S broadcast back over the classes. -/
theorem v10_apply (x0 : (⟨S16x8x512x512, .f32⟩ : BufTy).Contents (Elt Ideal)) (n : Fin 16) (k : Fin 8) (h w : Fin 512) :
    val_main_call1_v10 (F := Ideal) x0 (ix4 n k h w) = Ideal.log (Cert.WCE.seOf (fun c => x0 (ix4 n c h w))) := by
  rw [val_main_call1_v10_apply, idx_v10_ix4, val_main_call1_v9_apply, val_main_call1_v8_apply, idx_v8_ix4, v7_apply]
  rfl

/-- The reference's log_softmax at (n, k, h, w) is the log-softmax of pixel (n, h, w) at class k. -/
theorem lsm_apply (x0 : (⟨S16x8x512x512, .f32⟩ : BufTy).Contents (Elt Ideal)) (n : Fin 16) (k : Fin 8) (h w : Fin 512) :
    val_main_v22 (F := Ideal) x0 (ix4 n k h w) = Cert.WCE.lsm x0 n k h w := by
  rw [val_main_v22_apply, v5_apply, v10_apply]
  rfl

end Cert.ReferenceIdeal.RefLsm

end
-- ==== Proof.RefFinal.lean ====
/-
  The reference's result as the specification's `resR`.

  The reference's last stages are read from the end: the result is minus the quotient by sixteen of the sum over the 16
  rows of a per-row quotient; a row's numerator and denominator are sums over the 262144 flattened pixels of the row,
  which are re-indexed as double sums over the 512 image rows and 512 columns (a flat pixel `q` is the pixel
  `(q / 512, q % 512)`); a pixel's term is the log-softmax at the pixel's class times the class's weight, respectively
  the weight alone; the weight of class `k` is `1 / (count of k + eps)`.

  The four stages whose element depends on an operand's values (the class counts, the two gathers, the log-softmax)
  enter as hypotheses.
-/
import proofs.«429264_j111669149713_3_alg».proof.Proof.RefRead
import proofs.«429264_j111669149713_3_alg».proof.Proof.Spec

noncomputable section

namespace Cert.ReferenceIdeal.RefFinal

open Cert.ReferenceIdeal Cert.ReferenceIdeal.Gen Cert.ReferenceIdeal.ReadP Idealize.ShloMosaic Idealize.ShloMosaic.ValueIdx

/-! ## Sums over index sets as sums over coordinates -/

/-- A rank-1 index set is its coordinate range, so a sum over it is the sum over the coordinate. -/
theorem sum_idx1 {n : Nat} (f : (⟨1, ![n]⟩ : Shape).Idx → EReal) : ∑ i, f i = ∑ a : Fin n, f (ix1 a) := by
  let e : (⟨1, ![n]⟩ : Shape).Idx ≃ Fin n :=
    { toFun := fun i => i 0, invFun := ix1, left_inv := fun i => (eq_ix1 i).symm, right_inv := fun _ => rfl }
  exact (Equiv.sum_comp e.symm f).symm

/-- A flat pixel `q` of a 512 x 512 image is the pixel `(q / 512, q % 512)`, and this is a bijection. -/
def unflat : Fin 262144 ≃ Fin 512 × Fin 512 where
  toFun q := (⟨q.val / 512, by have := q.isLt; omega⟩, ⟨q.val % 512, by omega⟩)
  invFun p := ⟨p.1.val * 512 + p.2.val, by have := p.1.isLt; have := p.2.isLt; omega⟩
  left_inv q := Fin.ext (by show q.val / 512 * 512 + q.val % 512 = q.val; omega)
  right_inv p := by
    have h1 := p.1.isLt; have h2 := p.2.isLt
    refine Prod.ext (Fin.ext ?_) (Fin.ext ?_)
    · show (p.1.val * 512 + p.2.val) / 512 = p.1.val; omega
    · show (p.1.val * 512 + p.2.val) % 512 = p.2.val; omega

/-- The sum over the flat pixels is the double sum over image rows and columns. -/
theorem sum_unflat (g : Fin 512 → Fin 512 → EReal) :
    ∑ q : Fin 262144, g ⟨q.val / 512, by have := q.isLt; omega⟩ ⟨q.val % 512, by omega⟩ = ∑ h : Fin 512, ∑ w : Fin 512, g h w := by
  rw [← Fintype.sum_prod_type' g]
  exact Fintype.sum_equiv unflat _ _ (fun q => rfl)

/-! ## The composed index functions as coordinates -/

/-- Flat pixel `q` of row `n` is the pixel `(n, q / 512, q % 512)` (numerator's reshape). -/
theorem idx27_28 (n : Fin 16) (q : Fin 262144) :
    idx_main_v27 (idx_main_v28 (ix1 n) q) = ix3 n ⟨q.val / 512, by have := q.isLt; omega⟩ ⟨q.val % 512, by omega⟩ := by
  have hn := n.isLt; have hq := q.isLt
  funext a
  match a with
  | ⟨0, _⟩ => exact Fin.ext (by show (n.val * 262144 + q.val) / 262144 = n.val; omega)
  | ⟨1, _⟩ => exact Fin.ext (by show (n.val * 262144 + q.val) / 512 % 512 = q.val / 512; omega)
  | ⟨2, _⟩ => exact Fin.ext (by show (n.val * 262144 + q.val) % 512 = q.val % 512; omega)

/-- The same for the denominator's reshape. -/
theorem idx29_30 (n : Fin 16) (q : Fin 262144) :
    idx_main_v29 (idx_main_v30 (ix1 n) q) = ix3 n ⟨q.val / 512, by have := q.isLt; omega⟩ ⟨q.val % 512, by omega⟩ := by
  have hn := n.isLt; have hq := q.isLt
  funext a
  match a with
  | ⟨0, _⟩ => exact Fin.ext (by show (n.val * 262144 + q.val) / 262144 = n.val; omega)
  | ⟨1, _⟩ => exact Fin.ext (by show (n.val * 262144 + q.val) / 512 % 512 = q.val / 512; omega)
  | ⟨2, _⟩ => exact Fin.ext (by show (n.val * 262144 + q.val) % 512 = q.val % 512; omega)

/-- Dropping the unit class axis: pixel `(n, h, w)` reads `(n, 0, h, w)`. -/
theorem idx25 (n : Fin 16) (h w : Fin 512) : idx_main_v25 (ix3 n h w) = ix4 n 0 h w := by
  have hn := n.isLt; have hh := h.isLt; have hw := w.isLt
  funext a
  match a with
  | ⟨0, _⟩ => exact Fin.ext (by show ((n.val * 512 + h.val) * 512 + w.val) / 262144 = n.val; omega)
  | ⟨1, _⟩ => exact Fin.ext (by rfl)
  | ⟨2, _⟩ => exact Fin.ext (by show ((n.val * 512 + h.val) * 512 + w.val) / 512 % 512 = h.val; omega)
  | ⟨3, _⟩ => exact Fin.ext (by show ((n.val * 512 + h.val) * 512 + w.val) % 512 = w.val; omega)

/-! ## The stages at an index -/

section Stages

variable (x0 : (⟨S16x8x512x512, .f32⟩ : BufTy).Contents (Elt Ideal)) (x1 : (⟨S16x512x512, .i32⟩ : BufTy).Contents (Elt Ideal))

/-- The weight of class `k`: one over the class's count plus eps. -/
theorem weight_apply
    (hcnt : ∀ (k : Fin 8), val_main_v10 (F := Ideal) x1 (ix1 k) = 0 + Cert.WCE.totR x1 k)
    (k : Fin 8) : val_main_v14 (F := Ideal) x1 (ix1 k) = Cert.WCE.wtR x1 k := by
  rw [val_main_v14_apply, val_main_v13_apply, val_main_cst_5_apply, val_main_v12_apply, hcnt k, val_main_v11_apply,
    val_main_cst_4_apply]
  rfl

/-- The weight of pixel `(n, h, w)` is the weight of its class. -/
theorem pixel_weight_apply
    (hcnt : ∀ (k : Fin 8), val_main_v10 (F := Ideal) x1 (ix1 k) = 0 + Cert.WCE.totR x1 k)
    (hwt : ∀ (n : Fin 16) (h w : Fin 512), val_main_v21 (F := Ideal) x1 (ix3 n h w) = val_main_v14 (F := Ideal) x1 (ix1 (Cert.WCE.cls (x1 (ix3 n h w)))))
    (n : Fin 16) (h w : Fin 512) :
    val_main_v21 (F := Ideal) x1 (ix3 n h w) = Cert.WCE.wtR x1 (Cert.WCE.cls (x1 (ix3 n h w))) := by
  rw [hwt n h w, weight_apply x1 hcnt]

/-- The weighted log-probability of pixel `(n, h, w)`. -/
theorem pixel_term_apply
    (hcnt : ∀ (k : Fin 8), val_main_v10 (F := Ideal) x1 (ix1 k) = 0 + Cert.WCE.totR x1 k)
    (hwt : ∀ (n : Fin 16) (h w : Fin 512), val_main_v21 (F := Ideal) x1 (ix3 n h w) = val_main_v14 (F := Ideal) x1 (ix1 (Cert.WCE.cls (x1 (ix3 n h w)))))
    (hlp : ∀ (n : Fin 16) (h w : Fin 512), val_main_v24 (F := Ideal) x0 x1 (ix4 n 0 h w) = val_main_v22 (F := Ideal) x0 (ix4 n (Cert.WCE.cls (x1 (ix3 n h w))) h w))
    (hlsm : ∀ (n : Fin 16) (k : Fin 8) (h w : Fin 512), val_main_v22 (F := Ideal) x0 (ix4 n k h w) = Cert.WCE.lsm x0 n k h w)
    (n : Fin 16) (h w : Fin 512) :
    val_main_v26 (F := Ideal) x0 x1 (ix3 n h w)
      = Cert.WCE.lsm x0 n (Cert.WCE.cls (x1 (ix3 n h w))) h w * Cert.WCE.wtR x1 (Cert.WCE.cls (x1 (ix3 n h w))) := by
  rw [val_main_v26_apply, val_main_v25_apply, idx25, hlp n h w, hlsm, pixel_weight_apply x1 hcnt hwt]
  rfl

/-- Row `n`'s numerator: the sum over its pixels of the weighted log-probabilities. -/
theorem num_apply
    (hcnt : ∀ (k : Fin 8), val_main_v10 (F := Ideal) x1 (ix1 k) = 0 + Cert.WCE.totR x1 k)
    (hwt : ∀ (n : Fin 16) (h w : Fin 512), val_main_v21 (F := Ideal) x1 (ix3 n h w) = val_main_v14 (F := Ideal) x1 (ix1 (Cert.WCE.cls (x1 (ix3 n h w)))))
    (hlp : ∀ (n : Fin 16) (h w : Fin 512), val_main_v24 (F := Ideal) x0 x1 (ix4 n 0 h w) = val_main_v22 (F := Ideal) x0 (ix4 n (Cert.WCE.cls (x1 (ix3 n h w))) h w))
    (hlsm : ∀ (n : Fin 16) (k : Fin 8) (h w : Fin 512), val_main_v22 (F := Ideal) x0 (ix4 n k h w) = Cert.WCE.lsm x0 n k h w)
    (n : Fin 16) : val_main_v28 (F := Ideal) x0 x1 (ix1 n) = Cert.WCE.numR x0 x1 n := by
  rw [val_main_v28_apply, val_main_cst_8_apply, Ideal.ofBits_def, Ideal.ofBits_zero_f32]
  refine congrArg (0 + ·) ((Finset.sum_congr rfl fun q _ => ?_).trans
    (sum_unflat fun h w => Cert.WCE.lsm x0 n (Cert.WCE.cls (x1 (ix3 n h w))) h w * Cert.WCE.wtR x1 (Cert.WCE.cls (x1 (ix3 n h w)))))
  rw [val_main_v27_apply, idx27_28, pixel_term_apply x0 x1 hcnt hwt hlp hlsm]

/-- Row `n`'s denominator: the sum over its pixels of the weights. -/
theorem den_apply
    (hcnt : ∀ (k : Fin 8), val_main_v10 (F := Ideal) x1 (ix1 k) = 0 + Cert.WCE.totR x1 k)
    (hwt : ∀ (n : Fin 16) (h w : Fin 512), val_main_v21 (F := Ideal) x1 (ix3 n h w) = val_main_v14 (F := Ideal) x1 (ix1 (Cert.WCE.cls (x1 (ix3 n h w)))))
    (n : Fin 16) : val_main_v30 (F := Ideal) x1 (ix1 n) = Cert.WCE.denR x1 n := by
  rw [val_main_v30_apply, val_main_cst_9_apply, Ideal.ofBits_def, Ideal.ofBits_zero_f32]
  refine congrArg (0 + ·) ((Finset.sum_congr rfl fun q _ => ?_).trans
    (sum_unflat fun h w => Cert.WCE.wtR x1 (Cert.WCE.cls (x1 (ix3 n h w)))))
  rw [val_main_v29_apply, idx29_30, pixel_weight_apply x1 hcnt hwt]

/-- The result: minus the mean over the 16 rows of numerator over denominator. -/
theorem result_apply
    (hcnt : ∀ (k : Fin 8), val_main_v10 (F := Ideal) x1 (ix1 k) = 0 + Cert.WCE.totR x1 k)
    (hwt : ∀ (n : Fin 16) (h w : Fin 512), val_main_v21 (F := Ideal) x1 (ix3 n h w) = val_main_v14 (F := Ideal) x1 (ix1 (Cert.WCE.cls (x1 (ix3 n h w)))))
    (hlp : ∀ (n : Fin 16) (h w : Fin 512), val_main_v24 (F := Ideal) x0 x1 (ix4 n 0 h w) = val_main_v22 (F := Ideal) x0 (ix4 n (Cert.WCE.cls (x1 (ix3 n h w))) h w))
    (hlsm : ∀ (n : Fin 16) (k : Fin 8) (h w : Fin 512), val_main_v22 (F := Ideal) x0 (ix4 n k h w) = Cert.WCE.lsm x0 n k h w) :
    val_main_v34 (F := Ideal) x0 x1 ix0 = Cert.WCE.resR x0 x1 := by
  rw [val_main_v34_apply, val_main_v33_apply, val_main_v32_apply, val_main_cst_10_apply, val_main_cst_11_apply,
    sum_idx1 (n := 16)]
  have hrow : ∀ n : Fin 16, val_main_v31 (F := Ideal) x0 x1 (ix1 n)
      = Ideal.div (Cert.WCE.numR x0 x1 n) (Cert.WCE.denR x1 n) := by
    intro n
    rw [val_main_v31_apply, num_apply x0 x1 hcnt hwt hlp hlsm, den_apply x1 hcnt hwt]
    rfl
  rw [Finset.sum_congr rfl (fun n _ => hrow n), Ideal.ofBits_def, Ideal.ofBits_zero_f32]
  rfl

end Stages

end Cert.ReferenceIdeal.RefFinal

end
-- ==== Proof.RefValue.lean ====
/-
  The reference program's result is the pixel-by-pixel weighted cross-entropy of its two argument arrays.

  Its run ends with the result buffer at the last stage of the operation chain; that stage, read at its one
  index, is `resR`: the histogram stage is the class counts, the two gathers read the weight and the
  log-softmax at the pixel's own class, and the two row sums run over the 512 x 512 pixels.
-/
import proofs.«429264_j111669149713_3_alg».proof.Proof.RefRun
import proofs.«429264_j111669149713_3_alg».proof.Proof.RefCounts
import proofs.«429264_j111669149713_3_alg».proof.Proof.RefGather
import proofs.«429264_j111669149713_3_alg».proof.Proof.RefLsm
import proofs.«429264_j111669149713_3_alg».proof.Proof.RefFinal

noncomputable section

namespace Cert.ReferenceIdeal.RefValue

open Cert.ReferenceIdeal Cert.ReferenceIdeal.ReadP Idealize.ShloMosaic Idealize.ShloMosaic.ValueIdx Idealize.SL.Sem

/-- The last stage is the constant array (of rank 0) holding `resR`. -/
theorem result_eq (x0 : (⟨S16x8x512x512, .f32⟩ : BufTy).Contents (Elt Ideal)) (x1 : (⟨S16x512x512, .i32⟩ : BufTy).Contents (Elt Ideal)) :
    val_main_v34 (F := Ideal) x0 x1 = fun _ => Cert.WCE.resR x0 x1 := by
  funext i
  rw [eq_ix0 i]
  exact RefFinal.result_apply x0 x1 (RefCounts.counts_apply x1) (RefGather.wts_apply x1) (RefGather.lp_apply x0 x1)
    (RefLsm.lsm_apply x0)

/-- Every weakly fair execution of the reference ends with its result at `resR` of the arguments, which it leaves
    unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v34)
          = (fun _ => Cert.WCE.resR (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (result_eq _ _), (h c).2⟩) (RefRun.run (F := Ideal) m ρ)

end Cert.ReferenceIdeal.RefValue

end
-- ==== Proof.lean ====
/-
  The certificate: a weighted cross-entropy with inverse-frequency class weights, computed two ways.

  Both programs clip each target word to a class in 0 … 7, take the log-softmax of the eight logits of
  every pixel, weight a pixel by 1 / (number of pixels of its class in the whole batch + eps), and return
  minus the mean over the 16 batch rows of (weighted sum of the target-class log-probabilities) / (sum of
  the weights). The reference weights pixel by pixel: a histogram by scatter-add, the weights and the
  target-class log-probabilities by gathers. The kernel visits each half-image once and accumulates, per
  row and class, the pixel count and the sum of the log-probabilities under the class's mask; the host
  code after it forms the weights from the counts and weights the per-class sums.

  On the extended reals the two are one number: the class weight is a nonnegative real, multiplication by
  a nonnegative real distributes over every sum of extended reals, and a sum over classes of "mask times
  value" is the value at the pixel's own class (`Cert.WCE.resK_eq_resR`). No finiteness of the logits is
  used, so the precondition is never opened. The kernel's value is read off its frame run
  (`Cert.KernelIdeal.KValue.run`), the reference's off its operation chain
  (`Cert.ReferenceIdeal.RefValue.run`); the ideal pass rewrote nothing, so `preserves` is `True`.
-/
import proofs.«429264_j111669149713_3_alg».proof.Defs
import proofs.«429264_j111669149713_3_alg».proof.Proof.Gen.Kernel
import proofs.«429264_j111669149713_3_alg».proof.Proof.Gen.Kernel.Skeleton
import proofs.«429264_j111669149713_3_alg».proof.Proof.Gen.Kernel.Launch
import proofs.«429264_j111669149713_3_alg».proof.Proof.Gen.Kernel.Points
import proofs.«429264_j111669149713_3_alg».proof.Proof.Gen.Kernel.Frame
import proofs.«429264_j111669149713_3_alg».proof.Proof.Gen.KernelIdeal
import proofs.«429264_j111669149713_3_alg».proof.Proof.Gen.KernelIdeal.Skeleton
import proofs.«429264_j111669149713_3_alg».proof.Proof.Gen.KernelIdeal.Launch
import proofs.«429264_j111669149713_3_alg».proof.Proof.Gen.KernelIdeal.Points
import proofs.«429264_j111669149713_3_alg».proof.Proof.Gen.KernelIdeal.Frame
import proofs.«429264_j111669149713_3_alg».proof.Proof.Gen.ReferenceIdeal
import proofs.«429264_j111669149713_3_alg».proof.Proof.Gen.Pre_finite_inputs
import proofs.«429264_j111669149713_3_alg».proof.Proof.Regroup
import proofs.«429264_j111669149713_3_alg».proof.Proof.KValue
import proofs.«429264_j111669149713_3_alg».proof.Proof.RefValue
import Idealize.ShloMosaic.Adequacy
import Idealize.ShloMosaic.Init

noncomputable section

namespace Cert.Proof

open Idealize.ShloMosaic Idealize.SL.Sem

/-- The word-level kernel runs and keeps its arguments: its generated frame. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.RefValue.run m ρ)

/-- From memories that agree on the two arguments both programs end with the same extended real: the kernel
    with the per-class arrangement, the reference with the pixel-by-pixel one. -/
theorem algebraic : Cert.algebraic_KernelIdeal_ReferenceIdeal := by
  intro m ρ m' ρ' _ hagree
  refine ⟨fun c => (fun _ => Cert.WCE.resK
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))),
    Cert.KernelIdeal.KValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2]
  funext _
  exact (Cert.WCE.resK_eq_resR _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
